-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S2000000x32 : Shape := ⟨2, ![2000000, 32]⟩
abbrev S40x64 : Shape := ⟨2, ![40, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S20001 : Shape := ⟨1, ![20001]⟩
abbrev S_ : Shape := ⟨0, ![]⟩
abbrev S1 : Shape := ⟨1, ![1]⟩
abbrev S20000 : Shape := ⟨1, ![20000]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel
  bcast_S_S2000000x32 : S_.BroadcastsInDim S2000000x32 (![] : Fin 0 → Fin S2000000x32.rank)
  reducesTo_S2000000x32_S_d0_1 : S2000000x32.ReducesTo [0, 1] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S20001_S1_0 : S20001.Slices ![0] S1
  shapeCasts_S1_S_ : S1.ShapeCasts S_
  slices_S20001_S20000_1 : S20001.Slices ![1] S20000
  slices_S20001_S20000_0 : S20001.Slices ![0] S20000
  reducesTo_S20000_S_d0 : S20000.ReducesTo [0] S_
  slices_S20001_S1_20000 : S20001.Slices ![20000] S1

variable [Facts]

def fn_part2 {F : FTy → Type} [FloatOps F] (main_arg7 : FVec F S32 .f32) (main_arg8 : IVec S20001 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : IVec S1 32 := (extractStridedSlice S1 ![0] · slices_S20001_S1_0) main_arg8
  let main_v40 : IVec S_ 32 := shapeCast S_ main_v39 shapeCasts_S1_S_
  let main_c_14 : IVec S_ 32 := constantI S_ 32 0#32
  let main_v41 : IVec S_ 1 := cmpi .eq main_v40 main_c_14
  let main_v42 : IVec S_ 1 := andi main_v38 main_v41
  let main_v43 : IVec S20000 32 := (extractStridedSlice S20000 ![1] · slices_S20001_S20000_1) main_arg8
  let main_v44 : IVec S20000 32 := (extractStridedSlice S20000 ![0] · slices_S20001_S20000_0) main_arg8
  let main_v45 : IVec S20000 1 := cmpi .sge main_v43 main_v44
  let main_c_15 : IVec S_ 1 := constantI S_ 1 1#1
  let main_v46 : IVec S_ 1 := (fun x v => Host.reduce IntOp.andi x v reducesTo_S20000_S_d0 h_S_) main_v45 main_c_15
  let main_v47 : IVec S_ 1 := andi main_v42 main_v46
  let main_v48 : IVec S1 32 := (extractStridedSlice S1 ![20000] · slices_S20001_S1_20000) main_arg8
  let main_v49 : IVec S_ 32 := shapeCast S_ main_v48 shapeCasts_S1_S_
  let main_c_16 : IVec S_ 32 := constantI S_ 32 2000000#32
  let main_v50 : IVec S_ 1 := cmpi .eq main_v49 main_c_16
  let main_v51 : IVec S_ 1 := andi main_v47 main_v50
  main_v51

def fn_part1 {F : FTy → Type} [FloatOps F] (main_arg4 : FVec F S64x64 .f32) (main_arg5 : FVec F S64 .f32) (main_arg6 : FVec F S64x32 .f32) (main_arg7 : FVec F S32 .f32) (main_arg8 : IVec S20001 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_arg8 main_v33

def fn {F : FTy → Type} [FloatOps F] (main_arg0 : FVec F S2000000x8 .f32) (main_arg1 : FVec F S2000000x32 .f32) (main_arg2 : FVec F S40x64 .f32) (main_arg3 : FVec F S64 .f32) (main_arg4 : FVec F S64x64 .f32) (main_arg5 : FVec F S64 .f32) (main_arg6 : FVec F S64x32 .f32) (main_arg7 : FVec F S32 .f32) (main_arg8 : IVec S20001 32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x32 .f32 := Host.absf main_arg1
  let main_cst_0 : FVec F S_ .f32 := constant S_ .f32 0x7F800000#32
  let main_v5 : FVec F S2000000x32 .f32 := broadcastInDim S2000000x32 ![] bcast_S_S2000000x32 main_cst_0
  let main_v6 : IVec S2000000x32 1 := cmpf .olt main_v4 main_v5
  let main_c_1 : IVec S_ 1 := constantI S_ 1 1#1
  let main_v7 : IVec S_ 1 := (fun x v => Host.reduce IntOp.andi x v reducesTo_S2000000x32_S_d0_1 h_S_) main_v6 main_c_1
  let main_v8 : IVec S_ 1 := andi main_v3 main_v7
  let main_v9 : FVec F S40x64 .f32 := Host.absf main_arg2
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S2000000x8 : Shape := ⟨2, ![2000000, 8]⟩
abbrev S2000000x32 : Shape := ⟨2, ![2000000, 32]⟩
abbrev S40x64 : Shape := ⟨2, ![40, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S20001 : Shape := ⟨1, ![20001]⟩
abbrev S8000x8 : Shape := ⟨2, ![8000, 8]⟩
abbrev S8000x32 : Shape := ⟨2, ![8000, 32]⟩
abbrev S1x32 : Shape := ⟨2, ![1, 32]⟩
abbrev S8000x40 : Shape := ⟨2, ![8000, 40]⟩
abbrev S8000x64 : Shape := ⟨2, ![8000, 64]⟩
abbrev S1x64 : Shape := ⟨2, ![1, 64]⟩
abbrev S_ : Shape := ⟨0, ![]⟩
abbrev S2000001x32 : Shape := ⟨2, ![2000001, 32]⟩
abbrev S20001x1 : Shape := ⟨2, ![20001, 1]⟩
abbrev S1 : Shape := ⟨1, ![1]⟩
abbrev S1x1 : Shape := ⟨2, ![1, 1]⟩
abbrev S20001x32 : Shape := ⟨2, ![20001, 32]⟩
abbrev S20000x32 : Shape := ⟨2, ![20000, 32]⟩

abbrev nBuf : Space → Nat
  | .hbm => 39
  | .vmem => 13
  | .smem => 0
  | _ => 0

abbrev bufTy : (tb : Table) → Fin (tcTables nBuf tb) → BufTy
  | .hbm, ⟨0, _⟩ => ⟨S2000000x8, .f32⟩
  | .hbm, ⟨1, _⟩ => ⟨S2000000x32, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S20001, .i32⟩
  | .hbm, ⟨9, _⟩ => ⟨S2000000x32, .f32⟩
  | .hbm, ⟨10, _⟩ => ⟨S_, .f32⟩
  | .hbm, ⟨11, _⟩ => ⟨S1x32, .f32⟩
  | .hbm, ⟨12, _⟩ => ⟨S2000001x32, .f32⟩
  | .hbm, ⟨13, _⟩ => ⟨S_, .i32⟩
  | .hbm, ⟨14, _⟩ => ⟨S20001, .i32⟩
  | .hbm, ⟨15, _⟩ => ⟨S20001, .i1⟩
  | .hbm, ⟨16, _⟩ => ⟨S_, .i32⟩
  | .hbm, ⟨17, _⟩ => ⟨S20001, .i32⟩
  | .hbm, ⟨18, _⟩ => ⟨S20001, .i32⟩
  | .hbm, ⟨19, _⟩ => ⟨S20001, .i32⟩
  | .hbm, ⟨20, _⟩ => ⟨S20001x1, .i32⟩
  | .hbm, ⟨21, _⟩ => ⟨S1, .i32⟩
  | .hbm, ⟨22, _⟩ => ⟨S_, .i32⟩
  | .hbm, ⟨23, _⟩ => ⟨S20001x1, .i32⟩
  | .hbm, ⟨24, _⟩ => ⟨S20001x1, .i1⟩
  | .hbm, ⟨25, _⟩ => ⟨S1x1, .i32⟩
  | .hbm, ⟨26, _⟩ => ⟨S20001x1, .i32⟩
  | .hbm, ⟨27, _⟩ => ⟨S20001x1, .i1⟩
  | .hbm, ⟨28, _⟩ => ⟨S20001x1, .i1⟩
  | .hbm, ⟨29, _⟩ => ⟨S_, .i1⟩
  | .hbm, ⟨30, _⟩ => ⟨S20001, .i1⟩
  | .hbm, ⟨31, _⟩ => ⟨S20001x32, .f32⟩
  | .hbm, ⟨32, _⟩ => ⟨S20001x32, .i1⟩
  | .hbm, ⟨33, _⟩ => ⟨S_, .f32⟩
  | .hbm, ⟨34, _⟩ => ⟨S20001x32, .f32⟩
  | .hbm, ⟨35, _⟩ => ⟨S20001x32, .f32⟩
  | .hbm, ⟨36, _⟩ => ⟨S20000x32, .f32⟩
  | .hbm, ⟨37, _⟩ => ⟨S20000x32, .f32⟩
  | .hbm, ⟨38, _⟩ => ⟨S20000x32, .f32⟩
  | .local _ .vmem, ⟨0, _⟩ => ⟨S8000x8, .f32⟩
  | .local _ .vmem, ⟨1, _⟩ => ⟨S8000x8, .f32⟩
  | .local _ .vmem, ⟨2, _⟩ => ⟨S8000x32, .f32⟩
  | .local _ .vmem, ⟨3, _⟩ => ⟨S8000x32, .f32⟩
  | .local _ .vmem, ⟨4, _⟩ => ⟨S40x64, .f32⟩
  | .local _ .vmem, ⟨5, _⟩ => ⟨S64, .f32⟩
  | .local _ .vmem, ⟨6, _⟩ => ⟨S64x64, .f32⟩
  | .local _ .vmem, ⟨7, _⟩ => ⟨S64, .f32⟩
  | .local _ .vmem, ⟨8, _⟩ => ⟨S64x32, .f32⟩
  | .local _ .vmem, ⟨9, _⟩ => ⟨S32, .f32⟩
  | .local _ .vmem, ⟨10, _⟩ => ⟨S8000x32, .f32⟩
  | .local _ .vmem, ⟨11, _⟩ => ⟨S8000x32, .f32⟩
  | .local _ .vmem, ⟨12, _⟩ => ⟨S1x32, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8000x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S8000x8_S8000x8_0_0 : ∀ a, (![0, 0] : Fin 2 → Nat) a + S8000x8.size a ≤ S8000x8.size a
  h_S8000x8 : 0 < S8000x8.numel
  inb_S8000x32_S8000x32_0_0 : ∀ a, (![0, 0] : Fin 2 → Nat) a + S8000x32.size a ≤ S8000x32.size a
  h_S8000x32 : 0 < S8000x32.numel
  concatenates_S8000x8_S8000x32_S8000x40_d1 : Shape.Concatenates [S8000x8, S8000x32] S8000x40 1
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  iota_S8000x32_d0_w32 : S8000x32.Iotas .tc 32 [0]
  rotates_S8000x32_d0 : S8000x32.Rotates 0 none
  slices_S8000x32_o7999_0_S1x32 : S8000x32.Slices ![7999, 0] S1x32
  bcast_S_S1x32 : S_.BroadcastsInDim S1x32 (![] : Fin 0 → Fin S1x32.rank)
  concatenates_S1x32_S2000000x32_S2000001x32_d0 : Shape.Concatenates [S1x32, S2000000x32] S2000001x32 0
  bcast_S_S20001 : S_.BroadcastsInDim S20001 (![] : Fin 0 → Fin S20001.rank)
  bcast_S20001_S20001x1_0 : S20001.BroadcastsInDim S20001x1 (![0] : Fin 1 → Fin S20001x1.rank)
  bcast_S_S20001x1 : S_.BroadcastsInDim S20001x1 (![] : Fin 0 → Fin S20001x1.rank)
  bcast_S1_S1x1_1 : S1.BroadcastsInDim S1x1 (![1] : Fin 1 → Fin S1x1.rank)
  bcast_S1x1_S20001x1_0_1 : S1x1.BroadcastsInDim S20001x1 (![0, 1] : Fin 2 → Fin S20001x1.rank)
  reducesTo_S20001x1_S20001_d1 : S20001x1.ReducesTo [1] S20001
  h_S_ : 0 < S_.numel
  bcast_S20001_S20001x32_0 : S20001.BroadcastsInDim S20001x32 (![0] : Fin 1 → Fin S20001x32.rank)
  bcast_S_S20001x32 : S_.BroadcastsInDim S20001x32 (![] : Fin 0 → Fin S20001x32.rank)
  slices_S20001x32_S20000x32_1_0 : S20001x32.Slices ![1, 0] S20000x32
  slices_S20001x32_S20000x32_0_0 : S20001x32.Slices ![0, 0] S20000x32
  dot_S8000x40_S40x64_S8000x64_1_0_0_1_n_n_wf : DotDims.WF S8000x40 S40x64 S8000x64 [1] [0] [0] [1] [] []
  dot_S8000x64_S64x64_S8000x64_1_0_0_1_n_n_wf : DotDims.WF S8000x64 S64x64 S8000x64 [1] [0] [0] [1] [] []
  dot_S8000x64_S64x32_S8000x32_1_0_0_1_n_n_wf : DotDims.WF S8000x64 S64x32 S8000x32 [1] [0] [0] [1] [] []
  gather_S2000001x32_S20001x1_S20001x32_1_0_n_n_0_1_132_wf : GatherDims.WF S2000001x32 S20001x1 S20001x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S2000000x8.size a
  hwx0_0 : ∀ i : grid0.Coords, EltTy.bits .f32 = 32 ∨ (Rect.block (s := S2000000x8) S8000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S2000000x32.size a
  hwx0_1 : ∀ i : grid0.Coords, EltTy.bits .f32 = 32 ∨ (Rect.block (s := S2000000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40x64.size a ≤ S40x64.size a
  hwx0_2 : ∀ i : grid0.Coords, EltTy.bits .f32 = 32 ∨ (Rect.block (s := S40x64) S40x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32.size a ≤ S32.size a
  hwx0_7 : ∀ i : grid0.Coords, EltTy.bits .f32 = 32 ∨ (Rect.block (s := S32) S32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x32.size a ≤ S2000000x32.size a
  hwx0_8 : ∀ i : grid0.Coords, EltTy.bits .f32 = 32 ∨ (Rect.block (s := S2000000x32) S8000x32.size (cc0_transform_8 i) (hinb0_8 i)).WholeWords (EltTy.packing .f32)

variable [Facts₀]

def dot_S8000x40_S40x64_S8000x64_1_0_0_1_n_n : DotDims S8000x40 S40x64 S8000x64 where
  lhsContracting := [1]
  rhsContracting := [0]
  lhsNonContracting := [0]
  rhsNonContracting := [1]
  lhsBatch := []
  rhsBatch := []
  wf := dot_S8000x40_S40x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def gather_S2000001x32_S20001x1_S20001x32_1_0_n_n_0_1_132 : GatherDims S2000001x32 S20001x1 S20001x32 where
  offsetDims := [1]
  collapsedSliceDims := [0]
  operandBatchingDims := []
  startIndicesBatchingDims := []
  startIndexMap := [0]
  indexVectorDim := 1
  sliceSizes := ![1, 32]
  wf := gather_S2000001x32_S20001x1_S20001x32_1_0_n_n_0_1_132_wf

abbrev win0_0 : Pipeline.Window sig grid0 :=
  Pipeline.Window.ofSpec (Memref.whole main_arg0) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S8000x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S2000000x32 : Shape := ⟨2, ![2000000, 32]⟩
abbrev S40x64 : Shape := ⟨2, ![40, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S20001 : Shape := ⟨1, ![20001]⟩
abbrev S2000000x40 : Shape := ⟨2, ![2000000, 40]⟩
abbrev S2000000x64 : Shape := ⟨2, ![2000000, 64]⟩
abbrev S1x64 : Shape := ⟨2, ![1, 64]⟩
abbrev S_ : Shape := ⟨0, ![]⟩
abbrev S1x32 : Shape := ⟨2, ![1, 32]⟩
abbrev S20000 : Shape := ⟨1, ![20000]⟩
abbrev S1 : Shape := ⟨1, ![1]⟩
abbrev S19999 : Shape := ⟨1, ![19999]⟩
abbrev S2000000 : Shape := ⟨1, ![2000000]⟩
abbrev S20000x1 : Shape := ⟨2, ![20000, 1]⟩
abbrev S2000000x1 : Shape := ⟨2, ![2000000, 1]⟩
abbrev S1x1 : Shape := ⟨2, ![1, 1]⟩
abbrev S20000x32 : Shape := ⟨2, ![20000, 32]⟩

abbrev nBuf : Space → Nat
  | .hbm => 87
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x32, .f32⟩
  | .hbm, ⟨2, _⟩ => ⟨S40x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S20001, .i32⟩
  | .hbm, ⟨9, _⟩ => ⟨S2000000x40, .f32⟩
  | .hbm, ⟨10, _⟩ => ⟨S2000000x64, .f32⟩
  | .hbm, ⟨11, _⟩ => ⟨S1x64, .f32⟩
  | .hbm, ⟨12, _⟩ => ⟨S2000000x64, .f32⟩
  | .hbm, ⟨13, _⟩ => ⟨S2000000x64, .f32⟩
  | .hbm, ⟨14, _⟩ => ⟨S_, .f32⟩
  | .hbm, ⟨15, _⟩ => ⟨S2000000x64, .f32⟩
  | .hbm, ⟨16, _⟩ => ⟨S2000000x64, .f32⟩
  | .hbm, ⟨17, _⟩ => ⟨S2000000x64, .f32⟩
  | .hbm, ⟨18, _⟩ => ⟨S1x64, .f32⟩
  | .hbm, ⟨19, _⟩ => ⟨S2000000x64, .f32⟩
  | .hbm, ⟨20, _⟩ => ⟨S2000000x64, .f32⟩
  | .hbm, ⟨21, _⟩ => ⟨S_, .f32⟩
  | .hbm, ⟨22, _⟩ => ⟨S2000000x64, .f32⟩
  | .hbm, ⟨23, _⟩ => ⟨S2000000x64, .f32⟩
  | .hbm, ⟨24, _⟩ => ⟨S2000000x32, .f32⟩
  | .hbm, ⟨25, _⟩ => ⟨S1x32, .f32⟩
  | .hbm, ⟨26, _⟩ => ⟨S2000000x32, .f32⟩
  | .hbm, ⟨27, _⟩ => ⟨S2000000x32, .f32⟩
  | .hbm, ⟨28, _⟩ => ⟨S20000, .i32⟩
  | .hbm, ⟨29, _⟩ => ⟨S20000, .i32⟩
  | .hbm, ⟨30, _⟩ => ⟨S20000, .i32⟩
  | .hbm, ⟨31, _⟩ => ⟨S20000, .i32⟩
  | .hbm, ⟨32, _⟩ => ⟨S1, .i32⟩
  | .hbm, ⟨33, _⟩ => ⟨S19999, .i32⟩
  | .hbm, ⟨34, _⟩ => ⟨S20000, .i32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S20000, .i32⟩
  | .hbm, ⟨39, _⟩ => ⟨S_, .i32⟩
  | .hbm, ⟨40, _⟩ => ⟨S_, .i32⟩
  | .hbm, ⟨41, _⟩ => ⟨S20000, .i32⟩
  | .hbm, ⟨42, _⟩ => ⟨S_, .i32⟩
  | .hbm, ⟨43, _⟩ => ⟨S2000000, .i32⟩
  | .hbm, ⟨44, _⟩ => ⟨S_, .i32⟩
  | .hbm, ⟨45, _⟩ => ⟨S20000, .i32⟩
  | .hbm, ⟨46, _⟩ => ⟨S20000, .i1⟩
  | .hbm, ⟨47, _⟩ => ⟨S_, .i32⟩
  | .hbm, ⟨48, _⟩ => ⟨S20000, .i32⟩
  | .hbm, ⟨49, _⟩ => ⟨S20000, .i32⟩
  | .hbm, ⟨50, _⟩ => ⟨S20000, .i32⟩
  | .hbm, ⟨51, _⟩ => ⟨S20000x1, .i32⟩
  | .hbm, ⟨52, _⟩ => ⟨S_, .i32⟩
  | .hbm, ⟨53, _⟩ => ⟨S20000, .i32⟩
  | .hbm, ⟨54, _⟩ => ⟨S2000000, .i32⟩
  | .hbm, ⟨55, _⟩ => ⟨S_, .i32⟩
  | .hbm, ⟨56, _⟩ => ⟨S_, .i32⟩
  | .hbm, ⟨57, _⟩ => ⟨S2000000, .i32⟩
  | .hbm, ⟨58, _⟩ => ⟨S_, .i32⟩
  | .hbm, ⟨59, _⟩ => ⟨S2000000, .i32⟩
  | .hbm, ⟨60, _⟩ => ⟨S2000000, .i32⟩
  | .hbm, ⟨61, _⟩ => ⟨S_, .i32⟩
  | .hbm, ⟨62, _⟩ => ⟨S2000000, .i32⟩
  | .hbm, ⟨63, _⟩ => ⟨S2000000, .i1⟩
  | .hbm, ⟨64, _⟩ => ⟨S_, .i32⟩
  | .hbm, ⟨65, _⟩ => ⟨S2000000, .i32⟩
  | .hbm, ⟨66, _⟩ => ⟨S2000000, .i32⟩
  | .hbm, ⟨67, _⟩ => ⟨S2000000, .i32⟩
  | .hbm, ⟨68, _⟩ => ⟨S2000000x1, .i32⟩
  | .hbm, ⟨69, _⟩ => ⟨S1, .i32⟩
  | .hbm, ⟨70, _⟩ => ⟨S_, .i32⟩
  | .hbm, ⟨71, _⟩ => ⟨S2000000x1, .i32⟩
  | .hbm, ⟨72, _⟩ => ⟨S2000000x1, .i1⟩
  | .hbm, ⟨73, _⟩ => ⟨S1x1, .i32⟩
  | .hbm, ⟨74, _⟩ => ⟨S2000000x1, .i32⟩
  | .hbm, ⟨75, _⟩ => ⟨S2000000x1, .i1⟩
  | .hbm, ⟨76, _⟩ => ⟨S2000000x1, .i1⟩
  | .hbm, ⟨77, _⟩ => ⟨S_, .i1⟩
  | .hbm, ⟨78, _⟩ => ⟨S2000000, .i1⟩
  | .hbm, ⟨79, _⟩ => ⟨S2000000, .i32⟩
  | .hbm, ⟨80, _⟩ => ⟨S_, .i32⟩
  | .hbm, ⟨81, _⟩ => ⟨S2000000, .i32⟩
  | .hbm, ⟨82, _⟩ => ⟨S2000000, .i32⟩
  | .hbm, ⟨83, _⟩ => ⟨S_, .f32⟩
  | .hbm, ⟨84, _⟩ => ⟨S20000x32, .f32⟩
  | .hbm, ⟨85, _⟩ => ⟨S2000000x1, .i32⟩
  | .hbm, ⟨86, _⟩ => ⟨S20000x32, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_cst : Ref sig .tc := ⟨.hbm, 14, rfl⟩
abbrev main_call0_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_cst : Ref sig .tc := ⟨.hbm, 21, rfl⟩
abbrev main_call1_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call2_v0 : Ref sig .tc := ⟨.hbm, 28, rfl⟩
abbrev main_call2_v1 : Ref sig .tc := ⟨.hbm, 29, rfl⟩
abbrev main_v15 : Ref sig .tc := ⟨.hbm, 30, rfl⟩
abbrev main_v16 : Ref sig .tc := ⟨.hbm, 31, rfl⟩
abbrev main_call3_v0 : Ref sig .tc := ⟨.hbm, 32, rfl⟩
abbrev main_call3_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_c_0 : Ref sig .tc := ⟨.hbm, 37, rfl⟩
abbrev main_v19 : Ref sig .tc := ⟨.hbm, 38, rfl⟩
abbrev main_call4_call0_c : Ref sig .tc := ⟨.hbm, 39, rfl⟩
abbrev main_call4_call0_v0 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_c_2 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_call5_call0_c : Ref sig .tc := ⟨.hbm, 55, rfl⟩
abbrev main_call5_call0_v0 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_call6_c : Ref sig .tc := ⟨.hbm, 61, rfl⟩
abbrev main_call6_v0 : Ref sig .tc := ⟨.hbm, 62, rfl⟩
abbrev main_call6_v1 : Ref sig .tc := ⟨.hbm, 63, rfl⟩
abbrev main_call6_c_0 : Ref sig .tc := ⟨.hbm, 64, rfl⟩
abbrev main_call6_v2 : Ref sig .tc := ⟨.hbm, 65, rfl⟩
abbrev main_call6_v3 : Ref sig .tc := ⟨.hbm, 66, rfl⟩
abbrev main_call6_v4 : Ref sig .tc := ⟨.hbm, 67, rfl⟩
abbrev main_call6_v5 : Ref sig .tc := ⟨.hbm, 68, rfl⟩
abbrev main_call6_c_1 : Ref sig .tc := ⟨.hbm, 69, rfl⟩
abbrev main_call6_c_2 : Ref sig .tc := ⟨.hbm, 70, rfl⟩
abbrev main_call6_v6 : Ref sig .tc := ⟨.hbm, 71, rfl⟩
abbrev main_call6_v7 : Ref sig .tc := ⟨.hbm, 72, rfl⟩
abbrev main_call6_v8 : Ref sig .tc := ⟨.hbm, 73, rfl⟩
abbrev main_call6_v9 : Ref sig .tc := ⟨.hbm, 74, rfl⟩
abbrev main_call6_v10 : Ref sig .tc := ⟨.hbm, 75, rfl⟩
abbrev main_call6_v11 : Ref sig .tc := ⟨.hbm, 76, rfl⟩
abbrev main_call6_c_3 : Ref sig .tc := ⟨.hbm, 77, rfl⟩
abbrev main_call6_v12 : Ref sig .tc := ⟨.hbm, 78, rfl⟩
abbrev main_call6_v13 : Ref sig .tc := ⟨.hbm, 79, rfl⟩
abbrev main_call6_c_4 : Ref sig .tc := ⟨.hbm, 80, rfl⟩
abbrev main_call6_v14 : Ref sig .tc := ⟨.hbm, 81, rfl⟩
abbrev main_v33 : Ref sig .tc := ⟨.hbm, 82, rfl⟩
abbrev main_cst : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩

abbrev nD : Nat := 1
abbrev τ : Topo := Topo.v7x

variable {F : FTy → Type} [FloatOps F]

class Facts₀ : Prop where
  concatenates_S2000000x8_S2000000x32_S2000000x40_d1 : Shape.Concatenates [S2000000x8, S2000000x32] S2000000x40 1
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  slices_S20001_S20000_1 : S20001.Slices ![1] S20000
  slices_S20001_S20000_0 : S20001.Slices ![0] S20000
  slices_S20000_S1_19999 : S20000.Slices ![19999] S1
  slices_S20000_S19999_0 : S20000.Slices ![0] S19999
  concatenates_S1_S19999_S20000_d0 : Shape.Concatenates [S1, S19999] S20000 0
  bcast_S_S1 : S_.BroadcastsInDim S1 (![] : Fin 0 → Fin S1.rank)
  bcast_S_S_ : S_.BroadcastsInDim S_ (![] : Fin 0 → Fin S_.rank)
  reduceWindows_S20000_S20000_w20000s1p19999_0 : S20000.ReduceWindows (![20000] : Fin 1 → Nat) ![1] ![19999] ![0] S20000
  h_S_ : 0 < S_.numel
  bcast_S_S2000000 : S_.BroadcastsInDim S2000000 (![] : Fin 0 → Fin S2000000.rank)
  bcast_S_S20000 : S_.BroadcastsInDim S20000 (![] : Fin 0 → Fin S20000.rank)
  bcast_S20000_S20000x1_0 : S20000.BroadcastsInDim S20000x1 (![0] : Fin 1 → Fin S20000x1.rank)
  reduceWindows_S2000000_S2000000_w2000000s1p1999999_0 : S2000000.ReduceWindows (![2000000] : Fin 1 → Nat) ![1] ![1999999] ![0] S2000000
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S_S20000x32 : S_.BroadcastsInDim S20000x32 (![] : Fin 0 → Fin S20000x32.rank)
  dot_S2000000x40_S40x64_S2000000x64_1_0_0_1_n_n_wf : DotDims.WF S2000000x40 S40x64 S2000000x64 [1] [0] [0] [1] [] []
  dot_S2000000x64_S64x64_S2000000x64_1_0_0_1_n_n_wf : DotDims.WF S2000000x64 S64x64 S2000000x64 [1] [0] [0] [1] [] []
  dot_S2000000x64_S64x32_S2000000x32_1_0_0_1_n_n_wf : DotDims.WF S2000000x64 S64x32 S2000000x32 [1] [0] [0] [1] [] []
  scatter_S20000_S1_S__n_0_0_0_wf : ScatterDims.WF S20000 S1 S_ [] [0] [0] 0
  scatter_S2000000_S20000x1_S20000_n_0_0_1_wf : ScatterDims.WF S2000000 S20000x1 S20000 [] [0] [0] 1
  gather_S20000_S2000000x1_S2000000_n_0_n_n_0_1_1_wf : GatherDims.WF S20000 S2000000x1 S2000000 [] [0] [] [0] [] 1 ![1]
  scatter_S20000x32_S2000000x1_S2000000x32_1_0_0_1_wf : ScatterDims.WF S20000x32 S2000000x1 S2000000x32 [1] [0] [0] 1

variable [Facts₀]

def dot_S2000000x40_S40x64_S2000000x64_1_0_0_1_n_n : DotDims S2000000x40 S40x64 S2000000x64 where
  lhsContracting := [1]
  rhsContracting := [0]
  lhsNonContracting := [0]
  rhsNonContracting := [1]
  lhsBatch := []
  rhsBatch := []
  wf := dot_S2000000x40_S40x64_S2000000x64_1_0_0_1_n_n_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x64_S64x32_S2000000x32_1_0_0_1_n_n : DotDims S2000000x64 S64x32 S2000000x32 where
  lhsContracting := [1]
  rhsContracting := [0]
  lhsNonContracting := [0]
  rhsNonContracting := [1]
  lhsBatch := []
  rhsBatch := []
  wf := dot_S2000000x64_S64x32_S2000000x32_1_0_0_1_n_n_wf
def scatter_S20000_S1_S__n_0_0_0 : ScatterDims S20000 S1 S_ where
  updateWindowDims := []
  insertedWindowDims := [0]
  scatterDimsToOperandDims := [0]
  indexVectorDim := 0
  wf := scatter_S20000_S1_S__n_0_0_0_wf
def scatter_S2000000_S20000x1_S20000_n_0_0_1 : ScatterDims S2000000 S20000x1 S20000 where
  updateWindowDims := []
  insertedWindowDims := [0]
  scatterDimsToOperandDims := [0]
  indexVectorDim := 1
  wf := scatter_S2000000_S20000x1_S20000_n_0_0_1_wf
def gather_S20000_S2000000x1_S2000000_n_0_n_n_0_1_1 : GatherDims S20000 S2000000x1 S2000000 where
  offsetDims := []
  collapsedSliceDims := [0]
  operandBatchingDims := []
  startIndicesBatchingDims := []
  startIndexMap := [0]
  indexVectorDim := 1
  sliceSizes := ![1]
  wf := gather_S20000_S2000000x1_S2000000_n_0_n_n_0_1_1_wf
def scatter_S20000x32_S2000000x1_S2000000x32_1_0_0_1 : ScatterDims S20000x32 S2000000x1 S2000000x32 where
  updateWindowDims := [1]
  insertedWindowDims := [0]
  scatterDimsToOperandDims := [0]
  indexVectorDim := 1
  wf := scatter_S20000x32_S2000000x1_S2000000x32_1_0_0_1_wf

class Facts : Prop extends Facts₀ where

variable [Facts]
-- ==== Proof.Spec.lean ====
/-
  The mathematics both programs compute, stated once over plain index types.

  A node row is the concatenation of its 8 features and its 32 incoming embedding entries; it goes through three
  affine layers with a rectifier after the first two (`mlpRow`). The result of the whole computation pools these
  rows over consecutive groups: group `s` is the rows `ptr[s] ≤ r < ptr[s+1]`, and its entry is the sum of the
  rows' values (`segOut`). One program reaches that sum as a difference of two prefix sums (`pre`), the other by
  labelling every row with its group and adding each row to its group's entry.
-/
import Idealize.ShloMosaic.PureOps.Ideal
import Idealize.ShloMosaic.Lib.ValueIdx

noncomputable section

namespace Cert.Seg

open Idealize.ShloMosaic Idealize.ShloMosaic.ValueIdx

/-- A node's input row: its 8 features followed by its 32 embedding entries. -/
def cat (xr : Fin 8 → EReal) (hr : Fin 32 → EReal) (k : Fin 40) : EReal :=
  if h : k.val < 8 then xr ⟨k.val, h⟩ else hr ⟨k.val - 8, by omega⟩

/-- One affine layer on a row: `(a · W)[j] + b[j]`. -/
def layer {K J : Nat} (a : Fin K → EReal) (W : (⟨2, ![K, J]⟩ : Shape).Idx → EReal)
    (b : (⟨1, ![J]⟩ : Shape).Idx → EReal) (j : Fin J) : EReal :=
  (∑ k : Fin K, a k * W (ix2 k j)) + b (ix1 j)

/-- The rectifier, against the zero both programs write (the f32 word `0x00000000`). -/
def relu (v : EReal) : EReal := max v (Ideal.ofBits .f32 0x00000000#32)

/-- The three-layer perceptron on one node row. -/
def mlpRow (xr : Fin 8 → EReal) (hr : Fin 32 → EReal)
    (W1 : (⟨2, ![40, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal) (e : Fin 32) : EReal :=
  layer (fun j => relu (layer (fun j => relu (layer (cat xr hr) W1 b1 j)) W2 b2 j)) W3 b3 e

/-- The perceptron on row `r` of an array of `n` node rows. -/
def rows {n : Nat} (x : (⟨2, ![n, 8]⟩ : Shape).Idx → EReal) (hn : (⟨2, ![n, 32]⟩ : Shape).Idx → EReal)
    (W1 : (⟨2, ![40, 64]⟩ : Shape).Idx → EReal) (b1 : (⟨1, ![64]⟩ : Shape).Idx → EReal)
    (W2 : (⟨2, ![64, 64]⟩ : Shape).Idx → EReal) (b2 : (⟨1, ![64]⟩ : Shape).Idx → EReal)
    (W3 : (⟨2, ![64, 32]⟩ : Shape).Idx → EReal) (b3 : (⟨1, ![32]⟩ : Shape).Idx → EReal)
    (r : Fin n) (e : Fin 32) : EReal :=
  mlpRow (fun k => x (ix2 r k)) (fun k => hn (ix2 r k)) W1 b1 W2 b2 W3 b3 e

/-- The sum of the first `k` of the 2,000,000 rows' values. -/
def pre (f : Fin 2000000 → EReal) (k : ℕ) : EReal := ∑ r : Fin 2000000, if r.val < k then f r else 0

/-- The sum of the rows `a ≤ r < b`. -/
def seg (f : Fin 2000000 → EReal) (a b : ℕ) : EReal :=
  ∑ r : Fin 2000000, if a ≤ r.val ∧ r.val < b then f r else 0

/-- Entry `m` of the group pointer, as a natural number. -/
def pnat (ptr : (⟨1, ![20001]⟩ : Shape).Idx → BitVec 32) (m : Fin 20001) : ℕ := (ptr (ix1 m)).toNat

/-- The pooled result: entry `(s, e)` is the sum of column `e` over the rows of group `s`. -/
def segOut (f : Fin 2000000 → Fin 32 → EReal) (ptr : (⟨1, ![20001]⟩ : Shape).Idx → BitVec 32) :
    (⟨2, ![20000, 32]⟩ : Shape).Idx → EReal :=
  fun j => seg (fun r => f r (j 1)) (pnat ptr (Fin.castSucc (j 0))) (pnat ptr (Fin.succ (j 0)))

/-- The pointer delimits 20,000 consecutive groups that tile the 2,000,000 rows. -/
structure Csr (ptr : (⟨1, ![20001]⟩ : Shape).Idx → BitVec 32) : Prop where
  first : pnat ptr 0 = 0
  mono : ∀ m : Fin 20000, pnat ptr m.castSucc ≤ pnat ptr m.succ
  last : pnat ptr (Fin.last 20000) = 2000000

/-- Every entry of an array is a real number. -/
def Real' {ι : Type} (v : ι → EReal) : Prop := ∀ i, ∃ a : ℝ, v i = (a : EReal)

end Cert.Seg

end
-- ==== Proof.Scan.lean ====
/-
  The doubling scan is an inclusive prefix sum.

  On an [8000, 32] tile, thirteen steps  acc := acc + (row ≥ d ? rotate(acc, d) : 0)  for d = 1, 2, 4, …, 4096.
  After the step of amount w the accumulator at row i holds the sum of the input's column over the WINDOW of rows j with
  j ≤ i < j + 2w (one step doubles the window's width: the window of width w ending at i and the window of width w ending
  at i − w are adjacent and disjoint, and for i < w the window of width w already reaches row 0). Thirteen doublings from
  width 1 reach width 8192 ≥ 8000, where the window is every row j ≤ i. Only associativity and commutativity of the sum are
  used, so nothing is asked of the values' finiteness.
-/
import Mathlib.Algebra.BigOperators.Group.Finset.Basic
import Mathlib.Algebra.BigOperators.Group.Finset.Piecewise
import Idealize.ShloMosaic.PureOps.Ideal
import Idealize.ShloMosaic.PureOps.Ideal.Laws
import Idealize.ShloMosaic.Lib.ValueIdx
import Idealize.ShloMosaic.Lib.KernelVsHost
import Idealize.ShloMosaic.Lib.Pipeline.Value
import Idealize.ShloMosaic.Lib.StableHlo.Predicate

namespace Cert.Seg.Scan

open Idealize.ShloMosaic Idealize.ShloMosaic.ValueIdx
open scoped BigOperators

noncomputable section

abbrev T : Shape := ⟨2, ![8000, 32]⟩

/-- One doubling step. -/
def step (hr : T.Rotates 0 none) (iot : IVec T 32) (d : BitVec 32) (acc : FVec Ideal T .f32) : FVec Ideal T .f32 :=
  addf acc (select (cmpi .sge iot (broadcast T d)) (dynamicRotate 0 d none acc hr) (broadcast T (Scalar.ofBits (F := Ideal) .f32 0x00000000#32)))

/-- The accumulator holds, at every row i, the sum of the input's column over the window of the w rows ending at i. -/
def IsWin (a acc : FVec Ideal T .f32) (w : Nat) : Prop :=
  ∀ (i : Fin 8000) (e : Fin 32),
    acc (ix2 i e) = ∑ j : Fin 8000, if j.val ≤ i.val ∧ i.val < j.val + w then a (ix2 j e) else 0

/-- One step read at an index: the accumulator there, plus the accumulator w rows above when there is such a row. -/
theorem step_apply (hr : T.Rotates 0 none) (hi : T.Iotas .tc 32 [0]) (d : BitVec 32) (w : Nat) (hd : d.toNat = w)
    (hw : w < 8000) (acc : FVec Ideal T .f32) (i : Fin 8000) (e : Fin 32) :
    step hr (iota .tc T 32 [0] hi) d acc (ix2 i e)
      = acc (ix2 i e) + if h : w ≤ i.val then acc (ix2 (⟨i.val - w, by omega⟩ : Fin 8000) e) else 0 := by
  have hlt := i.isLt
  have hiN : (BitVec.ofNat 32 ((ix2 i e : T.Idx) 0).val).toNat = i.val := by
    show (BitVec.ofNat 32 i.val).toNat = i.val
    rw [BitVec.toNat_ofNat]; omega
  have hcmp : IntOp.cmpi .sge (BitVec.ofNat 32 ((ix2 i e : T.Idx) 0).val) d = (1 : BitVec 1) ↔ w ≤ i.val := by
    have h := StableHlo.Predicate.sge_iff_toNat (a := BitVec.ofNat 32 ((ix2 i e : T.Idx) 0).val) (b := d)
      (by rw [hiN]; omega) (by rw [hd]; omega)
    rw [hiN, hd] at h
    exact h
  simp only [step, addf, select, cmpi, broadcast, Ideal.addf_def]
  rw [iota_single_apply]
  congr 1
  unfold Scalar.select
  by_cases h : w ≤ i.val
  · rw [if_pos (hcmp.mpr h), dif_pos h]
    refine dynamicRotate_apply 0 d acc hr _ _ (fun b => ?_)
    match b with
    | ⟨0, h0⟩ =>
      have hb : (⟨0, h0⟩ : Fin T.rank) = 0 := rfl
      show i.val - w = if _ then (i.val + 8000 - d.toNat % 8000) % 8000 else _
      rw [if_pos hb, hd, Nat.mod_eq_of_lt hw]; omega
    | ⟨1, h1⟩ =>
      have hb : ¬ (⟨1, h1⟩ : Fin T.rank) = 0 := fun hc => Nat.one_ne_zero (congrArg Fin.val hc)
      show e.val = if _ then _ else e.val
      rw [if_neg hb]
  · rw [if_neg (fun hc => h (hcmp.mp hc)), dif_neg h]
    exact Ideal.ofBits_zero_f32

/-- A step of amount w doubles the window: the window of width w ending at i and the one ending at i − w are adjacent and
    disjoint, and for i < w the window of width w already starts at row 0. -/
theorem step_win (hr : T.Rotates 0 none) (hi : T.Iotas .tc 32 [0]) (a acc : FVec Ideal T .f32) (d : BitVec 32)
    (w w' : Nat) (hd : d.toNat = w) (hw : w < 8000) (hw' : w' = 2 * w) (h : IsWin a acc w) :
    IsWin a (step hr (iota .tc T 32 [0] hi) d acc) w' := by
  intro i e
  subst hw'
  have hlt := i.isLt
  rw [step_apply hr hi d w hd hw acc i e, h i e]
  by_cases hwi : w ≤ i.val
  · rw [dif_pos hwi, h, ← Finset.sum_add_distrib]
    refine Finset.sum_congr rfl (fun j _ => ?_)
    show (if j.val ≤ i.val ∧ i.val < j.val + w then a (ix2 j e) else 0)
        + (if j.val ≤ i.val - w ∧ i.val - w < j.val + w then a (ix2 j e) else 0)
      = if j.val ≤ i.val ∧ i.val < j.val + 2 * w then a (ix2 j e) else 0
    by_cases h1 : j.val ≤ i.val ∧ i.val < j.val + w
    · rw [if_pos h1, if_neg (by omega), if_pos (by omega), add_zero]
    · by_cases h2 : j.val ≤ i.val - w ∧ i.val - w < j.val + w
      · rw [if_neg h1, if_pos h2, if_pos (by omega), zero_add]
      · rw [if_neg h1, if_neg h2, if_neg (by omega), add_zero]
  · rw [dif_neg hwi, add_zero]
    refine Finset.sum_congr rfl (fun j _ => ?_)
    by_cases h1 : j.val ≤ i.val ∧ i.val < j.val + w
    · rw [if_pos h1, if_pos (by omega)]
    · rw [if_neg h1, if_neg (by omega)]

/-- The input itself is its windows of width one. -/
theorem win_one (a : FVec Ideal T .f32) : IsWin a a 1 := by
  intro i e
  rw [Finset.sum_eq_single i]
  · rw [if_pos (by omega)]
  · intro j _ hj
    rw [if_neg]
    intro hc
    exact hj (Fin.ext (by omega))
  · intro h
    exact absurd (Finset.mem_univ i) h

/-- A window at least as wide as the tile is every row up to i. -/
theorem win_full (a acc : FVec Ideal T .f32) (w : Nat) (hw : 8000 ≤ w) (h : IsWin a acc w) (i : Fin 8000) (e : Fin 32) :
    acc (ix2 i e) = ∑ j : Fin 8000, if j.val ≤ i.val then a (ix2 j e) else 0 := by
  rw [h i e]
  refine Finset.sum_congr rfl (fun j _ => ?_)
  have hlt := i.isLt
  by_cases h1 : j.val ≤ i.val
  · rw [if_pos h1, if_pos ⟨h1, by omega⟩]
  · rw [if_neg h1, if_neg (fun hc => h1 hc.1)]

theorem scan_apply (hr : T.Rotates 0 none) (hi : T.Iotas .tc 32 [0]) (a : FVec Ideal T .f32) (i : Fin 8000) (e : Fin 32) :
    step hr (iota .tc T 32 [0] hi) 4096#32 (step hr (iota .tc T 32 [0] hi) 2048#32 (step hr (iota .tc T 32 [0] hi) 1024#32 (step hr (iota .tc T 32 [0] hi) 512#32
      (step hr (iota .tc T 32 [0] hi) 256#32 (step hr (iota .tc T 32 [0] hi) 128#32 (step hr (iota .tc T 32 [0] hi) 64#32 (step hr (iota .tc T 32 [0] hi) 32#32
      (step hr (iota .tc T 32 [0] hi) 16#32 (step hr (iota .tc T 32 [0] hi) 8#32 (step hr (iota .tc T 32 [0] hi) 4#32 (step hr (iota .tc T 32 [0] hi) 2#32
      (step hr (iota .tc T 32 [0] hi) 1#32 a)))))))))))) (ix2 i e)
    = ∑ j : Fin 8000, if j.val ≤ i.val then a (ix2 j e) else 0 := by
  have h0 := win_one a
  have h1 := step_win hr hi a _ 1#32 1 2 rfl (by omega) rfl h0
  have h2 := step_win hr hi a _ 2#32 2 4 rfl (by omega) rfl h1
  have h3 := step_win hr hi a _ 4#32 4 8 rfl (by omega) rfl h2
  have h4 := step_win hr hi a _ 8#32 8 16 rfl (by omega) rfl h3
  have h5 := step_win hr hi a _ 16#32 16 32 rfl (by omega) rfl h4
  have h6 := step_win hr hi a _ 32#32 32 64 rfl (by omega) rfl h5
  have h7 := step_win hr hi a _ 64#32 64 128 rfl (by omega) rfl h6
  have h8 := step_win hr hi a _ 128#32 128 256 rfl (by omega) rfl h7
  have h9 := step_win hr hi a _ 256#32 256 512 rfl (by omega) rfl h8
  have h10 := step_win hr hi a _ 512#32 512 1024 rfl (by omega) rfl h9
  have h11 := step_win hr hi a _ 1024#32 1024 2048 rfl (by omega) rfl h10
  have h12 := step_win hr hi a _ 2048#32 2048 4096 rfl (by omega) rfl h11
  have h13 := step_win hr hi a _ 4096#32 4096 8192 rfl (by omega) rfl h12
  exact win_full a _ 8192 (by omega) h13 i e

end

end Cert.Seg.Scan
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibConcatCols.lean ====
/-
  Two arrays of rows laid side by side, read at an entry.

  Joining an n × w₁ array and an n × w₂ array along the column axis gives an n × w array whose entry (r, k) is the
  first array's entry (r, k) for k < w₁ and the second array's entry (r, k − w₁) from column w₁ on.
-/
import Idealize.ShloMosaic.Lib.Pipeline.Value
import Idealize.ShloMosaic.Lib.ValueIdx

noncomputable section

namespace Cert.LibConcatCols

open Idealize.ShloMosaic Idealize.ShloMosaic.ValueIdx

variable {α : Type} {n w₁ w₂ w : Nat}

/-- A column of the joined array left of the seam is the first array's column. -/
theorem concat_left (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₁) (hk : k.val < w) :
    concatenate ⟨2, ![n, w]⟩ 1 [⟨⟨2, ![n, w₁]⟩, x⟩, ⟨⟨2, ![n, w₂]⟩, y⟩] h (ix2 r ⟨k.val, hk⟩) = x (ix2 r k) :=
  concatenate_pair_apply_left 1 x y h (ix2 r ⟨k.val, hk⟩) rfl (ix2 r k) (fun b => match b with
    | ⟨0, _⟩ => rfl
    | ⟨1, _⟩ => rfl)

/-- A column of the joined array from the seam on is the second array's column, the first array's width less. -/
theorem concat_right (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₂) (hk : w₁ + k.val < w) :
    concatenate ⟨2, ![n, w]⟩ 1 [⟨⟨2, ![n, w₁]⟩, x⟩, ⟨⟨2, ![n, w₂]⟩, y⟩] h (ix2 r ⟨w₁ + k.val, hk⟩) = y (ix2 r k) :=
  concatenate_pair_apply_right 1 x y h (ix2 r ⟨w₁ + k.val, hk⟩) rfl rfl (ix2 r k) (fun b hb => match b, hb with
    | ⟨0, _⟩, _ => rfl
    | ⟨1, _⟩, hb => absurd rfl hb) (by show k.val + w₁ = w₁ + k.val; omega)

end Cert.LibConcatCols

end
-- ==== Proof.KTile.lean ====
/-
  One grid point of the kernel, as values. The body turns the point's 8000 node rows into the perceptron's rows,
  replaces them by their running sums down the tile (thirteen doubling steps), adds the row carried from the point
  before (zero at the first point), writes that block out and carries its last row on.
-/
import proofs.«401660_j12979391169440_1_alg».proof.Proof.Gen.KernelIdeal.Frame
import proofs.«401660_j12979391169440_1_alg».proof.Proof.Spec
import proofs.«401660_j12979391169440_1_alg».proof.Proof.Scan
import proofs.«401660_j12979391169440_1_alg».proof.Proof.LibPlainDot
import proofs.«401660_j12979391169440_1_alg».proof.Proof.LibConcatCols
import Idealize.ShloMosaic.Lib.Pipeline.Value
import Idealize.ShloMosaic.Lib.ValueIdx

set_option maxRecDepth 16384

noncomputable section

namespace Cert.KernelIdeal.KValue

open Idealize.ShloMosaic Idealize.ShloMosaic.ValueIdx Idealize.SL.Sem
open Cert.KernelIdeal Cert.KernelIdeal.Gen

/-- The row numbers of a tile, as the body builds them. -/
abbrev rowIds : IVec S8000x32 32 := iota .tc S8000x32 32 [0] Cert.KernelIdeal.Gen.iota_S8000x32_d0_w32

/-- What the body stores in the output block: the running sums of the tile's perceptron rows plus the carried row. -/
def tileOut (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) (sc : Vec Ideal S1x32 .f32) : Vec Ideal S8000x32 .f32 :=
  k0_pay6 (F := Ideal) rowIds (k0_pay5 (F := Ideal) (k0_pay3 (F := Ideal) x0 x1 x2 x3 x4 x5 x6 x7) rowIds (k0_pay4 (F := Ideal) x0 x1 x2 x3 x4 x5 x6 x7) 1#32) sc

namespace Tile

/-- The offset of a load or store of a whole rank-2 array. -/
theorem off2_zero : (![0, 0] : Fin 2 → Nat) = fun _ => 0 := funext fun a => by fin_cases a <;> rfl

/-- The offset of a load of a whole rank-1 array. -/
theorem off1_zero : (![0] : Fin 1 → Nat) = fun _ => 0 := funext fun a => by fin_cases a; rfl

/-- A bias vector set up as one row and spread down the rows reads, at (r, j), the vector's entry j. -/
theorem bias_apply {M N : Nat} (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (j : Fin N) :
    broadcastTo ⟨2, ![M, N]⟩ (shapeCast ⟨2, ![1, N]⟩ b hs) hb (ix2 r j) = b (ix1 j) := by
  refine (broadcastTo_apply _ hb (ix2 r j) (ix2 (0 : Fin 1) j) (fun a => ?_)).trans ?_
  · match a with
    | ⟨0, _⟩ => rfl
    | ⟨1, _⟩ =>
      show j.val = if N = 1 then 0 else j.val
      split
      · have := j.isLt; omega
      · rfl
  · exact shapeCast_apply b hs _ _ (by
      rw [Shape.rowMajor_val_two, Shape.rowMajor_val_one]
      show j.val = 0 * N + j.val
      omega)

/-- One affine layer of the kernel at (r, j): the product into the zero accumulator plus the spread bias. The change of
    format in front of the product is the identity on extended reals. -/
theorem affine_apply {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (a : FVec Ideal ⟨2, ![M, K]⟩ .f32) (W : FVec Ideal ⟨2, ![K, N]⟩ .f32) (b : FVec Ideal ⟨1, ![N]⟩ .f32)
    (ht : FTy.bits .bf16 < FTy.bits .f32)
    (hs : (⟨1, ![N]⟩ : Shape).ShapeCasts ⟨2, ![1, N]⟩) (hb : (⟨2, ![1, N]⟩ : Shape).Broadcasts ⟨2, ![M, N]⟩)
    (r : Fin M) (j : Fin N) :
    addf (matmul d none (truncf .bf16 a ht) (truncf .bf16 W ht) (constant ⟨2, ![M, N]⟩ .f32 0x00000000#32))
         (broadcastTo ⟨2, ![M, N]⟩ (shapeCast ⟨2, ![1, N]⟩ b hs) hb) (ix2 r j)
      = Cert.Seg.layer (fun k => a (ix2 r k)) W b j := by
  rw [addf_apply, bias_apply]
  unfold Cert.Seg.layer
  exact congrArg (· + b (ix1 j)) (Cert.LibPlainDot.matmul_zero_apply d hlc hrc hln hrn hlb hrb none (truncf .bf16 a ht) (truncf .bf16 W ht) r j)

/-- The two inputs laid side by side, read at (r, k), are the node's input row. -/
theorem cat_apply (x0 : Vec Ideal S8000x8 .f32) (x1 : Vec Ideal S8000x32 .f32) (r : Fin 8000) (k : Fin 40) :
    concatenate S8000x40 1 [⟨S8000x8, x0⟩, ⟨S8000x32, x1⟩] concatenates_S8000x8_S8000x32_S8000x40_d1 (ix2 r k)
      = Cert.Seg.cat (fun k => x0 (ix2 r k)) (fun k => x1 (ix2 r k)) k := by
  unfold Cert.Seg.cat
  have hk := k.isLt
  split
  · next h => exact Cert.LibConcatCols.concat_left x0 x1 concatenates_S8000x8_S8000x32_S8000x40_d1 r ⟨k.val, h⟩ hk
  · next h =>
    have hk' : 8 + (k.val - 8) < 40 := by omega
    have e : k = ⟨8 + (k.val - 8), hk'⟩ := Fin.ext (by show k.val = 8 + (k.val - 8); omega)
    refine (congrArg (fun q => concatenate S8000x40 1 [⟨S8000x8, x0⟩, ⟨S8000x32, x1⟩] concatenates_S8000x8_S8000x32_S8000x40_d1 (ix2 r q)) e).trans ?_
    exact Cert.LibConcatCols.concat_right x0 x1 concatenates_S8000x8_S8000x32_S8000x40_d1 r ⟨k.val - 8, by omega⟩ hk'

/-- The kernel's perceptron on the tile, read at (r, e), is the specification's perceptron on row r. -/
theorem pay3_apply (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) (r : Fin 8000) (e : Fin 32) :
    k0_pay3 (F := Ideal) x0 x1 x2 x3 x4 x5 x6 x7 (ix2 r e) = Cert.Seg.rows (n := 8000) x0 x1 x2 x3 x4 x5 x6 x7 r e := by
  unfold k0_pay3 Cert.Seg.rows Cert.Seg.mlpRow
  refine (affine_apply dot_S8000x64_S64x32_S8000x32_1_0_0_1_n_n rfl rfl rfl rfl rfl rfl _ x6 x7 bitsLt_bf16_f32 shapeCasts_S32_S1x32 broadcasts_S1x32_S8000x32 r e).trans ?_
  refine congrArg (fun a => Cert.Seg.layer a x6 x7 e) (funext fun j => ?_)
  refine congrArg (fun v => max v (Ideal.ofBits .f32 0x00000000#32)) ?_
  refine (affine_apply dot_S8000x64_S64x64_S8000x64_1_0_0_1_n_n rfl rfl rfl rfl rfl rfl _ x4 x5 bitsLt_bf16_f32 shapeCasts_S64_S1x64 broadcasts_S1x64_S8000x64 r j).trans ?_
  refine congrArg (fun a => Cert.Seg.layer a x4 x5 j) (funext fun j' => ?_)
  refine congrArg (fun v => max v (Ideal.ofBits .f32 0x00000000#32)) ?_
  refine (affine_apply dot_S8000x40_S40x64_S8000x64_1_0_0_1_n_n rfl rfl rfl rfl rfl rfl _ x2 x3 bitsLt_bf16_f32 shapeCasts_S64_S1x64 broadcasts_S1x64_S8000x64 r j').trans ?_
  exact congrArg (fun a => Cert.Seg.layer a x2 x3 j') (funext fun k => cat_apply x0 x1 r k)

/-- The first seven doubling steps, over any tile. -/
theorem pay5_eq (a : FVec Ideal S8000x32 .f32) :
    k0_pay5 (F := Ideal) a rowIds (dynamicRotate 0 1#32 none a rotates_S8000x32_d0) 1#32
      = (Cert.Seg.Scan.step rotates_S8000x32_d0 rowIds 64#32 (Cert.Seg.Scan.step rotates_S8000x32_d0 rowIds 32#32 (Cert.Seg.Scan.step rotates_S8000x32_d0 rowIds 16#32 (Cert.Seg.Scan.step rotates_S8000x32_d0 rowIds 8#32 (Cert.Seg.Scan.step rotates_S8000x32_d0 rowIds 4#32 (Cert.Seg.Scan.step rotates_S8000x32_d0 rowIds 2#32 (Cert.Seg.Scan.step rotates_S8000x32_d0 rowIds 1#32 a))))))) := rfl

/-- The last six doubling steps, then the carried row added to every row. -/
theorem pay6_eq (v : FVec Ideal S8000x32 .f32) (sc : Vec Ideal S1x32 .f32) :
    k0_pay6 (F := Ideal) rowIds v sc
      = addf (Cert.Seg.Scan.step rotates_S8000x32_d0 rowIds 4096#32 (Cert.Seg.Scan.step rotates_S8000x32_d0 rowIds 2048#32 (Cert.Seg.Scan.step rotates_S8000x32_d0 rowIds 1024#32 (Cert.Seg.Scan.step rotates_S8000x32_d0 rowIds 512#32 (Cert.Seg.Scan.step rotates_S8000x32_d0 rowIds 256#32 (Cert.Seg.Scan.step rotates_S8000x32_d0 rowIds 128#32 v)))))) (broadcastTo S8000x32 sc broadcasts_S1x32_S8000x32) := rfl

/-- A row spread down the rows reads, at (i, e), the row's entry e. -/
theorem row_apply (sc : Vec Ideal S1x32 .f32) (i : Fin 8000) (e : Fin 32) :
    broadcastTo S8000x32 sc broadcasts_S1x32_S8000x32 (ix2 i e) = sc (ix2 0 e) :=
  broadcastTo_apply sc broadcasts_S1x32_S8000x32 (ix2 i e) (ix2 0 e) (fun a => by
    match a with
    | ⟨0, _⟩ => rfl
    | ⟨1, _⟩ => rfl)

end Tile

/-- Entry (i, e) of the stored block: the sum of column e of the perceptron over the tile's rows up to i, plus the
    carried row's entry e. -/
theorem tileOut_apply (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) (sc : Vec Ideal S1x32 .f32) (i : Fin 8000) (e : Fin 32) :
    tileOut x0 x1 x2 x3 x4 x5 x6 x7 sc (ix2 i e)
      = (∑ j : Fin 8000, if j.val ≤ i.val then Cert.Seg.rows (n := 8000) x0 x1 x2 x3 x4 x5 x6 x7 j e else 0) + sc (ix2 0 e) := by
  unfold tileOut k0_pay4
  rw [Tile.pay5_eq, Tile.pay6_eq, addf_apply, Tile.row_apply,
    Cert.Seg.Scan.scan_apply rotates_S8000x32_d0 iota_S8000x32_d0_w32 (k0_pay3 (F := Ideal) x0 x1 x2 x3 x4 x5 x6 x7) i e]
  refine congrArg (· + sc (ix2 0 e)) (Finset.sum_congr rfl (fun j _ => ?_))
  rw [Tile.pay3_apply]

/-- The carried row is the block's last row. -/
theorem pay1_apply (v : FVec Ideal S8000x32 .f32) (e : Fin 32) : k0_pay1 (F := Ideal) v (ix2 0 e) = v (ix2 7999 e) := by
  unfold k0_pay1
  show shapeCast S1x32 (extractStridedSlice S1x32 ![7999, 0] v slices_S8000x32_o7999_0_S1x32) shapeCasts_S1x32_S1x32 (ix2 0 e) = _
  rw [shapeCast_self]
  exact extractStridedSlice_apply ![7999, 0] v slices_S8000x32_o7999_0_S1x32 (ix2 0 e) (ix2 7999 e) (fun a => by
    match a with
    | ⟨0, _⟩ => rfl
    | ⟨1, _⟩ => show e.val = 0 + e.val; omega)

/-- The first point starts from a zero row. -/
theorem pay2_apply (e : Fin 32) : k0_pay2 (F := Ideal) (ix2 0 e) = 0 := by
  unfold k0_pay2
  show shapeCast S1x32 (broadcast S1x32 (Scalar.ofBits (F := Ideal) .f32 0x00000000#32)) shapeCasts_S1x32_S1x32 (ix2 0 e) = 0
  rw [shapeCast_self]
  exact Ideal.ofBits_zero_f32

/-- First point: the output block. -/
theorem outA_eq (c : Dev nD) (i : grid0.Coords) (arg1 : Memref sig .tc .vmem S8000x8 .f32) (harg1 : arg1.IsWhole) (arg2 : Memref sig .tc .vmem S8000x32 .f32) (harg2 : arg2.IsWhole) (arg3 : Memref sig .tc .vmem S40x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x32 .f32) (harg7 : arg7.IsWhole) (arg8 : Memref sig .tc .vmem S32 .f32) (harg8 : arg8.IsWhole) (arg9 : Memref sig .tc .vmem S8000x32 .f32) (harg9 : arg9.IsWhole) (arg10 : Memref sig .tc .vmem S1x32 .f32) (harg10 : arg10.IsWhole) (hc0 : cond0_0 i) (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) :
    out0_A_8 (F := Ideal) c i arg1 harg1 arg2 harg2 arg3 harg3 arg4 harg4 arg5 harg5 arg6 harg6 arg7 harg7 arg8 harg8 arg9 harg9 arg10 harg10 hc0 x0 x1 x2 x3 x4 x5 x6 x7 = tileOut x0 x1 x2 x3 x4 x5 x6 x7 (k0_pay2 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_unit_zero Tile.off2_zero]
  simp only [View.readAt_eq_ld, harg1.read_unread, harg2.read_unread, harg3.read_unread, harg4.read_unread, harg5.read_unread, harg6.read_unread, harg7.read_unread, harg8.read_unread, View.ld_unit_zero (S := S8000x8) Tile.off2_zero, View.ld_unit_zero (S := S8000x32) Tile.off2_zero, View.ld_unit_zero (S := S40x64) Tile.off2_zero, View.ld_unit_zero (S := S64x64) Tile.off2_zero, View.ld_unit_zero (S := S64x32) Tile.off2_zero, View.ld_unit_zero (S := S1x32) Tile.off2_zero, View.ld_unit_zero (S := S64) Tile.off1_zero, View.ld_unit_zero (S := S32) Tile.off1_zero, View.readCov_unit_zero (S := S1x32) _ Tile.off2_zero]
  rfl

/-- First point: the row carried on. -/
theorem soutA_eq (c : Dev nD) (i : grid0.Coords) (arg1 : Memref sig .tc .vmem S8000x8 .f32) (harg1 : arg1.IsWhole) (arg2 : Memref sig .tc .vmem S8000x32 .f32) (harg2 : arg2.IsWhole) (arg3 : Memref sig .tc .vmem S40x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x32 .f32) (harg7 : arg7.IsWhole) (arg8 : Memref sig .tc .vmem S32 .f32) (harg8 : arg8.IsWhole) (arg9 : Memref sig .tc .vmem S8000x32 .f32) (harg9 : arg9.IsWhole) (arg10 : Memref sig .tc .vmem S1x32 .f32) (harg10 : arg10.IsWhole) (hc0 : cond0_0 i) (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) :
    sout0_A_0 (F := Ideal) c i arg1 harg1 arg2 harg2 arg3 harg3 arg4 harg4 arg5 harg5 arg6 harg6 arg7 harg7 arg8 harg8 arg9 harg9 arg10 harg10 hc0 x0 x1 x2 x3 x4 x5 x6 x7 = k0_pay1 (F := Ideal) (tileOut x0 x1 x2 x3 x4 x5 x6 x7 (k0_pay2 (F := Ideal))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1x32) Tile.off2_zero]
  simp only [View.readAt_eq_ld, harg1.read_unread, harg2.read_unread, harg3.read_unread, harg4.read_unread, harg5.read_unread, harg6.read_unread, harg7.read_unread, harg8.read_unread, View.ld_unit_zero (S := S8000x8) Tile.off2_zero, View.ld_unit_zero (S := S8000x32) Tile.off2_zero, View.ld_unit_zero (S := S40x64) Tile.off2_zero, View.ld_unit_zero (S := S64x64) Tile.off2_zero, View.ld_unit_zero (S := S64x32) Tile.off2_zero, View.ld_unit_zero (S := S1x32) Tile.off2_zero, View.ld_unit_zero (S := S64) Tile.off1_zero, View.ld_unit_zero (S := S32) Tile.off1_zero, View.readCov_unit_zero (S := S1x32) _ Tile.off2_zero]
  rfl

/-- Later points: the output block, over the row `xs0` the point before carried on. -/
theorem outB_eq (c : Dev nD) (i : grid0.Coords) (arg1 : Memref sig .tc .vmem S8000x8 .f32) (harg1 : arg1.IsWhole) (arg2 : Memref sig .tc .vmem S8000x32 .f32) (harg2 : arg2.IsWhole) (arg3 : Memref sig .tc .vmem S40x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x32 .f32) (harg7 : arg7.IsWhole) (arg8 : Memref sig .tc .vmem S32 .f32) (harg8 : arg8.IsWhole) (arg9 : Memref sig .tc .vmem S8000x32 .f32) (harg9 : arg9.IsWhole) (arg10 : Memref sig .tc .vmem S1x32 .f32) (harg10 : arg10.IsWhole) (hc0 : ¬cond0_0 i) (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) (xs0 : Vec Ideal S1x32 .f32) :
    out0_B_8 (F := Ideal) c i arg1 harg1 arg2 harg2 arg3 harg3 arg4 harg4 arg5 harg5 arg6 harg6 arg7 harg7 arg8 harg8 arg9 harg9 arg10 harg10 hc0 x0 x1 x2 x3 x4 x5 x6 x7 xs0 = tileOut x0 x1 x2 x3 x4 x5 x6 x7 xs0 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero Tile.off2_zero]
  simp only [View.readAt_eq_ld, harg1.read_unread, harg2.read_unread, harg3.read_unread, harg4.read_unread, harg5.read_unread, harg6.read_unread, harg7.read_unread, harg8.read_unread, harg10.read_unread, View.ld_unit_zero (S := S8000x8) Tile.off2_zero, View.ld_unit_zero (S := S8000x32) Tile.off2_zero, View.ld_unit_zero (S := S40x64) Tile.off2_zero, View.ld_unit_zero (S := S64x64) Tile.off2_zero, View.ld_unit_zero (S := S64x32) Tile.off2_zero, View.ld_unit_zero (S := S1x32) Tile.off2_zero, View.ld_unit_zero (S := S64) Tile.off1_zero, View.ld_unit_zero (S := S32) Tile.off1_zero]
  rfl

/-- Later points: the row carried on. -/
theorem soutB_eq (c : Dev nD) (i : grid0.Coords) (arg1 : Memref sig .tc .vmem S8000x8 .f32) (harg1 : arg1.IsWhole) (arg2 : Memref sig .tc .vmem S8000x32 .f32) (harg2 : arg2.IsWhole) (arg3 : Memref sig .tc .vmem S40x64 .f32) (harg3 : arg3.IsWhole) (arg4 : Memref sig .tc .vmem S64 .f32) (harg4 : arg4.IsWhole) (arg5 : Memref sig .tc .vmem S64x64 .f32) (harg5 : arg5.IsWhole) (arg6 : Memref sig .tc .vmem S64 .f32) (harg6 : arg6.IsWhole) (arg7 : Memref sig .tc .vmem S64x32 .f32) (harg7 : arg7.IsWhole) (arg8 : Memref sig .tc .vmem S32 .f32) (harg8 : arg8.IsWhole) (arg9 : Memref sig .tc .vmem S8000x32 .f32) (harg9 : arg9.IsWhole) (arg10 : Memref sig .tc .vmem S1x32 .f32) (harg10 : arg10.IsWhole) (hc0 : ¬cond0_0 i) (x0 : Vec Ideal S8000x8 .f32) (x1 : Vec Ideal S8000x32 .f32) (x2 : Vec Ideal S40x64 .f32) (x3 : Vec Ideal S64 .f32) (x4 : Vec Ideal S64x64 .f32) (x5 : Vec Ideal S64 .f32) (x6 : Vec Ideal S64x32 .f32) (x7 : Vec Ideal S32 .f32) (xs0 : Vec Ideal S1x32 .f32) :
    sout0_B_0 (F := Ideal) c i arg1 harg1 arg2 harg2 arg3 harg3 arg4 harg4 arg5 harg5 arg6 harg6 arg7 harg7 arg8 harg8 arg9 harg9 arg10 harg10 hc0 x0 x1 x2 x3 x4 x5 x6 x7 xs0 = k0_pay1 (F := Ideal) (tileOut x0 x1 x2 x3 x4 x5 x6 x7 xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 x0 x1 x2 x3 x4 x5 x6 x7 xs0)]
  unfold kernelRun0_B
  dsimp only
  sl_unfold_words
  rw [View.canon_unit_zero Tile.off2_zero]
  simp only [View.readAt_eq_ld, harg1.read_unread, harg2.read_unread, harg3.read_unread, harg4.read_unread, harg5.read_unread, harg6.read_unread, harg7.read_unread, harg8.read_unread, harg10.read_unread, View.ld_unit_zero (S := S8000x8) Tile.off2_zero, View.ld_unit_zero (S := S8000x32) Tile.off2_zero, View.ld_unit_zero (S := S40x64) Tile.off2_zero, View.ld_unit_zero (S := S64x64) Tile.off2_zero, View.ld_unit_zero (S := S64x32) Tile.off2_zero, View.ld_unit_zero (S := S1x32) Tile.off2_zero, View.ld_unit_zero (S := S64) Tile.off1_zero, View.ld_unit_zero (S := S32) Tile.off1_zero]
  rfl

end Cert.KernelIdeal.KValue

end
-- ==== Proof.KInd.lean ====
/-
  The kernel's region as values: the running sum carried from point to point makes the output array the running
  sum of the perceptron's rows over ALL rows before and including each row.
-/
import proofs.«401660_j12979391169440_1_alg».proof.Proof.KTile
import Mathlib.Algebra.BigOperators.Group.Finset.Basic

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The argument arrays as the region finds them, at their literal types. -/
abbrev aX (c : Dev nD) : Vec Ideal S2000000x8 .f32 := V m c main_arg0
abbrev aH (c : Dev nD) : Vec Ideal S2000000x32 .f32 := V m c main_arg1
abbrev aW1 (c : Dev nD) : Vec Ideal S40x64 .f32 := V m c main_arg2
abbrev ab1 (c : Dev nD) : Vec Ideal S64 .f32 := V m c main_arg3
abbrev aW2 (c : Dev nD) : Vec Ideal S64x64 .f32 := V m c main_arg4
abbrev ab2 (c : Dev nD) : Vec Ideal S64 .f32 := V m c main_arg5
abbrev aW3 (c : Dev nD) : Vec Ideal S64x32 .f32 := V m c main_arg6
abbrev ab3 (c : Dev nD) : Vec Ideal S32 .f32 := V m c main_arg7
abbrev aPtr (c : Dev nD) : IVec S20001 32 := V m c main_arg8

/-- The perceptron's value at row r, column e, of the whole arrays. -/
def hrow (c : Dev nD) (r : Fin 2000000) (e : Fin 32) : EReal :=
  Cert.Seg.rows (n := 2000000) (aX m c) (aH m c) (aW1 m c) (ab1 m c) (aW2 m c) (ab2 m c) (aW3 m c) (ab3 m c) r e

namespace Ind

/-! ## Prefix sums split at a tile's first row -/

/-- A prefix sum over `N` rows splits at `a`: the rows below `a`, then the next `k` rows of a tile of `T` rows
    that starts at `a`. -/
theorem sum_lt_add {N T : ℕ} (f : Fin N → EReal) (a k : ℕ) (ha : a + T ≤ N) (hk : k ≤ T) :
    (∑ r : Fin N, if r.val < a + k then f r else 0)
      = (∑ r : Fin N, if r.val < a then f r else 0)
        + ∑ j : Fin T, if j.val < k then f ⟨a + j.val, by omega⟩ else 0 := by
  have h1 : ∀ r : Fin N, (if r.val < a + k then f r else 0)
      = (if r.val < a then f r else 0) + (if a ≤ r.val ∧ r.val < a + k then f r else 0) := by
    intro r
    by_cases h : r.val < a
    · rw [if_pos h, if_pos (by omega), if_neg (by omega), add_zero]
    · by_cases h' : r.val < a + k
      · rw [if_neg h, if_pos h', if_pos ⟨by omega, h'⟩, zero_add]
      · rw [if_neg h, if_neg h', if_neg (fun hh => h' hh.2), add_zero]
  refine (Finset.sum_congr rfl fun r _ => h1 r).trans ?_
  rw [Finset.sum_add_distrib]
  congr 1
  symm
  refine Finset.sum_of_injOn (fun j : Fin T => (⟨a + j.val, by omega⟩ : Fin N)) ?_ ?_ ?_ ?_
  · intro x _ y _ hxy
    have := congrArg Fin.val hxy
    exact Fin.ext (by simpa using this)
  · intro x _; exact Finset.mem_coe.mpr (Finset.mem_univ _)
  · intro r _ hr
    refine if_neg fun hh => hr ⟨⟨r.val - a, by omega⟩, Finset.mem_coe.mpr (Finset.mem_univ _), Fin.ext ?_⟩
    show a + (r.val - a) = r.val
    omega
  · intro j _
    by_cases h : j.val < k
    · rw [if_pos h, if_pos ⟨by show a ≤ a + j.val; omega, by show a + j.val < a + k; omega⟩]
    · rw [if_neg h, if_neg (fun hh => h (by have h2 : a + j.val < a + k := hh.2; omega))]

/-- The empty prefix sums to zero. -/
theorem pre_zero (f : Fin 2000000 → EReal) : Cert.Seg.pre f 0 = 0 :=
  Finset.sum_eq_zero fun r _ => if_neg (Nat.not_lt_zero _)

/-- The prefix up to row `a + k`, for a tile of 8000 rows starting at `a`. -/
theorem pre_add (f : Fin 2000000 → EReal) (a k : ℕ) (ha : a + 8000 ≤ 2000000) (hk : k ≤ 8000) :
    Cert.Seg.pre f (a + k)
      = Cert.Seg.pre f a + ∑ j : Fin 8000, if j.val < k then f ⟨a + j.val, by omega⟩ else 0 :=
  sum_lt_add f a k ha hk

/-! ## The blocks a point reads -/

/-- The index maps, decided over the grid: the node windows and the output move a block of 8000 rows per point, the
    parameter windows stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Row `i` of point `t`'s tile is a row of the whole arrays. -/
theorem row_lt (t : Fin cfg0.N) (i : Fin 8000) : 8000 * t.val + i.val < 2000000 := by
  have hN : cfg0.N = 250 := N_0
  have := t.isLt
  have := i.isLt
  omega

/-- The blocks the body is handed at point `t`, at their literal types. -/
abbrev bX (c : Dev nD) (t : Fin cfg0.N) : Vec Ideal S8000x8 .f32 := iblk m c 0 t
abbrev bH (c : Dev nD) (t : Fin cfg0.N) : Vec Ideal S8000x32 .f32 := iblk m c 1 t
abbrev bW1 (c : Dev nD) (t : Fin cfg0.N) : Vec Ideal S40x64 .f32 := iblk m c 2 t
abbrev bb1 (c : Dev nD) (t : Fin cfg0.N) : Vec Ideal S64 .f32 := iblk m c 3 t
abbrev bW2 (c : Dev nD) (t : Fin cfg0.N) : Vec Ideal S64x64 .f32 := iblk m c 4 t
abbrev bb2 (c : Dev nD) (t : Fin cfg0.N) : Vec Ideal S64 .f32 := iblk m c 5 t
abbrev bW3 (c : Dev nD) (t : Fin cfg0.N) : Vec Ideal S64x32 .f32 := iblk m c 6 t
abbrev bb3 (c : Dev nD) (t : Fin cfg0.N) : Vec Ideal S32 .f32 := iblk m c 7 t

/-- The feature block at point `t` is rows `8000 t … 8000 t + 7999` of the feature array. -/
theorem bX_apply (c : Dev nD) (t : Fin cfg0.N) (i : Fin 8000) (k : Fin 8) :
    bX m c t (ix2 i k) = aX m c (ix2 ⟨8000 * t.val + i.val, row_lt t i⟩ k) := by
  obtain ⟨e0, e1, -⟩ := idx_facts t
  show iblk m c 0 t (ix2 i k) = _
  unfold iblk
  rw [View.read_apply]
  show V m c main_arg0 _ = V m c main_arg0 _
  congr 1
  funext a
  apply Fin.ext
  match a with
  | ⟨0, _⟩ => show win0_0.index t 0 * 8000 + 1 * i.val = 8000 * t.val + i.val; rw [e0]; omega
  | ⟨1, _⟩ => show win0_0.index t 1 * 8 + 1 * k.val = k.val; rw [e1]; omega

/-- The embedding block at point `t` is the same rows of the embedding array. -/
theorem bH_apply (c : Dev nD) (t : Fin cfg0.N) (i : Fin 8000) (k : Fin 32) :
    bH m c t (ix2 i k) = aH m c (ix2 ⟨8000 * t.val + i.val, row_lt t i⟩ k) := by
  obtain ⟨-, -, e0, e1, -⟩ := idx_facts t
  show iblk m c 1 t (ix2 i k) = _
  unfold iblk
  rw [View.read_apply]
  show V m c main_arg1 _ = V m c main_arg1 _
  congr 1
  funext a
  apply Fin.ext
  match a with
  | ⟨0, _⟩ => show win0_1.index t 0 * 8000 + 1 * i.val = 8000 * t.val + i.val; rw [e0]; omega
  | ⟨1, _⟩ => show win0_1.index t 1 * 32 + 1 * k.val = k.val; rw [e1]; omega

/-- Each parameter block is its whole array, at every point. -/
theorem bW1_eq (c : Dev nD) (t : Fin cfg0.N) : bW1 m c t = aW1 m c := by
  obtain ⟨-, -, -, -, e0, e1, -⟩ := idx_facts t
  funext j
  show iblk m c 2 t j = _
  unfold iblk
  rw [View.read_apply]
  show V m c main_arg2 _ = V m c main_arg2 j
  congr 1
  funext a
  apply Fin.ext
  match a with
  | ⟨0, _⟩ => show win0_2.index t 0 * 40 + 1 * (j 0).val = (j 0).val; rw [e0]; omega
  | ⟨1, _⟩ => show win0_2.index t 1 * 64 + 1 * (j 1).val = (j 1).val; rw [e1]; omega

theorem bb1_eq (c : Dev nD) (t : Fin cfg0.N) : bb1 m c t = ab1 m c := by
  obtain ⟨-, -, -, -, -, -, e0, -⟩ := idx_facts t
  funext j
  show iblk m c 3 t j = _
  unfold iblk
  rw [View.read_apply]
  show V m c main_arg3 _ = V m c main_arg3 j
  congr 1
  funext a
  apply Fin.ext
  match a with
  | ⟨0, _⟩ => show win0_3.index t 0 * 64 + 1 * (j 0).val = (j 0).val; rw [e0]; omega

theorem bW2_eq (c : Dev nD) (t : Fin cfg0.N) : bW2 m c t = aW2 m c := by
  obtain ⟨-, -, -, -, -, -, -, e0, e1, -⟩ := idx_facts t
  funext j
  show iblk m c 4 t j = _
  unfold iblk
  rw [View.read_apply]
  show V m c main_arg4 _ = V m c main_arg4 j
  congr 1
  funext a
  apply Fin.ext
  match a with
  | ⟨0, _⟩ => show win0_4.index t 0 * 64 + 1 * (j 0).val = (j 0).val; rw [e0]; omega
  | ⟨1, _⟩ => show win0_4.index t 1 * 64 + 1 * (j 1).val = (j 1).val; rw [e1]; omega

theorem bb2_eq (c : Dev nD) (t : Fin cfg0.N) : bb2 m c t = ab2 m c := by
  obtain ⟨-, -, -, -, -, -, -, -, -, e0, -⟩ := idx_facts t
  funext j
  show iblk m c 5 t j = _
  unfold iblk
  rw [View.read_apply]
  show V m c main_arg5 _ = V m c main_arg5 j
  congr 1
  funext a
  apply Fin.ext
  match a with
  | ⟨0, _⟩ => show win0_5.index t 0 * 64 + 1 * (j 0).val = (j 0).val; rw [e0]; omega

theorem bW3_eq (c : Dev nD) (t : Fin cfg0.N) : bW3 m c t = aW3 m c := by
  obtain ⟨-, -, -, -, -, -, -, -, -, -, e0, e1, -⟩ := idx_facts t
  funext j
  show iblk m c 6 t j = _
  unfold iblk
  rw [View.read_apply]
  show V m c main_arg6 _ = V m c main_arg6 j
  congr 1
  funext a
  apply Fin.ext
  match a with
  | ⟨0, _⟩ => show win0_6.index t 0 * 64 + 1 * (j 0).val = (j 0).val; rw [e0]; omega
  | ⟨1, _⟩ => show win0_6.index t 1 * 32 + 1 * (j 1).val = (j 1).val; rw [e1]; omega

theorem bb3_eq (c : Dev nD) (t : Fin cfg0.N) : bb3 m c t = ab3 m c := by
  obtain ⟨-, -, -, -, -, -, -, -, -, -, -, -, e0, -⟩ := idx_facts t
  funext j
  show iblk m c 7 t j = _
  unfold iblk
  rw [View.read_apply]
  show V m c main_arg7 _ = V m c main_arg7 j
  congr 1
  funext a
  apply Fin.ext
  match a with
  | ⟨0, _⟩ => show win0_7.index t 0 * 32 + 1 * (j 0).val = (j 0).val; rw [e0]; omega

/-- The perceptron on row `j` of point `t`'s blocks is the perceptron on row `8000 t + j` of the whole arrays. -/
theorem rows_blk (c : Dev nD) (t : Fin cfg0.N) (j : Fin 8000) (e : Fin 32) :
    Cert.Seg.rows (n := 8000) (bX m c t) (bH m c t) (bW1 m c t) (bb1 m c t) (bW2 m c t) (bb2 m c t) (bW3 m c t) (bb3 m c t) j e
      = hrow m c ⟨8000 * t.val + j.val, row_lt t j⟩ e := by
  unfold hrow Cert.Seg.rows
  rw [bW1_eq m c t, bb1_eq m c t, bW2_eq m c t, bb2_eq m c t, bW3_eq m c t, bb3_eq m c t]
  congr 1
  · funext k; exact bX_apply m c t j k
  · funext k; exact bH_apply m c t j k

/-! ## One point's step -/

/-- What point `t` stores, over any carried row: the carried entry plus the tile's rows up to `i`. -/
theorem tile_step (c : Dev nD) (t : Fin cfg0.N) (sc : Vec Ideal S1x32 .f32) (i : Fin 8000) (e : Fin 32) :
    tileOut (bX m c t) (bH m c t) (bW1 m c t) (bb1 m c t) (bW2 m c t) (bb2 m c t) (bW3 m c t) (bb3 m c t) sc (ix2 i e)
      = sc (ix2 0 e) + ∑ j : Fin 8000, if j.val < i.val + 1 then hrow m c ⟨8000 * t.val + j.val, row_lt t j⟩ e else 0 := by
  rw [tileOut_apply, add_comm (sc (ix2 0 e)) _]
  refine congrArg (· + sc (ix2 0 e)) (Finset.sum_congr rfl fun j _ => ?_)
  rw [rows_blk m c t j e]
  exact if_congr Nat.lt_succ_iff.symm rfl rfl

/-- If the carried row holds the sums of all rows before point `t`'s tile, the point's block holds the running sums
    of all rows up to each of its rows, and the row it carries on the sums of all rows through its tile. -/
theorem inv_of (c : Dev nD) (t : Fin cfg0.N) (sc : Vec Ideal S1x32 .f32)
    (hsc : ∀ e : Fin 32, sc (ix2 0 e) = Cert.Seg.pre (fun r => hrow m c r e) (8000 * t.val)) :
    (∀ (i : Fin 8000) (e : Fin 32), tileOut (bX m c t) (bH m c t) (bW1 m c t) (bb1 m c t) (bW2 m c t) (bb2 m c t) (bW3 m c t) (bb3 m c t) sc (ix2 i e)
        = Cert.Seg.pre (fun r => hrow m c r e) (8000 * t.val + i.val + 1))
    ∧ (∀ e : Fin 32, k0_pay1 (F := Ideal) (tileOut (bX m c t) (bH m c t) (bW1 m c t) (bb1 m c t) (bW2 m c t) (bb2 m c t) (bW3 m c t) (bb3 m c t) sc) (ix2 0 e)
        = Cert.Seg.pre (fun r => hrow m c r e) (8000 * (t.val + 1))) := by
  have hN : cfg0.N = 250 := N_0
  have ht := t.isLt
  have h1 : ∀ (i : Fin 8000) (e : Fin 32), tileOut (bX m c t) (bH m c t) (bW1 m c t) (bb1 m c t) (bW2 m c t) (bb2 m c t) (bW3 m c t) (bb3 m c t) sc (ix2 i e)
      = Cert.Seg.pre (fun r => hrow m c r e) (8000 * t.val + i.val + 1) := by
    intro i e
    have hi := i.isLt
    rw [tile_step m c t sc i e, hsc e, Nat.add_assoc,
      pre_add (fun r => hrow m c r e) (8000 * t.val) (i.val + 1) (by omega) (by omega)]
  refine ⟨h1, fun e => ?_⟩
  rw [pay1_apply, h1 7999 e]
  have h7 : ((7999 : Fin 8000)).val = 7999 := rfl
  rw [h7]
  congr 1

/-- The first point's contents: the tile over the zero row. -/
theorem outs_A (c : Dev nD) (t : Fin cfg0.N) (h0 : t.val % 250 = 0) :
    outsAt0 m c t.val t.isLt
      = (tileOut (bX m c t) (bH m c t) (bW1 m c t) (bb1 m c t) (bW2 m c t) (bb2 m c t) (bW3 m c t) (bb3 m c t) (k0_pay2 (F := Ideal)),
         k0_pay1 (F := Ideal) (tileOut (bX m c t) (bH m c t) (bW1 m c t) (bb1 m c t) (bW2 m c t) (bb2 m c t) (bW3 m c t) (bb3 m c t) (k0_pay2 (F := Ideal)))) := by
  rw [outsAt0_A m c t h0]
  exact congr (congrArg Prod.mk
    (outA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (bX m c t) (bH m c t) (bW1 m c t) (bb1 m c t) (bW2 m c t) (bb2 m c t) (bW3 m c t) (bb3 m c t)))
    (soutA_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (bX m c t) (bH m c t) (bW1 m c t) (bb1 m c t) (bW2 m c t) (bb2 m c t) (bW3 m c t) (bb3 m c t))

/-- A later point's contents: the tile over the row the point before carried on. -/
theorem outs_B (c : Dev nD) (t : Fin cfg0.N) (h0 : ¬t.val % 250 = 0) :
    outsAt0 m c t.val t.isLt
      = (tileOut (bX m c t) (bH m c t) (bW1 m c t) (bb1 m c t) (bW2 m c t) (bb2 m c t) (bW3 m c t) (bb3 m c t) (outsAt0 m c (t.val - 1) (Nat.lt_of_le_of_lt (Nat.sub_le _ _) t.isLt)).2,
         k0_pay1 (F := Ideal) (tileOut (bX m c t) (bH m c t) (bW1 m c t) (bb1 m c t) (bW2 m c t) (bb2 m c t) (bW3 m c t) (bb3 m c t) (outsAt0 m c (t.val - 1) (Nat.lt_of_le_of_lt (Nat.sub_le _ _) t.isLt)).2)) := by
  rw [outsAt0_B m c t h0]
  exact congr (congrArg Prod.mk
    (outB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (bX m c t) (bH m c t) (bW1 m c t) (bb1 m c t) (bW2 m c t) (bb2 m c t) (bW3 m c t) (bb3 m c t) (outsAt0 m c (t.val - 1) (Nat.lt_of_le_of_lt (Nat.sub_le _ _) t.isLt)).2))
    (soutB_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (bX m c t) (bH m c t) (bW1 m c t) (bb1 m c t) (bW2 m c t) (bb2 m c t) (bW3 m c t) (bb3 m c t) (outsAt0 m c (t.val - 1) (Nat.lt_of_le_of_lt (Nat.sub_le _ _) t.isLt)).2)

/-- The invariant, by induction on the point. -/
theorem outs_inv_nat (c : Dev nD) : ∀ (n : ℕ) (hn : n < cfg0.N),
    (∀ (i : Fin 8000) (e : Fin 32), (outsAt0 m c n hn).1 (ix2 i e)
        = Cert.Seg.pre (fun r => hrow m c r e) (8000 * n + i.val + 1))
    ∧ (∀ e : Fin 32, (outsAt0 m c n hn).2 (ix2 0 e)
        = Cert.Seg.pre (fun r => hrow m c r e) (8000 * (n + 1)))
  | 0, hn => by
    rw [outs_A m c ⟨0, hn⟩ rfl]
    exact inv_of m c ⟨0, hn⟩ (k0_pay2 (F := Ideal)) fun e => by
      rw [pay2_apply]; exact (pre_zero _).symm
  | n + 1, hn => by
    have hN : cfg0.N = 250 := N_0
    have hB : ¬(⟨n + 1, hn⟩ : Fin cfg0.N).val % 250 = 0 := by dsimp only; omega
    rw [outs_B m c ⟨n + 1, hn⟩ hB]
    exact inv_of m c ⟨n + 1, hn⟩ _ fun e => (outs_inv_nat c n (Nat.lt_of_succ_lt hn)).2 e

end Ind

open Ind

/-- After point t the output block holds the running sums of ALL rows up to each of its rows, and the carried row
    the sum of all rows of the points so far. -/
theorem outs_inv (c : Dev nD) (t : Fin cfg0.N) :
    (∀ (i : Fin 8000) (e : Fin 32), (outsAt0 m c t.val t.isLt).1 (ix2 i e)
        = Cert.Seg.pre (fun r => hrow m c r e) (8000 * t.val + i.val + 1))
    ∧ (∀ e : Fin 32, (outsAt0 m c t.val t.isLt).2 (ix2 0 e)
        = Cert.Seg.pre (fun r => hrow m c r e) (8000 * (t.val + 1))) :=
  outs_inv_nat m c t.val t.isLt

/-- The same at any index of the block. -/
theorem Ind.outs1_apply (c : Dev nD) (t : Fin cfg0.N) (j : S8000x32.Idx) :
    (outsAt0 m c t.val t.isLt).1 j
      = Cert.Seg.pre (fun r => hrow m c r (j 1)) (8000 * t.val + (j 0).val + 1) :=
  (congrArg (outsAt0 m c t.val t.isLt).1 (eq_ix2 j)).trans ((outs_inv m c t).1 (j 0) (j 1))

/-- The running-sum array: entry (r, e) is the sum of column e over the rows 0 … r. -/
abbrev hcum (c : Dev nD) : Buf (Elt Ideal) ((c.tc : Thread nD τ).loc main_v0) :=
  fun j => Cert.Seg.pre (fun r => hrow m c r (j 1)) ((j 0).val + 1)

/-- What point `t` writes back is block `t` of the running-sum array. -/
theorem Ind.flushed_eq (c : Dev nD) (t : Fin cfg0.N) (hf : (cfg0.win 8).flush t = true) :
    (dats m 0 c).flushed 8 t = ((cfg0.win 8).blk t).view.read (Elt Ideal) (hcum m c) := by
  obtain ⟨-, -, -, -, -, -, -, -, -, -, -, -, -, e0, e1⟩ := idx_facts t
  show (cfg0.win 8).cut (grid0.coords t) ((dats m 0 c).after 8 t) = _
  rw [after0_8]
  funext j
  refine (outs1_apply m c t j).trans ?_
  rw [View.read_apply, cast_eq]
  have hemb : ((cfg0.win 8).blk t).view.emb j = ix2 ⟨8000 * t.val + (j 0).val, row_lt t (j 0)⟩ (j 1) := by
    funext a
    apply Fin.ext
    match a with
    | ⟨0, _⟩ => show win0_8.index t 0 * 8000 + 1 * (j 0).val = 8000 * t.val + (j 0).val; rw [e0]; omega
    | ⟨1, _⟩ => show win0_8.index t 1 * 32 + 1 * (j 1).val = (j 1).val; rw [e1]; omega
  exact (congrArg (hcum m c) hemb).symm

/-- The region's output array ends as the running-sum array. -/
theorem final (c : Dev nD) : (dats m 0 c).arrAt 8 cfg0.N = hcum m c :=
  (dats m 0 c).arrAt_eq_of_cover 8 (hcum m c) (flushed_eq m c) fun i => by
    have hN : cfg0.N = 250 := N_0
    have hi0 : (i 0).val < 2000000 := (i 0).isLt
    have hi1 : (i 1).val < 32 := (i 1).isLt
    obtain ⟨t, ht⟩ : ∃ t : Fin cfg0.N, t.val = (i 0).val / 8000 := ⟨⟨(i 0).val / 8000, by omega⟩, rfl⟩
    obtain ⟨-, -, -, -, -, -, -, -, -, -, -, -, -, e0, e1⟩ := idx_facts t
    refine ⟨t, flush0_8 t, ?_⟩
    show i ∈ ((View.whole main_v0).slice (win0_8.rect t)).set
    rw [View.set_slice_whole, Rect.mem_set_unit]
    intro a
    match a with
    | ⟨0, _⟩ =>
      show win0_8.index t 0 * 8000 ≤ (i 0).val ∧ (i 0).val < win0_8.index t 0 * 8000 + 8000
      rw [e0]; omega
    | ⟨1, _⟩ =>
      show win0_8.index t 1 * 32 ≤ (i 1).val ∧ (i 1).val < win0_8.index t 1 * 32 + 32
      rw [e1]; omega

end Cert.KernelIdeal.KValue

end
-- ==== Proof.SegComb.lean ====
/-
  The counting argument and the telescoping sum.

  For a nondecreasing pointer `p` from 0 to 2,000,000, the number of group starts at or below a row `r`,
  minus one, is the index of the one group that holds `r`; so adding each row into the entry of that index
  gives the sum over the group. For real-valued rows, a difference of two prefix sums is the sum of the rows
  between the two cut points.
-/
import proofs.«401660_j12979391169440_1_alg».proof.Proof.Spec
import Mathlib.Data.EReal.Basic
import Mathlib.Data.EReal.Operations
import Mathlib.Algebra.BigOperators.Group.Finset.Basic
import Mathlib.Algebra.BigOperators.Ring.Finset
import Mathlib.Data.Finset.Card
import Mathlib.Data.Finset.Max
import Mathlib.Order.Fin.Basic
import Mathlib.Order.Interval.Finset.Fin
import Mathlib.Tactic.Ring
import Mathlib.Tactic.Linarith

noncomputable section

namespace Cert.Seg

open Idealize.ShloMosaic Idealize.ShloMosaic.ValueIdx

/-- A pointer that does not decrease from one entry to the next is monotone. -/
theorem p_mono' (p : Fin 20001 → ℕ) (hmono : ∀ m : Fin 20000, p m.castSucc ≤ p m.succ)
    (a b : Fin 20001) (hab : a ≤ b) : p a ≤ p b :=
  (Fin.monotone_iff_le_succ.mpr hmono) hab

/-- every pointer entry is at most 2000000 -/
theorem p_le (p : Fin 20001 → ℕ) (h0 : p 0 = 0) (hmono : ∀ m : Fin 20000, p m.castSucc ≤ p m.succ)
    (hlast : p (Fin.last 20000) = 2000000) (m : Fin 20001) : p m ≤ 2000000 := by
  have h := p_mono' p hmono m (Fin.last 20000) (Fin.le_last m)
  omega

/-- The group starts at or below a row include the first one. -/
theorem label_pos (p : Fin 20001 → ℕ) (h0 : p 0 = 0) (hmono : ∀ m : Fin 20000, p m.castSucc ≤ p m.succ)
    (hlast : p (Fin.last 20000) = 2000000) (r : Fin 2000000) :
    1 ≤ (Finset.univ.filter fun m : Fin 20000 => p m.castSucc ≤ r.val).card := by
  apply Finset.card_pos.mpr
  refine ⟨(0 : Fin 20000), ?_⟩
  rw [Finset.mem_filter]
  refine ⟨Finset.mem_univ _, ?_⟩
  have : (0 : Fin 20000).castSucc = (0 : Fin 20001) := rfl
  rw [this, h0]
  exact Nat.zero_le _

/-- There are only 20,000 group starts. -/
theorem label_le (p : Fin 20001 → ℕ) (r : Fin 2000000) :
    (Finset.univ.filter fun m : Fin 20000 => p m.castSucc ≤ r.val).card ≤ 20000 := by
  have h := Finset.card_filter_le (Finset.univ : Finset (Fin 20000)) (fun m : Fin 20000 => p m.castSucc ≤ r.val)
  rw [Finset.card_univ, Fintype.card_fin] at h
  exact h

/-- If row `r` lies in group `s`, the group starts at or below `r` are exactly the groups `0, …, s`. -/
theorem filter_eq_Iic (p : Fin 20001 → ℕ) (hmono : ∀ m : Fin 20000, p m.castSucc ≤ p m.succ)
    (r : Fin 2000000) (s : Fin 20000) (h1 : p s.castSucc ≤ r.val) (h2 : r.val < p s.succ) :
    (Finset.univ.filter fun m : Fin 20000 => p m.castSucc ≤ r.val) = Finset.Iic s := by
  ext m
  rw [Finset.mem_filter, Finset.mem_Iic]
  constructor
  · rintro ⟨_, hm⟩
    by_contra hlt
    have hsm : s.succ ≤ m.castSucc := by
      rw [Fin.le_def]
      have : s.val < m.val := by
        have := lt_of_not_ge hlt
        exact this
      simp only [Fin.val_succ, Fin.val_castSucc]
      omega
    have := p_mono' p hmono _ _ hsm
    omega
  · intro hms
    refine ⟨Finset.mem_univ _, ?_⟩
    have hle : m.castSucc ≤ s.castSucc := by
      rw [Fin.le_def]
      simp only [Fin.val_castSucc]
      exact hms
    have := p_mono' p hmono _ _ hle
    omega

/-- Every row lies in some group. -/
theorem exists_group (p : Fin 20001 → ℕ) (h0 : p 0 = 0) (hmono : ∀ m : Fin 20000, p m.castSucc ≤ p m.succ)
    (hlast : p (Fin.last 20000) = 2000000) (r : Fin 2000000) :
    ∃ s : Fin 20000, p s.castSucc ≤ r.val ∧ r.val < p s.succ := by
  classical
  set S := (Finset.univ.filter fun m : Fin 20000 => p m.castSucc ≤ r.val) with hS
  have hne : S.Nonempty := Finset.card_pos.mp (label_pos p h0 hmono hlast r)
  have hmemS : ∀ m : Fin 20000, m ∈ S ↔ p m.castSucc ≤ r.val := by
    intro m
    rw [hS, Finset.mem_filter]
    exact ⟨fun h => h.2, fun h => ⟨Finset.mem_univ _, h⟩⟩
  refine ⟨S.max' hne, ?_, ?_⟩
  · exact (hmemS _).1 (S.max'_mem hne)
  · by_contra hnot
    have hge : p (S.max' hne).succ ≤ r.val := Nat.le_of_not_lt hnot
    by_cases hlt : (S.max' hne).val + 1 < 20000
    · -- the next group start would also be at or below `r`
      let t : Fin 20000 := ⟨(S.max' hne).val + 1, hlt⟩
      have ht : t.castSucc = (S.max' hne).succ := by
        apply Fin.ext
        simp [t]
      have hmem : t ∈ S := (hmemS t).2 (by rw [ht]; exact hge)
      have hle := S.le_max' t hmem
      rw [Fin.le_def] at hle
      simp only [t] at hle
      omega
    · -- the group is the last one, which ends at 2,000,000
      have hs : (S.max' hne).succ = Fin.last 20000 := by
        apply Fin.ext
        have := (S.max' hne).isLt
        simp only [Fin.val_succ, Fin.val_last]
        omega
      rw [hs, hlast] at hge
      have := r.isLt
      omega

/-- For a nondecreasing pointer from 0 to 2000000, row r carries label s exactly when it lies in group s. -/
theorem label_iff (p : Fin 20001 → ℕ) (h0 : p 0 = 0) (hmono : ∀ m : Fin 20000, p m.castSucc ≤ p m.succ)
    (hlast : p (Fin.last 20000) = 2000000) (r : Fin 2000000) (s : Fin 20000) :
    ((Finset.univ.filter fun m : Fin 20000 => p m.castSucc ≤ r.val).card - 1 = s.val) ↔
      (p s.castSucc ≤ r.val ∧ r.val < p s.succ) := by
  constructor
  · intro hc
    obtain ⟨s', h1, h2⟩ := exists_group p h0 hmono hlast r
    rw [filter_eq_Iic p hmono r s' h1 h2, Fin.card_Iic] at hc
    have : s' = s := Fin.ext (by omega)
    rw [← this]
    exact ⟨h1, h2⟩
  · rintro ⟨h1, h2⟩
    rw [filter_eq_Iic p hmono r s h1 h2, Fin.card_Iic]
    omega

/-- The coercion from the reals commutes with finite sums. -/
theorem coe_sum_real {ι : Type} (t : Finset ι) (g : ι → ℝ) :
    ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- a difference of prefix sums of REAL values is the sum of the rows between -/
theorem pre_sub_pre (f : Fin 2000000 → EReal) (hf : Real' f) (a b : ℕ) (hab : a ≤ b) :
    pre f b - pre f a = seg f a b := by
  choose g hg using hf
  have e1 : ∀ k : ℕ, pre f k = ((∑ r : Fin 2000000, if r.val < k then g r else 0 : ℝ) : EReal) := by
    intro k
    unfold pre
    rw [coe_sum_real]
    refine Finset.sum_congr rfl (fun r _ => ?_)
    split_ifs
    · exact hg r
    · exact EReal.coe_zero.symm
  have e2 : seg f a b = ((∑ r : Fin 2000000, if a ≤ r.val ∧ r.val < b then g r else 0 : ℝ) : EReal) := by
    unfold seg
    rw [coe_sum_real]
    refine Finset.sum_congr rfl (fun r _ => ?_)
    split_ifs
    · exact hg r
    · exact EReal.coe_zero.symm
  rw [e1 b, e1 a, e2, ← EReal.coe_sub, ← Finset.sum_sub_distrib]
  rw [EReal.coe_eq_coe_iff]
  refine Finset.sum_congr rfl (fun r _ => ?_)
  by_cases h1 : r.val < a
  · have h2 : r.val < b := by omega
    have h3 : ¬ (a ≤ r.val ∧ r.val < b) := by omega
    rw [if_pos h1, if_pos h2, if_neg h3, sub_self]
  · by_cases h2 : r.val < b
    · have h3 : a ≤ r.val ∧ r.val < b := by omega
      rw [if_neg h1, if_pos h2, if_pos h3, sub_zero]
    · have h3 : ¬ (a ≤ r.val ∧ r.val < b) := by omega
      rw [if_neg h1, if_neg h2, if_neg h3, sub_zero]

/-- the sum over the rows whose label is s is the sum over group s -/
theorem sum_label_eq_seg (p : Fin 20001 → ℕ) (h0 : p 0 = 0) (hmono : ∀ m : Fin 20000, p m.castSucc ≤ p m.succ)
    (hlast : p (Fin.last 20000) = 2000000) (f : Fin 2000000 → EReal) (s : Fin 20000) :
    (∑ r : Fin 2000000, if (Finset.univ.filter fun m : Fin 20000 => p m.castSucc ≤ r.val).card - 1 = s.val
        then f r else 0) = seg f (p s.castSucc) (p s.succ) := by
  unfold seg
  refine Finset.sum_congr rfl (fun r _ => ?_)
  exact if_congr (label_iff p h0 hmono hlast r s) rfl rfl

end Cert.Seg

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.KTail.lean ====
/-
  The kernel's host tail and its whole run, as values: a zero row is put in front of the running-sum array, the
  array is read at the pointer's entries, and consecutive reads are subtracted — a difference of two prefix sums
  per group.
-/
import proofs.«401660_j12979391169440_1_alg».proof.Proof.KInd
import proofs.«401660_j12979391169440_1_alg».proof.Proof.SegComb
import proofs.«401660_j12979391169440_1_alg».proof.Proof.LibAllOnes
import Idealize.ShloMosaic.Lib.StableHlo.Run
import Idealize.ShloMosaic.Lib.StableHlo.Predicate
import Idealize.ShloMosaic.Lib.Pipeline.Value
import Idealize.ShloMosaic.PureOps.Ideal.Laws

set_option maxRecDepth 16384

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The kernel's result: entry (s, e) is the prefix sum at the end of group s less the prefix sum at its start. -/
abbrev kout (c : Dev nD) : Buf (Elt Ideal) ((c.tc : Thread nD τ).loc main_v6) :=
  fun j => Cert.Seg.pre (fun r => hrow m c r (j 1)) (Cert.Seg.pnat (aPtr m c) (Fin.succ (j 0)))
    - Cert.Seg.pre (fun r => hrow m c r (j 1)) (Cert.Seg.pnat (aPtr m c) (Fin.castSucc (j 0)))

/-! ## The host operations, read one by one -/

section Pure

/-- A pointer with no negative entry is not wrapped: the test "negative?" answers false at every entry. -/
theorem wrapped_eq (p : IVec S20001 32) (hp : ∀ k : Fin 20001, (p (ix1 k)).toNat ≤ 2000000) :
    select (cmpi CmpIPredicate.slt p (broadcastInDim S20001 ![] bcast_S_S20001 (constantI S_ 32 0#32)))
      (addi p (broadcastInDim S20001 ![] bcast_S_S20001 (constantI S_ 32 2000001#32))) p = p := by
  funext i
  have hi : (p i).toNat < 2 ^ 31 := by
    rw [eq_ix1 i]; exact lt_of_le_of_lt (hp (i 0)) (by norm_num)
  show Scalar.select (IntOp.cmpi .slt (p i) 0#32) _ _ = _
  rw [Cert.LibAllOnes.slt_zero _ hi, select_zero]

/-- A vector as a column, read at a row. -/
theorem col_apply (p : IVec S20001 32) (i : S20001x1.Idx) :
    broadcastInDim S20001x1 ![0] bcast_S20001_S20001x1_0 p i = p (ix1 (i 0)) := by
  unfold broadcastInDim
  congr 1
  funext a
  obtain rfl : a = 0 := Subsingleton.elim _ _
  apply Fin.ext
  split
  · next h1 => exact absurd h1 (by decide)
  · rfl

/-- Every entry of the pointer passes the range test 0 ≤ · ≤ 2000000. -/
theorem mask_eq (p : IVec S20001 32) (hp : ∀ k : Fin 20001, (p (ix1 k)).toNat ≤ 2000000) :
    Host.reduce IntOp.andi
      (andi (cmpi CmpIPredicate.sge (broadcastInDim S20001x1 ![0] bcast_S20001_S20001x1_0 p)
          (broadcastInDim S20001x1 ![] bcast_S_S20001x1 (constantI S_ 32 0#32)))
        (cmpi CmpIPredicate.sle (broadcastInDim S20001x1 ![0] bcast_S20001_S20001x1_0 p)
          (broadcastInDim S20001x1 ![0, 1] bcast_S1x1_S20001x1_0_1
            (broadcastInDim S1x1 ![1] bcast_S1_S1x1_1 (constantI S1 32 2000000#32)))))
      (constantI S_ 1 1#1) reducesTo_S20001x1_S20001_d1 h_S_ = fun _ => 1#1 := by
  funext j
  refine Cert.LibAllOnes.reduce_andi_ones _ _ _ _ j (fun _ => rfl) (fun i => ?_)
  have hi : (broadcastInDim S20001x1 ![0] bcast_S20001_S20001x1_0 p i).toNat ≤ 2000000 := by
    rw [col_apply]; exact hp _
  show IntOp.andi (IntOp.cmpi .sge (broadcastInDim S20001x1 ![0] bcast_S20001_S20001x1_0 p i) 0#32)
    (IntOp.cmpi .sle (broadcastInDim S20001x1 ![0] bcast_S20001_S20001x1_0 p i) 2000000#32) = 1#1
  rw [Cert.LibAllOnes.sge_zero _ (by omega), Cert.LibAllOnes.sle_ofNat _ 2000000 (by norm_num) hi]
  decide

/-- A word at most 2000000, read as a signed number and kept at most 2000000, is itself. -/
theorem clamp_eq (w : BitVec 32) (hw : w.toNat ≤ 2000000) : min w.toInt.toNat 2000000 = w.toNat := by
  rw [Idealize.ShloMosaic.StableHlo.Predicate.toInt_eq_toNat_of_lt (a := w) (by omega), Int.toNat_natCast]
  exact min_eq_left hw

end Pure

section Gather
variable {α : Type}

/-- The gather of whole rows: result entry (k, e) is the table at the row the k-th index names — read as a signed
    number and kept inside the table — and column e. -/
theorem gather_rows_apply {w : Nat} (x : S2000001x32.Idx → α) (idx : IVec S20001x1 w) (k : Fin 20001) (e : Fin 32) :
    Host.gather gather_S2000001x32_S20001x1_S20001x32_1_0_n_n_0_1_132 x idx (ix2 k e)
      = x (ix2 ⟨min (idx (ix2 k 0)).toInt.toNat 2000000, by omega⟩ e) := by
  unfold Host.gather
  congr 1
  funext a
  apply Fin.ext
  show gather_S2000001x32_S20001x1_S20001x32_1_0_n_n_0_1_132.start (ix2 k e) idx a
    + gather_S2000001x32_S20001x1_S20001x32_1_0_n_n_0_1_132.batchCoord (ix2 k e) a
    + gather_S2000001x32_S20001x1_S20001x32_1_0_n_n_0_1_132.offCoord (ix2 k e) a = _
  rw [GatherDims.batchCoord_eq_zero _ _ _
    (show a ∉ gather_S2000001x32_S20001x1_S20001x32_1_0_n_n_0_1_132.operandBatchingDims from List.not_mem_nil), Nat.add_zero]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _ (by decide), Nat.add_zero]
    unfold GatherDims.start
    rw [dif_pos (by decide)]
    have hsi : gather_S2000001x32_S20001x1_S20001x32_1_0_n_n_0_1_132.siIdx (ix2 k e)
        ⟨List.idxOf (0 : Fin 2) gather_S2000001x32_S20001x1_S20001x32_1_0_n_n_0_1_132.startIndexMap,
          List.idxOf_lt_length_iff.2 (by decide)⟩ = ix2 k 0 := by
      funext b
      apply Fin.ext
      match b with
      | ⟨0, _⟩ => rfl
      | ⟨1, _⟩ => rfl
    rw [hsi]
    rfl
  · unfold GatherDims.start
    rw [dif_neg (by decide), Nat.zero_add]
    unfold GatherDims.offCoord
    rw [dif_pos (by decide)]
    rfl

end Gather

section Padded

/-- The padded array at row r: a zero in the row put in front, and below it the array one row up. -/
theorem padded_apply (h : Vec Ideal S2000000x32 .f32) (r : Fin 2000001) (e : Fin 32) :
    concatenate S2000001x32 0
        [⟨S1x32, broadcastInDim S1x32 ![] bcast_S_S1x32 (constant (F := Ideal) S_ FTy.f32 0#32)⟩, ⟨S2000000x32, h⟩]
        concatenates_S1x32_S2000000x32_S2000001x32_d0 (ix2 r e)
      = if hr : r.val = 0 then (0 : EReal) else h (ix2 ⟨r.val - 1, by omega⟩ e) := by
  split
  · next hr =>
    refine (concatenate_pair_apply_left (t := S2000001x32) (s₁ := S1x32) (s₂ := S2000000x32) (0 : Fin 2) _ _ _
      (ix2 r e) rfl (ix2 (0 : Fin 1) e) (fun b => ?_)).trans ?_
    · match b with
      | ⟨0, _⟩ => exact hr.symm
      | ⟨1, _⟩ => rfl
    · show Ideal.ofBits .f32 0x00000000#32 = 0
      exact Ideal.ofBits_zero_f32
  · next hr =>
    refine concatenate_pair_apply_right (t := S2000001x32) (s₁ := S1x32) (s₂ := S2000000x32) (0 : Fin 2) _ _ _
      (ix2 r e) rfl rfl (ix2 (⟨r.val - 1, by omega⟩ : Fin 2000000) e) (fun b hb => ?_) ?_
    · match b with
      | ⟨0, _⟩ => exact absurd rfl hb
      | ⟨1, _⟩ => rfl
    · show r.val - 1 + 1 = r.val
      omega

end Padded

/-- The padded running-sum array at row r: the sum of the first r rows (none, at the zero row in front). -/
theorem padded_hcum (c : Dev nD) (r : Fin 2000001) (e : Fin 32) :
    concatenate S2000001x32 0
        [⟨S1x32, broadcastInDim S1x32 ![] bcast_S_S1x32 (constant (F := Ideal) S_ FTy.f32 0#32)⟩, ⟨S2000000x32, hcum m c⟩]
        concatenates_S1x32_S2000000x32_S2000001x32_d0 (ix2 r e)
      = Cert.Seg.pre (fun q => hrow m c q e) r.val := by
  rw [padded_apply]
  split
  · next hr =>
    rw [hr]
    unfold Cert.Seg.pre
    simp
  · next hr =>
    show Cert.Seg.pre (fun q => hrow m c q e) (r.val - 1 + 1) = _
    congr 1
    omega

open StableHlo in
set_option maxHeartbeats 2000000 in
/-- The host operations after the region, applied to the running-sum array, give that difference — for a pointer
    whose entries all lie in 0 … 2000000 (so every read is inside the padded array). -/
theorem tail_eq (c : Dev nD) (hc : Cert.Seg.Csr (aPtr m c)) :
    Pipeline.afterTail₀ cfgs (dats m) 0 (V0 m) [hostOps1, hostOps1_1, hostOps1_2] c main_v6 = kout m c := by
  have hp : ∀ k : Fin 20001, (aPtr m c (ix1 k)).toNat ≤ 2000000 :=
    fun k => Cert.Seg.p_le (Cert.Seg.pnat (aPtr m c)) hc.first hc.mono hc.last k
  unfold Pipeline.afterTail₀
  show StableHlo.after (List.flatten [hostOps1, hostOps1_1, hostOps1_2]) _ (Proc.devRef .tc main_v6) = _
  simp only [hostOps1, hostOps1_1, hostOps1_2, List.flatten_cons, List.flatten_nil, List.append_nil, List.cons_append, List.nil_append]
  after_results_simp
  simp only [TRef.toBuf, TRef.ofBuf, cast_eq]
  repeat (first
    | rw [nullary_result] | rw [unary_result]
    | (rw [nullary_result_ne]; rotate_left; decide)
    | (rw [unary_result_ne]; rotate_left; decide))
  have h8 : Pipeline.withArrays (cfgs 0).spec c (V0 m c) (fun w => (dats m 0 c).arrAt w (cfgs 0).N) (Proc.tc.devRef main_arg8) = aPtr m c :=
    Pipeline.withArrays_of_ne _ c (V0 m c) _ main_arg8 (by exact (by decide : ∀ w, Pipeline.arrRef spec0 w ≠ main_arg8))
  have h0 : Pipeline.withArrays (cfgs 0).spec c (V0 m c) (fun w => (dats m 0 c).arrAt w (cfgs 0).N) (Proc.tc.devRef main_v0) = hcum m c :=
    (Pipeline.withArrays_arr spec0 launch0.win.arr_inj c _ _ 8).trans (final m c)
  rw [h8, h0, wrapped_eq (aPtr m c) hp, mask_eq (aPtr m c) hp]
  funext j
  obtain ⟨s, e, rfl⟩ : ∃ s e, j = ix2 s e := ⟨j 0, j 1, eq_ix2 j⟩
  rw [subf_apply,
    extractStridedSlice_apply ![1, 0] _ slices_S20001x32_S20000x32_1_0 (ix2 s e) (ix2 s.succ e)
      (fun a => by
        match a with
        | ⟨0, _⟩ => show s.val + 1 = 1 + s.val; omega
        | ⟨1, _⟩ => show e.val = 0 + e.val; omega),
    extractStridedSlice_apply ![0, 0] _ slices_S20001x32_S20000x32_0_0 (ix2 s e) (ix2 s.castSucc e)
      (fun a => by
        match a with
        | ⟨0, _⟩ => show s.val = 0 + s.val; omega
        | ⟨1, _⟩ => show e.val = 0 + e.val; omega),
    select_apply, select_apply]
  have hb1 : ∀ j : S20001x32.Idx,
      broadcastInDim (s := S20001) S20001x32 ![0] bcast_S20001_S20001x32_0 (fun _ => (1#1 : BitVec 1)) j = 1#1 := fun _ => rfl
  rw [hb1, hb1, select_one, select_one, gather_rows_apply, gather_rows_apply, padded_hcum, padded_hcum]
  simp only [Fin.val_mk]
  rw [col_apply, col_apply, clamp_eq _ (hp _), clamp_eq _ (hp _)]
  rfl

/-- The kernel program's run, read: the result array at the differences, every argument unchanged. -/
theorem run (hcsr : ∀ c : Dev nD, Cert.Seg.Csr (m ((c.tc : Thread nD τ).loc main_arg8))) :
    θ_run (defs (F := Ideal)) (onTc (τ := τ) (main (F := Ideal))) ⟨m, fun _ => 0, ρ⟩ (fun r => ∀ c : Dev nD,
      r.2.mem ((c.tc : Thread nD τ).loc main_v6) = kout m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ?_) (run_main m ρ)
  exact ⟨((h c).2 main_v6 (Pipeline.mem_restRefs_of main_v6 (by decide) (by decide))).trans (tail_eq m c (hcsr c)),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).2 main_arg8 (Pipeline.mem_restRefs_of main_arg8 (by decide) (by decide))).trans (W_main_arg8 m (dats m) c)⟩

end Cert.KernelIdeal.KValue

end
-- ==== Proof.RefTerm.lean ====
/-
  What the reference program computes, as pure terms of its argument arrays: the perceptron's rows (`hTerm`), the
  group label of every row as the reference derives it from the pointer (`labelTerm`: differences of consecutive
  pointer entries, their exclusive running sum, a count of the group starts at each row, the running sum of those
  counts less one, read through a table of the group numbers), and the pooled result (`outTerm`: every row added
  into its label's entry of a zero array).
-/
import proofs.«401660_j12979391169440_1_alg».proof.ReferenceIdeal
import proofs.«401660_j12979391169440_1_alg».proof.Proof.Gen.ReferenceIdeal
import Idealize.ShloMosaic.PureOps.Ideal

noncomputable section

namespace Cert.ReferenceIdeal.RefValue

open Idealize.ShloMosaic Cert.ReferenceIdeal
open Facts₀ Facts

/-- The three-layer perceptron of all 2,000,000 rows, as the reference's host operations compute it. -/
def hTerm (a0 : FVec Ideal S2000000x8 .f32) (a1 : FVec Ideal S2000000x32 .f32) (a2 : FVec Ideal S40x64 .f32)
    (a3 : FVec Ideal S64 .f32) (a4 : FVec Ideal S64x64 .f32) (a5 : FVec Ideal S64 .f32) (a6 : FVec Ideal S64x32 .f32)
    (a7 : FVec Ideal S32 .f32) : FVec Ideal S2000000x32 .f32 :=
  let v0 : FVec Ideal S2000000x40 .f32 := concatenate S2000000x40 1 [⟨S2000000x8, a0⟩, ⟨S2000000x32, a1⟩] concatenates_S2000000x8_S2000000x32_S2000000x40_d1
  let v1 : FVec Ideal S2000000x64 .f32 := Host.dotGeneral dot_S2000000x40_S40x64_S2000000x64_1_0_0_1_n_n none v0 a2
  let v3 : FVec Ideal S2000000x64 .f32 := broadcastInDim S2000000x64 ![0, 1] bcast_S1x64_S2000000x64_0_1 (broadcastInDim S1x64 ![1] bcast_S64_S1x64_1 a3)
  let v4 : FVec Ideal S2000000x64 .f32 := addf v1 v3
  let v5 : FVec Ideal S2000000x64 .f32 := maximumf v4 (broadcastInDim S2000000x64 ![] bcast_S_S2000000x64 (constant (F := Ideal) S_ .f32 0x00000000#32))
  let v6 : FVec Ideal S2000000x64 .f32 := Host.dotGeneral dot_S2000000x64_S64x64_S2000000x64_1_0_0_1_n_n none v5 a4
  let v8 : FVec Ideal S2000000x64 .f32 := broadcastInDim S2000000x64 ![0, 1] bcast_S1x64_S2000000x64_0_1 (broadcastInDim S1x64 ![1] bcast_S64_S1x64_1 a5)
  let v9 : FVec Ideal S2000000x64 .f32 := addf v6 v8
  let v10 : FVec Ideal S2000000x64 .f32 := maximumf v9 (broadcastInDim S2000000x64 ![] bcast_S_S2000000x64 (constant (F := Ideal) S_ .f32 0x00000000#32))
  let v11 : FVec Ideal S2000000x32 .f32 := Host.dotGeneral dot_S2000000x64_S64x32_S2000000x32_1_0_0_1_n_n none v10 a6
  let v13 : FVec Ideal S2000000x32 .f32 := broadcastInDim S2000000x32 ![0, 1] bcast_S1x32_S2000000x32_0_1 (broadcastInDim S1x32 ![1] bcast_S32_S1x32_1 a7)
  addf v11 v13

/-- The exclusive running sum of the group lengths: entry m is the start of group m relative to the first. -/
def startsTerm (a8 : IVec S20001 32) : IVec S20000 32 :=
  let v15 : IVec S20000 32 := subi (extractStridedSlice S20000 ![1] a8 slices_S20001_S20000_1) (extractStridedSlice S20000 ![0] a8 slices_S20001_S20000_0)
  let v17 : IVec S20000 32 := concatenate S20000 0 [⟨S1, extractStridedSlice S1 ![19999] v15 slices_S20000_S1_19999⟩, ⟨S19999, extractStridedSlice S19999 ![0] v15 slices_S20000_S19999_0⟩] concatenates_S1_S19999_S20000_d0
  let v18 : IVec S1 32 := broadcastInDim S1 ![] bcast_S_S1 (constantI S_ 32 0#32)
  let v19 : IVec S20000 32 := Host.scatter scatter_S20000_S1_S__n_0_0_0 (fun _ b => b) v17 v18 (constantI S_ 32 0#32)
  Host.reduceWindow IntOp.addi ![20000] ![1] ![19999] ![0] v19 (broadcastInDim S_ ![] bcast_S_S_ (constantI S_ 32 0#32)) reduceWindows_S20000_S20000_w20000s1p19999_0 h_S_

/-- Entry r counts the groups that start at row r (a start outside the rows counts nowhere). -/
def marksTerm (a8 : IVec S20001 32) : IVec S2000000 32 :=
  let v20 : IVec S20000 32 := startsTerm a8
  let v21 : IVec S2000000 32 := broadcastInDim S2000000 ![] bcast_S_S2000000 (constantI S_ 32 0#32)
  let v22 : IVec S20000 32 := broadcastInDim S20000 ![] bcast_S_S20000 (constantI S_ 32 0#32)
  let v23 : IVec S20000 1 := cmpi .slt v20 v22
  let v24 : IVec S20000 32 := broadcastInDim S20000 ![] bcast_S_S20000 (constantI S_ 32 2000000#32)
  let v25 : IVec S20000 32 := addi v20 v24
  let v26 : IVec S20000 32 := select v23 v25 v20
  let v27 : IVec S20000x1 32 := broadcastInDim S20000x1 ![0] bcast_S20000_S20000x1_0 v26
  let v28 : IVec S20000 32 := broadcastInDim S20000 ![] bcast_S_S20000 (constantI S_ 32 1#32)
  Host.scatter scatter_S2000000_S20000x1_S20000_n_0_0_1 IntOp.addi v21 v27 v28

/-- The label of every row: the number of groups started at or before it, less one, read through the table of
    group numbers (an out-of-table value reads as the most negative word). -/
def labelTerm (a8 : IVec S20001 32) : IVec S2000000 32 :=
  let v16 : IVec S20000 32 := iotaInDim S20000 32 0
  let v30 : IVec S2000000 32 := Host.reduceWindow IntOp.addi ![2000000] ![1] ![1999999] ![0] (marksTerm a8) (broadcastInDim S_ ![] bcast_S_S_ (constantI S_ 32 0#32)) reduceWindows_S2000000_S2000000_w2000000s1p1999999_0 h_S_
  let v31 : IVec S2000000 32 := broadcastInDim S2000000 ![] bcast_S_S2000000 (constantI S_ 32 1#32)
  let v32 : IVec S2000000 32 := subi v30 v31
  let t0 : IVec S2000000 32 := broadcastInDim S2000000 ![] bcast_S_S2000000 (constantI S_ 32 0#32)
  let t1 : IVec S2000000 1 := cmpi .slt v32 t0
  let t2 : IVec S2000000 32 := broadcastInDim S2000000 ![] bcast_S_S2000000 (constantI S_ 32 20000#32)
  let t3 : IVec S2000000 32 := addi v32 t2
  let t4 : IVec S2000000 32 := select t1 t3 v32
  let t5 : IVec S2000000x1 32 := broadcastInDim S2000000x1 ![0] bcast_S2000000_S2000000x1_0 t4
  let t6 : IVec S2000000x1 32 := broadcastInDim S2000000x1 ![] bcast_S_S2000000x1 (constantI S_ 32 0#32)
  let t7 : IVec S2000000x1 1 := cmpi .sge t5 t6
  let t9 : IVec S2000000x1 32 := broadcastInDim S2000000x1 ![0, 1] bcast_S1x1_S2000000x1_0_1 (broadcastInDim S1x1 ![1] bcast_S1_S1x1_1 (constantI S1 32 19999#32))
  let t10 : IVec S2000000x1 1 := cmpi .sle t5 t9
  let t11 : IVec S2000000x1 1 := andi t7 t10
  let t12 : IVec S2000000 1 := Host.reduce IntOp.andi t11 (constantI S_ 1 1#1) reducesTo_S2000000x1_S2000000_d1 h_S_
  let t13 : IVec S2000000 32 := Host.gather gather_S20000_S2000000x1_S2000000_n_0_n_n_0_1_1 v16 t5
  let t14 : IVec S2000000 32 := broadcastInDim S2000000 ![] bcast_S_S2000000 (constantI S_ 32 2147483648#32)
  select t12 t13 t14

/-- The reference's result: every row of the perceptron added into its label's entry of a zero array. -/
def outTerm (a0 : FVec Ideal S2000000x8 .f32) (a1 : FVec Ideal S2000000x32 .f32) (a2 : FVec Ideal S40x64 .f32)
    (a3 : FVec Ideal S64 .f32) (a4 : FVec Ideal S64x64 .f32) (a5 : FVec Ideal S64 .f32) (a6 : FVec Ideal S64x32 .f32)
    (a7 : FVec Ideal S32 .f32) (a8 : IVec S20001 32) : FVec Ideal S20000x32 .f32 :=
  Host.scatterAdd scatter_S20000x32_S2000000x1_S2000000x32_1_0_0_1
    (broadcastInDim S20000x32 ![] bcast_S_S20000x32 (constant (F := Ideal) S_ .f32 0x00000000#32))
    (broadcastInDim S2000000x1 ![0] bcast_S2000000_S2000000x1_0 (labelTerm a8))
    (hTerm a0 a1 a2 a3 a4 a5 a6 a7)

end Cert.ReferenceIdeal.RefValue

end
-- ==== Proof.RefRun.lean ====
/-
  The run of the reference program: its 78 host operations in program order (every call of a module-local
  function replaced by the callee's operations over the call's own buffers), and what each weakly fair execution
  leaves in the result buffer, namely the pure term `outTerm` of the argument arrays, the arguments unchanged.
-/
import proofs.«401660_j12979391169440_1_alg».proof.Proof.Gen.ReferenceIdeal
import proofs.«401660_j12979391169440_1_alg».proof.Proof.RefTerm
import Idealize.ShloMosaic.Lib.StableHlo.Run

noncomputable section

namespace Cert.ReferenceIdeal.RefValue

open Idealize.ShloMosaic Idealize.ShloMosaic.TcCoe Idealize.SL.Sem Cert.ReferenceIdeal Idealize.ShloMosaic.StableHlo
open Facts₀ Facts

variable {F : FTy → Type} [FloatOps F]

namespace RefRun

/-- The rotation by one place of a 20000-entry array: its last entry, then its first 19999. -/
def roll (a : IVec S1 32) (b : IVec S19999 32) : IVec S20000 32 :=
  concatenate S20000 0 [⟨S1, a⟩, ⟨S19999, b⟩] concatenates_S1_S19999_S20000_d0

/-- The program's 78 operations, in order: a call's operations stand at the call, over that call's buffers. -/
abbrev ops : List (HloOp τ sig (Elt F)) :=
  [ StableHlo.binary main_arg0 main_arg1 main_v0 ((fun a b => concatenate S2000000x40 1 [⟨S2000000x8, a⟩, ⟨S2000000x32, b⟩] concatenates_S2000000x8_S2000000x32_S2000000x40_d1) : (⟨S2000000x8, .f32⟩ : BufTy).Contents (Elt F) → (⟨S2000000x32, .f32⟩ : BufTy).Contents (Elt F) → (⟨S2000000x40, .f32⟩ : BufTy).Contents (Elt F)),
    StableHlo.binary main_v0 main_arg2 main_v1 ((fun l r => Host.dotGeneral dot_S2000000x40_S40x64_S2000000x64_1_0_0_1_n_n none l r) : (⟨S2000000x40, .f32⟩ : BufTy).Contents (Elt F) → (⟨S40x64, .f32⟩ : BufTy).Contents (Elt F) → (⟨S2000000x64, .f32⟩ : BufTy).Contents (Elt F)),
    StableHlo.unary main_arg3 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S2000000x64 ![0, 1] bcast_S1x64_S2000000x64_0_1 : (⟨S1x64, .f32⟩ : BufTy).Contents (Elt F) → (⟨S2000000x64, .f32⟩ : BufTy).Contents (Elt F)),
    StableHlo.binary main_v1 main_v3 main_v4 (addf : (⟨S2000000x64, .f32⟩ : BufTy).Contents (Elt F) → (⟨S2000000x64, .f32⟩ : BufTy).Contents (Elt F) → (⟨S2000000x64, .f32⟩ : BufTy).Contents (Elt F)),
    StableHlo.nullary main_call0_cst (constant S_ .f32 0x00000000#32),
    StableHlo.unary main_call0_cst main_call0_v0 (broadcastInDim S2000000x64 ![] bcast_S_S2000000x64),
    StableHlo.binary main_v4 main_call0_v0 main_v5 maximumf,
    StableHlo.binary main_v5 main_arg4 main_v6 ((fun l r => Host.dotGeneral dot_S2000000x64_S64x64_S2000000x64_1_0_0_1_n_n none l r) : (⟨S2000000x64, .f32⟩ : BufTy).Contents (Elt F) → (⟨S64x64, .f32⟩ : BufTy).Contents (Elt F) → (⟨S2000000x64, .f32⟩ : BufTy).Contents (Elt F)),
    StableHlo.unary main_arg5 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S2000000x64 ![0, 1] bcast_S1x64_S2000000x64_0_1 : (⟨S1x64, .f32⟩ : BufTy).Contents (Elt F) → (⟨S2000000x64, .f32⟩ : BufTy).Contents (Elt F)),
    StableHlo.binary main_v6 main_v8 main_v9 (addf : (⟨S2000000x64, .f32⟩ : BufTy).Contents (Elt F) → (⟨S2000000x64, .f32⟩ : BufTy).Contents (Elt F) → (⟨S2000000x64, .f32⟩ : BufTy).Contents (Elt F)),
    StableHlo.nullary main_call1_cst (constant S_ .f32 0x00000000#32),
    StableHlo.unary main_call1_cst main_call1_v0 (broadcastInDim S2000000x64 ![] bcast_S_S2000000x64),
    StableHlo.binary main_v9 main_call1_v0 main_v10 maximumf,
    StableHlo.binary main_v10 main_arg6 main_v11 ((fun l r => Host.dotGeneral dot_S2000000x64_S64x32_S2000000x32_1_0_0_1_n_n none l r) : (⟨S2000000x64, .f32⟩ : BufTy).Contents (Elt F) → (⟨S64x32, .f32⟩ : BufTy).Contents (Elt F) → (⟨S2000000x32, .f32⟩ : BufTy).Contents (Elt F)),
    StableHlo.unary main_arg7 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S2000000x32 ![0, 1] bcast_S1x32_S2000000x32_0_1 : (⟨S1x32, .f32⟩ : BufTy).Contents (Elt F) → (⟨S2000000x32, .f32⟩ : BufTy).Contents (Elt F)),
    StableHlo.binary main_v11 main_v13 main_v14 (addf : (⟨S2000000x32, .f32⟩ : BufTy).Contents (Elt F) → (⟨S2000000x32, .f32⟩ : BufTy).Contents (Elt F) → (⟨S2000000x32, .f32⟩ : BufTy).Contents (Elt F)),
    StableHlo.unary main_arg8 main_call2_v0 (extractStridedSlice S20000 ![1] · slices_S20001_S20000_1),
    StableHlo.unary main_arg8 main_call2_v1 (extractStridedSlice S20000 ![0] · slices_S20001_S20000_0),
    StableHlo.binary main_call2_v0 main_call2_v1 main_v15 subi,
    StableHlo.nullary main_v16 (iotaInDim S20000 32 0),
    StableHlo.unary main_v15 main_call3_v0 (extractStridedSlice S1 ![19999] · slices_S20000_S1_19999),
    StableHlo.unary main_v15 main_call3_v1 (extractStridedSlice S19999 ![0] · slices_S20000_S19999_0),
    StableHlo.binary main_call3_v0 main_call3_v1 main_v17 roll,
    StableHlo.nullary main_c (constantI S_ 32 0#32),
    StableHlo.unary main_c main_v18 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v17 main_v18 main_c_0 main_v19 ((fun x i u => Host.scatter scatter_S20000_S1_S__n_0_0_0 (fun _ b => b) x i u) : (⟨S20000, .i32⟩ : BufTy).Contents (Elt F) → (⟨S1, .i32⟩ : BufTy).Contents (Elt F) → (⟨S_, .i32⟩ : BufTy).Contents (Elt F) → (⟨S20000, .i32⟩ : BufTy).Contents (Elt F)),
    StableHlo.nullary main_call4_call0_c (constantI S_ 32 0#32),
    StableHlo.unary main_call4_call0_c main_call4_call0_v0 (broadcastInDim S_ ![] bcast_S_S_),
    StableHlo.binary main_v19 main_call4_call0_v0 main_v20 (fun x v => Host.reduceWindow IntOp.addi ![20000] ![1] ![19999] ![0] x v reduceWindows_S20000_S20000_w20000s1p19999_0 h_S_),
    StableHlo.nullary main_c_1 (constantI S_ 32 0#32),
    StableHlo.unary main_c_1 main_v21 (broadcastInDim S2000000 ![] bcast_S_S2000000 : (⟨S_, .i32⟩ : BufTy).Contents (Elt F) → (⟨S2000000, .i32⟩ : BufTy).Contents (Elt F)),
    StableHlo.nullary main_c_2 (constantI S_ 32 0#32),
    StableHlo.unary main_c_2 main_v22 (broadcastInDim S20000 ![] bcast_S_S20000 : (⟨S_, .i32⟩ : BufTy).Contents (Elt F) → (⟨S20000, .i32⟩ : BufTy).Contents (Elt F)),
    StableHlo.binary main_v20 main_v22 main_v23 (cmpi .slt : (⟨S20000, .i32⟩ : BufTy).Contents (Elt F) → (⟨S20000, .i32⟩ : BufTy).Contents (Elt F) → (⟨S20000, .i1⟩ : BufTy).Contents (Elt F)),
    StableHlo.nullary main_c_3 (constantI S_ 32 2000000#32),
    StableHlo.unary main_c_3 main_v24 (broadcastInDim S20000 ![] bcast_S_S20000 : (⟨S_, .i32⟩ : BufTy).Contents (Elt F) → (⟨S20000, .i32⟩ : BufTy).Contents (Elt F)),
    StableHlo.binary main_v20 main_v24 main_v25 (addi : (⟨S20000, .i32⟩ : BufTy).Contents (Elt F) → (⟨S20000, .i32⟩ : BufTy).Contents (Elt F) → (⟨S20000, .i32⟩ : BufTy).Contents (Elt F)),
    StableHlo.ternary main_v23 main_v25 main_v20 main_v26 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v26 main_v27 (broadcastInDim S20000x1 ![0] bcast_S20000_S20000x1_0 : (⟨S20000, .i32⟩ : BufTy).Contents (Elt F) → (⟨S20000x1, .i32⟩ : BufTy).Contents (Elt F)),
    StableHlo.nullary main_c_4 (constantI S_ 32 1#32),
    StableHlo.unary main_c_4 main_v28 (broadcastInDim S20000 ![] bcast_S_S20000 : (⟨S_, .i32⟩ : BufTy).Contents (Elt F) → (⟨S20000, .i32⟩ : BufTy).Contents (Elt F)),
    StableHlo.ternary main_v21 main_v27 main_v28 main_v29 ((fun x i u => Host.scatter scatter_S2000000_S20000x1_S20000_n_0_0_1 IntOp.addi x i u) : (⟨S2000000, .i32⟩ : BufTy).Contents (Elt F) → (⟨S20000x1, .i32⟩ : BufTy).Contents (Elt F) → (⟨S20000, .i32⟩ : BufTy).Contents (Elt F) → (⟨S2000000, .i32⟩ : BufTy).Contents (Elt F)),
    StableHlo.nullary main_call5_call0_c (constantI S_ 32 0#32),
    StableHlo.unary main_call5_call0_c main_call5_call0_v0 (broadcastInDim S_ ![] bcast_S_S_),
    StableHlo.binary main_v29 main_call5_call0_v0 main_v30 (fun x v => Host.reduceWindow IntOp.addi ![2000000] ![1] ![1999999] ![0] x v reduceWindows_S2000000_S2000000_w2000000s1p1999999_0 h_S_),
    StableHlo.nullary main_c_5 (constantI S_ 32 1#32),
    StableHlo.unary main_c_5 main_v31 (broadcastInDim S2000000 ![] bcast_S_S2000000 : (⟨S_, .i32⟩ : BufTy).Contents (Elt F) → (⟨S2000000, .i32⟩ : BufTy).Contents (Elt F)),
    StableHlo.binary main_v30 main_v31 main_v32 (subi : (⟨S2000000, .i32⟩ : BufTy).Contents (Elt F) → (⟨S2000000, .i32⟩ : BufTy).Contents (Elt F) → (⟨S2000000, .i32⟩ : BufTy).Contents (Elt F)),
    StableHlo.nullary main_call6_c (constantI S_ 32 0#32),
    StableHlo.unary main_call6_c main_call6_v0 (broadcastInDim S2000000 ![] bcast_S_S2000000),
    StableHlo.binary main_v32 main_call6_v0 main_call6_v1 (cmpi .slt),
    StableHlo.nullary main_call6_c_0 (constantI S_ 32 20000#32),
    StableHlo.unary main_call6_c_0 main_call6_v2 (broadcastInDim S2000000 ![] bcast_S_S2000000),
    StableHlo.binary main_v32 main_call6_v2 main_call6_v3 addi,
    StableHlo.ternary main_call6_v1 main_call6_v3 main_v32 main_call6_v4 select,
    StableHlo.unary main_call6_v4 main_call6_v5 (broadcastInDim S2000000x1 ![0] bcast_S2000000_S2000000x1_0),
    StableHlo.nullary main_call6_c_1 (constantI S1 32 19999#32),
    StableHlo.nullary main_call6_c_2 (constantI S_ 32 0#32),
    StableHlo.unary main_call6_c_2 main_call6_v6 (broadcastInDim S2000000x1 ![] bcast_S_S2000000x1),
    StableHlo.binary main_call6_v5 main_call6_v6 main_call6_v7 (cmpi .sge),
    StableHlo.unary main_call6_c_1 main_call6_v8 (broadcastInDim S1x1 ![1] bcast_S1_S1x1_1),
    StableHlo.unary main_call6_v8 main_call6_v9 (broadcastInDim S2000000x1 ![0, 1] bcast_S1x1_S2000000x1_0_1),
    StableHlo.binary main_call6_v5 main_call6_v9 main_call6_v10 (cmpi .sle),
    StableHlo.binary main_call6_v7 main_call6_v10 main_call6_v11 andi,
    StableHlo.nullary main_call6_c_3 (constantI S_ 1 1#1),
    StableHlo.binary main_call6_v11 main_call6_c_3 main_call6_v12 (fun x v => Host.reduce IntOp.andi x v reducesTo_S2000000x1_S2000000_d1 h_S_),
    StableHlo.binary main_v16 main_call6_v5 main_call6_v13 (fun x i => Host.gather gather_S20000_S2000000x1_S2000000_n_0_n_n_0_1_1 x i),
    StableHlo.nullary main_call6_c_4 (constantI S_ 32 2147483648#32),
    StableHlo.unary main_call6_c_4 main_call6_v14 (broadcastInDim S2000000 ![] bcast_S_S2000000),
    StableHlo.ternary main_call6_v12 main_call6_v13 main_call6_v14 main_v33 select,
    StableHlo.nullary main_cst (constant S_ .f32 0x00000000#32),
    StableHlo.unary main_cst main_v34 (broadcastInDim S20000x32 ![] bcast_S_S20000x32 : (⟨S_, .f32⟩ : BufTy).Contents (Elt F) → (⟨S20000x32, .f32⟩ : BufTy).Contents (Elt F)),
    StableHlo.unary main_v33 main_v35 (broadcastInDim S2000000x1 ![0] bcast_S2000000_S2000000x1_0 : (⟨S2000000, .i32⟩ : BufTy).Contents (Elt F) → (⟨S2000000x1, .i32⟩ : BufTy).Contents (Elt F)),
    StableHlo.ternary main_v34 main_v35 main_v14 main_v36 ((fun x i u => Host.scatterAdd scatter_S20000x32_S2000000x1_S2000000x32_1_0_0_1 x i u) : (⟨S20000x32, .f32⟩ : BufTy).Contents (Elt F) → (⟨S2000000x1, .i32⟩ : BufTy).Contents (Elt F) → (⟨S2000000x32, .f32⟩ : BufTy).Contents (Elt F) → (⟨S20000x32, .f32⟩ : BufTy).Contents (Elt F)) ]

/-- The same 78 operations as the program's text has them: a callee's operation is stated over the call's record of
    typed references. `opsT_eq` below identifies the two lists, operation by operation. -/
abbrev opsT : List (HloOp τ sig (Elt F)) :=
  [ StableHlo.binary main_arg0 main_arg1 main_v0 ((fun a b => concatenate S2000000x40 1 [⟨S2000000x8, a⟩, ⟨S2000000x32, b⟩] concatenates_S2000000x8_S2000000x32_S2000000x40_d1) : (⟨S2000000x8, .f32⟩ : BufTy).Contents (Elt F) → (⟨S2000000x32, .f32⟩ : BufTy).Contents (Elt F) → (⟨S2000000x40, .f32⟩ : BufTy).Contents (Elt F)),
    StableHlo.binary main_v0 main_arg2 main_v1 ((fun l r => Host.dotGeneral dot_S2000000x40_S40x64_S2000000x64_1_0_0_1_n_n none l r) : (⟨S2000000x40, .f32⟩ : BufTy).Contents (Elt F) → (⟨S40x64, .f32⟩ : BufTy).Contents (Elt F) → (⟨S2000000x64, .f32⟩ : BufTy).Contents (Elt F)),
    StableHlo.unary main_arg3 main_v2 (broadcastInDim S1x64 ![1] bcast_S64_S1x64_1 : (⟨S64, .f32⟩ : BufTy).Contents (Elt F) → (⟨S1x64, .f32⟩ : BufTy).Contents (Elt F)),
    StableHlo.unary main_v2 main_v3 (broadcastInDim S2000000x64 ![0, 1] bcast_S1x64_S2000000x64_0_1 : (⟨S1x64, .f32⟩ : BufTy).Contents (Elt F) → (⟨S2000000x64, .f32⟩ : BufTy).Contents (Elt F)),
    StableHlo.binary main_v1 main_v3 main_v4 (addf : (⟨S2000000x64, .f32⟩ : BufTy).Contents (Elt F) → (⟨S2000000x64, .f32⟩ : BufTy).Contents (Elt F) → (⟨S2000000x64, .f32⟩ : BufTy).Contents (Elt F)),
    StableHlo.TRef.nullary main_call0.cst (constant S_ .f32 0x00000000#32),
    StableHlo.TRef.unary main_call0.cst main_call0.v0 (broadcastInDim S2000000x64 ![] bcast_S_S2000000x64),
    StableHlo.TRef.binary (.of main_v4 : StableHlo.TRef sig ⟨S2000000x64, .f32⟩) main_call0.v0 main_call0.v1 maximumf,
    StableHlo.binary main_v5 main_arg4 main_v6 ((fun l r => Host.dotGeneral dot_S2000000x64_S64x64_S2000000x64_1_0_0_1_n_n none l r) : (⟨S2000000x64, .f32⟩ : BufTy).Contents (Elt F) → (⟨S64x64, .f32⟩ : BufTy).Contents (Elt F) → (⟨S2000000x64, .f32⟩ : BufTy).Contents (Elt F)),
    StableHlo.unary main_arg5 main_v7 (broadcastInDim S1x64 ![1] bcast_S64_S1x64_1 : (⟨S64, .f32⟩ : BufTy).Contents (Elt F) → (⟨S1x64, .f32⟩ : BufTy).Contents (Elt F)),
    StableHlo.unary main_v7 main_v8 (broadcastInDim S2000000x64 ![0, 1] bcast_S1x64_S2000000x64_0_1 : (⟨S1x64, .f32⟩ : BufTy).Contents (Elt F) → (⟨S2000000x64, .f32⟩ : BufTy).Contents (Elt F)),
    StableHlo.binary main_v6 main_v8 main_v9 (addf : (⟨S2000000x64, .f32⟩ : BufTy).Contents (Elt F) → (⟨S2000000x64, .f32⟩ : BufTy).Contents (Elt F) → (⟨S2000000x64, .f32⟩ : BufTy).Contents (Elt F)),
    StableHlo.TRef.nullary main_call1.cst (constant S_ .f32 0x00000000#32),
    StableHlo.TRef.unary main_call1.cst main_call1.v0 (broadcastInDim S2000000x64 ![] bcast_S_S2000000x64),
    StableHlo.TRef.binary (.of main_v9 : StableHlo.TRef sig ⟨S2000000x64, .f32⟩) main_call1.v0 main_call1.v1 maximumf,
    StableHlo.binary main_v10 main_arg6 main_v11 ((fun l r => Host.dotGeneral dot_S2000000x64_S64x32_S2000000x32_1_0_0_1_n_n none l r) : (⟨S2000000x64, .f32⟩ : BufTy).Contents (Elt F) → (⟨S64x32, .f32⟩ : BufTy).Contents (Elt F) → (⟨S2000000x32, .f32⟩ : BufTy).Contents (Elt F)),
    StableHlo.unary main_arg7 main_v12 (broadcastInDim S1x32 ![1] bcast_S32_S1x32_1 : (⟨S32, .f32⟩ : BufTy).Contents (Elt F) → (⟨S1x32, .f32⟩ : BufTy).Contents (Elt F)),
    StableHlo.unary main_v12 main_v13 (broadcastInDim S2000000x32 ![0, 1] bcast_S1x32_S2000000x32_0_1 : (⟨S1x32, .f32⟩ : BufTy).Contents (Elt F) → (⟨S2000000x32, .f32⟩ : BufTy).Contents (Elt F)),
    StableHlo.binary main_v11 main_v13 main_v14 (addf : (⟨S2000000x32, .f32⟩ : BufTy).Contents (Elt F) → (⟨S2000000x32, .f32⟩ : BufTy).Contents (Elt F) → (⟨S2000000x32, .f32⟩ : BufTy).Contents (Elt F)),
    StableHlo.TRef.unary (.of main_arg8 : StableHlo.TRef sig ⟨S20001, .i32⟩) main_call2.v0 (extractStridedSlice S20000 ![1] · slices_S20001_S20000_1),
    StableHlo.TRef.unary (.of main_arg8 : StableHlo.TRef sig ⟨S20001, .i32⟩) main_call2.v1 (extractStridedSlice S20000 ![0] · slices_S20001_S20000_0),
    StableHlo.TRef.binary main_call2.v0 main_call2.v1 main_call2.v2 subi,
    StableHlo.nullary main_v16 (iotaInDim S20000 32 0),
    StableHlo.TRef.unary (.of main_v15 : StableHlo.TRef sig ⟨S20000, .i32⟩) main_call3.v0 (extractStridedSlice S1 ![19999] · slices_S20000_S1_19999),
    StableHlo.TRef.unary (.of main_v15 : StableHlo.TRef sig ⟨S20000, .i32⟩) main_call3.v1 (extractStridedSlice S19999 ![0] · slices_S20000_S19999_0),
    StableHlo.TRef.binary main_call3.v0 main_call3.v1 main_call3.v2 roll,
    StableHlo.nullary main_c (constantI S_ 32 0#32),
    StableHlo.unary main_c main_v18 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v17 main_v18 main_c_0 main_v19 ((fun x i u => Host.scatter scatter_S20000_S1_S__n_0_0_0 (fun _ b => b) x i u) : (⟨S20000, .i32⟩ : BufTy).Contents (Elt F) → (⟨S1, .i32⟩ : BufTy).Contents (Elt F) → (⟨S_, .i32⟩ : BufTy).Contents (Elt F) → (⟨S20000, .i32⟩ : BufTy).Contents (Elt F)),
    StableHlo.TRef.nullary main_call4.call0.c (constantI S_ 32 0#32),
    StableHlo.TRef.unary main_call4.call0.c main_call4.call0.v0 (broadcastInDim S_ ![] bcast_S_S_),
    StableHlo.TRef.binary (.of main_v19 : StableHlo.TRef sig ⟨S20000, .i32⟩) main_call4.call0.v0 main_call4.call0.v1 (fun x v => Host.reduceWindow IntOp.addi ![20000] ![1] ![19999] ![0] x v reduceWindows_S20000_S20000_w20000s1p19999_0 h_S_),
    StableHlo.nullary main_c_1 (constantI S_ 32 0#32),
    StableHlo.unary main_c_1 main_v21 (broadcastInDim S2000000 ![] bcast_S_S2000000 : (⟨S_, .i32⟩ : BufTy).Contents (Elt F) → (⟨S2000000, .i32⟩ : BufTy).Contents (Elt F)),
    StableHlo.nullary main_c_2 (constantI S_ 32 0#32),
    StableHlo.unary main_c_2 main_v22 (broadcastInDim S20000 ![] bcast_S_S20000 : (⟨S_, .i32⟩ : BufTy).Contents (Elt F) → (⟨S20000, .i32⟩ : BufTy).Contents (Elt F)),
    StableHlo.binary main_v20 main_v22 main_v23 (cmpi .slt : (⟨S20000, .i32⟩ : BufTy).Contents (Elt F) → (⟨S20000, .i32⟩ : BufTy).Contents (Elt F) → (⟨S20000, .i1⟩ : BufTy).Contents (Elt F)),
    StableHlo.nullary main_c_3 (constantI S_ 32 2000000#32),
    StableHlo.unary main_c_3 main_v24 (broadcastInDim S20000 ![] bcast_S_S20000 : (⟨S_, .i32⟩ : BufTy).Contents (Elt F) → (⟨S20000, .i32⟩ : BufTy).Contents (Elt F)),
    StableHlo.binary main_v20 main_v24 main_v25 (addi : (⟨S20000, .i32⟩ : BufTy).Contents (Elt F) → (⟨S20000, .i32⟩ : BufTy).Contents (Elt F) → (⟨S20000, .i32⟩ : BufTy).Contents (Elt F)),
    StableHlo.ternary main_v23 main_v25 main_v20 main_v26 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    StableHlo.unary main_v26 main_v27 (broadcastInDim S20000x1 ![0] bcast_S20000_S20000x1_0 : (⟨S20000, .i32⟩ : BufTy).Contents (Elt F) → (⟨S20000x1, .i32⟩ : BufTy).Contents (Elt F)),
    StableHlo.nullary main_c_4 (constantI S_ 32 1#32),
    StableHlo.unary main_c_4 main_v28 (broadcastInDim S20000 ![] bcast_S_S20000 : (⟨S_, .i32⟩ : BufTy).Contents (Elt F) → (⟨S20000, .i32⟩ : BufTy).Contents (Elt F)),
    StableHlo.ternary main_v21 main_v27 main_v28 main_v29 ((fun x i u => Host.scatter scatter_S2000000_S20000x1_S20000_n_0_0_1 IntOp.addi x i u) : (⟨S2000000, .i32⟩ : BufTy).Contents (Elt F) → (⟨S20000x1, .i32⟩ : BufTy).Contents (Elt F) → (⟨S20000, .i32⟩ : BufTy).Contents (Elt F) → (⟨S2000000, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v29 : StableHlo.TRef sig ⟨S2000000, .i32⟩) main_call5.call0.v0 main_call5.call0.v1 (fun x v => Host.reduceWindow IntOp.addi ![2000000] ![1] ![1999999] ![0] x v reduceWindows_S2000000_S2000000_w2000000s1p1999999_0 h_S_),
    StableHlo.nullary main_c_5 (constantI S_ 32 1#32),
    StableHlo.unary main_c_5 main_v31 (broadcastInDim S2000000 ![] bcast_S_S2000000 : (⟨S_, .i32⟩ : BufTy).Contents (Elt F) → (⟨S2000000, .i32⟩ : BufTy).Contents (Elt F)),
    StableHlo.binary main_v30 main_v31 main_v32 (subi : (⟨S2000000, .i32⟩ : BufTy).Contents (Elt F) → (⟨S2000000, .i32⟩ : BufTy).Contents (Elt F) → (⟨S2000000, .i32⟩ : BufTy).Contents (Elt F)),
    StableHlo.TRef.nullary main_call6.c (constantI S_ 32 0#32),
    StableHlo.TRef.unary main_call6.c main_call6.v0 (broadcastInDim S2000000 ![] bcast_S_S2000000),
    StableHlo.TRef.binary (.of main_v32 : StableHlo.TRef sig ⟨S2000000, .i32⟩) main_call6.v0 main_call6.v1 (cmpi .slt),
    StableHlo.TRef.nullary main_call6.c_0 (constantI S_ 32 20000#32),
    StableHlo.TRef.unary main_call6.c_0 main_call6.v2 (broadcastInDim S2000000 ![] bcast_S_S2000000),
    StableHlo.TRef.binary (.of main_v32 : StableHlo.TRef sig ⟨S2000000, .i32⟩) main_call6.v2 main_call6.v3 addi,
    StableHlo.TRef.ternary main_call6.v1 main_call6.v3 (.of main_v32 : StableHlo.TRef sig ⟨S2000000, .i32⟩) main_call6.call0.v0 select,
    StableHlo.TRef.unary main_call6.call0.v0 main_call6.v5 (broadcastInDim S2000000x1 ![0] bcast_S2000000_S2000000x1_0),
    StableHlo.TRef.nullary main_call6.c_1 (constantI S1 32 19999#32),
    StableHlo.TRef.nullary main_call6.c_2 (constantI S_ 32 0#32),
    StableHlo.TRef.unary main_call6.c_2 main_call6.v6 (broadcastInDim S2000000x1 ![] bcast_S_S2000000x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S2000000x1 ![0, 1] bcast_S1x1_S2000000x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S2000000x1_S2000000_d1 h_S_),
    StableHlo.TRef.binary (.of main_v16 : StableHlo.TRef sig ⟨S20000, .i32⟩) main_call6.v5 main_call6.v13 (fun x i => Host.gather gather_S20000_S2000000x1_S2000000_n_0_n_n_0_1_1 x i),
    StableHlo.TRef.nullary main_call6.c_4 (constantI S_ 32 2147483648#32),
    StableHlo.TRef.unary main_call6.c_4 main_call6.v14 (broadcastInDim S2000000 ![] bcast_S_S2000000),
    StableHlo.TRef.ternary main_call6.v12 main_call6.v13 main_call6.v14 main_call6.v15 select,
    StableHlo.nullary main_cst (constant S_ .f32 0x00000000#32),
    StableHlo.unary main_cst main_v34 (broadcastInDim S20000x32 ![] bcast_S_S20000x32 : (⟨S_, .f32⟩ : BufTy).Contents (Elt F) → (⟨S20000x32, .f32⟩ : BufTy).Contents (Elt F)),
    StableHlo.unary main_v33 main_v35 (broadcastInDim S2000000x1 ![0] bcast_S2000000_S2000000x1_0 : (⟨S2000000, .i32⟩ : BufTy).Contents (Elt F) → (⟨S2000000x1, .i32⟩ : BufTy).Contents (Elt F)),
    StableHlo.ternary main_v34 main_v35 main_v14 main_v36 ((fun x i u => Host.scatterAdd scatter_S20000x32_S2000000x1_S2000000x32_1_0_0_1 x i u) : (⟨S20000x32, .f32⟩ : BufTy).Contents (Elt F) → (⟨S2000000x1, .i32⟩ : BufTy).Contents (Elt F) → (⟨S2000000x32, .f32⟩ : BufTy).Contents (Elt F) → (⟨S20000x32, .f32⟩ : BufTy).Contents (Elt F)) ]

/-! An operation over typed references is the operation over the references themselves: the transport of contents
    along a typed reference's type equation is the identity at a literal reference. One equation per callee operation. -/
section
attribute [local irreducible] Host.reduce Host.gather Host.scatter Host.scatterAdd Host.reduceWindow
theorem opT5 : (StableHlo.TRef.nullary main_call0.cst (constant S_ .f32 0x00000000#32) : HloOp τ sig (Elt F)) = StableHlo.nullary main_call0_cst (constant S_ .f32 0x00000000#32) := rfl
theorem opT6 : (StableHlo.TRef.unary main_call0.cst main_call0.v0 (broadcastInDim S2000000x64 ![] bcast_S_S2000000x64) : HloOp τ sig (Elt F)) = StableHlo.unary main_call0_cst main_call0_v0 (broadcastInDim S2000000x64 ![] bcast_S_S2000000x64) := rfl
theorem opT7 : (StableHlo.TRef.binary (.of main_v4 : StableHlo.TRef sig ⟨S2000000x64, .f32⟩) main_call0.v0 main_call0.v1 maximumf : HloOp τ sig (Elt F)) = StableHlo.binary main_v4 main_call0_v0 main_v5 maximumf := rfl
theorem opT12 : (StableHlo.TRef.nullary main_call1.cst (constant S_ .f32 0x00000000#32) : HloOp τ sig (Elt F)) = StableHlo.nullary main_call1_cst (constant S_ .f32 0x00000000#32) := rfl
theorem opT13 : (StableHlo.TRef.unary main_call1.cst main_call1.v0 (broadcastInDim S2000000x64 ![] bcast_S_S2000000x64) : HloOp τ sig (Elt F)) = StableHlo.unary main_call1_cst main_call1_v0 (broadcastInDim S2000000x64 ![] bcast_S_S2000000x64) := rfl
theorem opT14 : (StableHlo.TRef.binary (.of main_v9 : StableHlo.TRef sig ⟨S2000000x64, .f32⟩) main_call1.v0 main_call1.v1 maximumf : HloOp τ sig (Elt F)) = StableHlo.binary main_v9 main_call1_v0 main_v10 maximumf := rfl
theorem opT19 : (StableHlo.TRef.unary (.of main_arg8 : StableHlo.TRef sig ⟨S20001, .i32⟩) main_call2.v0 (extractStridedSlice S20000 ![1] · slices_S20001_S20000_1) : HloOp τ sig (Elt F)) = StableHlo.unary main_arg8 main_call2_v0 (extractStridedSlice S20000 ![1] · slices_S20001_S20000_1) := rfl
theorem opT20 : (StableHlo.TRef.unary (.of main_arg8 : StableHlo.TRef sig ⟨S20001, .i32⟩) main_call2.v1 (extractStridedSlice S20000 ![0] · slices_S20001_S20000_0) : HloOp τ sig (Elt F)) = StableHlo.unary main_arg8 main_call2_v1 (extractStridedSlice S20000 ![0] · slices_S20001_S20000_0) := rfl
theorem opT21 : (StableHlo.TRef.binary main_call2.v0 main_call2.v1 main_call2.v2 subi : HloOp τ sig (Elt F)) = StableHlo.binary main_call2_v0 main_call2_v1 main_v15 subi := rfl
theorem opT23 : (StableHlo.TRef.unary (.of main_v15 : StableHlo.TRef sig ⟨S20000, .i32⟩) main_call3.v0 (extractStridedSlice S1 ![19999] · slices_S20000_S1_19999) : HloOp τ sig (Elt F)) = StableHlo.unary main_v15 main_call3_v0 (extractStridedSlice S1 ![19999] · slices_S20000_S1_19999) := rfl
theorem opT24 : (StableHlo.TRef.unary (.of main_v15 : StableHlo.TRef sig ⟨S20000, .i32⟩) main_call3.v1 (extractStridedSlice S19999 ![0] · slices_S20000_S19999_0) : HloOp τ sig (Elt F)) = StableHlo.unary main_v15 main_call3_v1 (extractStridedSlice S19999 ![0] · slices_S20000_S19999_0) := rfl
theorem opT25 : (StableHlo.TRef.binary main_call3.v0 main_call3.v1 main_call3.v2 roll : HloOp τ sig (Elt F)) = StableHlo.binary main_call3_v0 main_call3_v1 main_v17 roll := rfl
theorem opT30 : (StableHlo.TRef.nullary main_call4.call0.c (constantI S_ 32 0#32) : HloOp τ sig (Elt F)) = StableHlo.nullary main_call4_call0_c (constantI S_ 32 0#32) := rfl
theorem opT31 : (StableHlo.TRef.unary main_call4.call0.c main_call4.call0.v0 (broadcastInDim S_ ![] bcast_S_S_) : HloOp τ sig (Elt F)) = StableHlo.unary main_call4_call0_c main_call4_call0_v0 (broadcastInDim S_ ![] bcast_S_S_) := rfl
theorem opT32 : (StableHlo.TRef.binary (.of main_v19 : StableHlo.TRef sig ⟨S20000, .i32⟩) main_call4.call0.v0 main_call4.call0.v1 (fun x v => Host.reduceWindow IntOp.addi ![20000] ![1] ![19999] ![0] x v reduceWindows_S20000_S20000_w20000s1p19999_0 h_S_) : HloOp τ sig (Elt F)) = StableHlo.binary main_v19 main_call4_call0_v0 main_v20 (fun x v => Host.reduceWindow IntOp.addi ![20000] ![1] ![19999] ![0] x v reduceWindows_S20000_S20000_w20000s1p19999_0 h_S_) := rfl
theorem opT46 : (StableHlo.TRef.nullary main_call5.call0.c (constantI S_ 32 0#32) : HloOp τ sig (Elt F)) = StableHlo.nullary main_call5_call0_c (constantI S_ 32 0#32) := rfl
theorem opT47 : (StableHlo.TRef.unary main_call5.call0.c main_call5.call0.v0 (broadcastInDim S_ ![] bcast_S_S_) : HloOp τ sig (Elt F)) = StableHlo.unary main_call5_call0_c main_call5_call0_v0 (broadcastInDim S_ ![] bcast_S_S_) := rfl
theorem opT48 : (StableHlo.TRef.binary (.of main_v29 : StableHlo.TRef sig ⟨S2000000, .i32⟩) main_call5.call0.v0 main_call5.call0.v1 (fun x v => Host.reduceWindow IntOp.addi ![2000000] ![1] ![1999999] ![0] x v reduceWindows_S2000000_S2000000_w2000000s1p1999999_0 h_S_) : HloOp τ sig (Elt F)) = StableHlo.binary main_v29 main_call5_call0_v0 main_v30 (fun x v => Host.reduceWindow IntOp.addi ![2000000] ![1] ![1999999] ![0] x v reduceWindows_S2000000_S2000000_w2000000s1p1999999_0 h_S_) := rfl
theorem opT52 : (StableHlo.TRef.nullary main_call6.c (constantI S_ 32 0#32) : HloOp τ sig (Elt F)) = StableHlo.nullary main_call6_c (constantI S_ 32 0#32) := rfl
theorem opT53 : (StableHlo.TRef.unary main_call6.c main_call6.v0 (broadcastInDim S2000000 ![] bcast_S_S2000000) : HloOp τ sig (Elt F)) = StableHlo.unary main_call6_c main_call6_v0 (broadcastInDim S2000000 ![] bcast_S_S2000000) := rfl
theorem opT54 : (StableHlo.TRef.binary (.of main_v32 : StableHlo.TRef sig ⟨S2000000, .i32⟩) main_call6.v0 main_call6.v1 (cmpi .slt) : HloOp τ sig (Elt F)) = StableHlo.binary main_v32 main_call6_v0 main_call6_v1 (cmpi .slt) := rfl
theorem opT55 : (StableHlo.TRef.nullary main_call6.c_0 (constantI S_ 32 20000#32) : HloOp τ sig (Elt F)) = StableHlo.nullary main_call6_c_0 (constantI S_ 32 20000#32) := rfl
theorem opT56 : (StableHlo.TRef.unary main_call6.c_0 main_call6.v2 (broadcastInDim S2000000 ![] bcast_S_S2000000) : HloOp τ sig (Elt F)) = StableHlo.unary main_call6_c_0 main_call6_v2 (broadcastInDim S2000000 ![] bcast_S_S2000000) := rfl
theorem opT57 : (StableHlo.TRef.binary (.of main_v32 : StableHlo.TRef sig ⟨S2000000, .i32⟩) main_call6.v2 main_call6.v3 addi : HloOp τ sig (Elt F)) = StableHlo.binary main_v32 main_call6_v2 main_call6_v3 addi := rfl
theorem opT58 : (StableHlo.TRef.ternary main_call6.v1 main_call6.v3 (.of main_v32 : StableHlo.TRef sig ⟨S2000000, .i32⟩) main_call6.call0.v0 select : HloOp τ sig (Elt F)) = StableHlo.ternary main_call6_v1 main_call6_v3 main_v32 main_call6_v4 select := rfl
theorem opT59 : (StableHlo.TRef.unary main_call6.call0.v0 main_call6.v5 (broadcastInDim S2000000x1 ![0] bcast_S2000000_S2000000x1_0) : HloOp τ sig (Elt F)) = StableHlo.unary main_call6_v4 main_call6_v5 (broadcastInDim S2000000x1 ![0] bcast_S2000000_S2000000x1_0) := rfl
theorem opT60 : (StableHlo.TRef.nullary main_call6.c_1 (constantI S1 32 19999#32) : HloOp τ sig (Elt F)) = StableHlo.nullary main_call6_c_1 (constantI S1 32 19999#32) := rfl
theorem opT61 : (StableHlo.TRef.nullary main_call6.c_2 (constantI S_ 32 0#32) : HloOp τ sig (Elt F)) = StableHlo.nullary main_call6_c_2 (constantI S_ 32 0#32) := rfl
theorem opT62 : (StableHlo.TRef.unary main_call6.c_2 main_call6.v6 (broadcastInDim S2000000x1 ![] bcast_S_S2000000x1) : HloOp τ sig (Elt F)) = StableHlo.unary main_call6_c_2 main_call6_v6 (broadcastInDim S2000000x1 ![] bcast_S_S2000000x1) := rfl
theorem opT63 : (StableHlo.TRef.binary main_call6.v5 main_call6.v6 main_call6.v7 (cmpi .sge) : HloOp τ sig (Elt F)) = StableHlo.binary main_call6_v5 main_call6_v6 main_call6_v7 (cmpi .sge) := rfl
theorem opT64 : (StableHlo.TRef.unary main_call6.c_1 main_call6.v8 (broadcastInDim S1x1 ![1] bcast_S1_S1x1_1) : HloOp τ sig (Elt F)) = StableHlo.unary main_call6_c_1 main_call6_v8 (broadcastInDim S1x1 ![1] bcast_S1_S1x1_1) := rfl
theorem opT65 : (StableHlo.TRef.unary main_call6.v8 main_call6.v9 (broadcastInDim S2000000x1 ![0, 1] bcast_S1x1_S2000000x1_0_1) : HloOp τ sig (Elt F)) = StableHlo.unary main_call6_v8 main_call6_v9 (broadcastInDim S2000000x1 ![0, 1] bcast_S1x1_S2000000x1_0_1) := rfl
theorem opT66 : (StableHlo.TRef.binary main_call6.v5 main_call6.v9 main_call6.v10 (cmpi .sle) : HloOp τ sig (Elt F)) = StableHlo.binary main_call6_v5 main_call6_v9 main_call6_v10 (cmpi .sle) := rfl
theorem opT67 : (StableHlo.TRef.binary main_call6.v7 main_call6.v10 main_call6.v11 andi : HloOp τ sig (Elt F)) = StableHlo.binary main_call6_v7 main_call6_v10 main_call6_v11 andi := rfl
theorem opT68 : (StableHlo.TRef.nullary main_call6.c_3 (constantI S_ 1 1#1) : HloOp τ sig (Elt F)) = StableHlo.nullary main_call6_c_3 (constantI S_ 1 1#1) := rfl
theorem opT69 : (StableHlo.TRef.binary main_call6.v11 main_call6.c_3 main_call6.v12 (fun x v => Host.reduce IntOp.andi x v reducesTo_S2000000x1_S2000000_d1 h_S_) : HloOp τ sig (Elt F)) = StableHlo.binary main_call6_v11 main_call6_c_3 main_call6_v12 (fun x v => Host.reduce IntOp.andi x v reducesTo_S2000000x1_S2000000_d1 h_S_) := rfl
theorem opT70 : (StableHlo.TRef.binary (.of main_v16 : StableHlo.TRef sig ⟨S20000, .i32⟩) main_call6.v5 main_call6.v13 (fun x i => Host.gather gather_S20000_S2000000x1_S2000000_n_0_n_n_0_1_1 x i) : HloOp τ sig (Elt F)) = StableHlo.binary main_v16 main_call6_v5 main_call6_v13 (fun x i => Host.gather gather_S20000_S2000000x1_S2000000_n_0_n_n_0_1_1 x i) := rfl
theorem opT71 : (StableHlo.TRef.nullary main_call6.c_4 (constantI S_ 32 2147483648#32) : HloOp τ sig (Elt F)) = StableHlo.nullary main_call6_c_4 (constantI S_ 32 2147483648#32) := rfl
theorem opT72 : (StableHlo.TRef.unary main_call6.c_4 main_call6.v14 (broadcastInDim S2000000 ![] bcast_S_S2000000) : HloOp τ sig (Elt F)) = StableHlo.unary main_call6_c_4 main_call6_v14 (broadcastInDim S2000000 ![] bcast_S_S2000000) := rfl
theorem opT73 : (StableHlo.TRef.ternary main_call6.v12 main_call6.v13 main_call6.v14 main_call6.v15 select : HloOp τ sig (Elt F)) = StableHlo.ternary main_call6_v12 main_call6_v13 main_call6_v14 main_v33 select := rfl
end

theorem opsT_eq : (opsT : List (HloOp τ sig (Elt F))) = ops :=
  congrArg₂ List.cons rfl
    (congrArg₂ List.cons rfl
    (congrArg₂ List.cons rfl
    (congrArg₂ List.cons rfl
    (congrArg₂ List.cons rfl
    (congrArg₂ List.cons opT5
    (congrArg₂ List.cons opT6
    (congrArg₂ List.cons opT7
    (congrArg₂ List.cons rfl
    (congrArg₂ List.cons rfl
    (congrArg₂ List.cons rfl
    (congrArg₂ List.cons rfl
    (congrArg₂ List.cons opT12
    (congrArg₂ List.cons opT13
    (congrArg₂ List.cons opT14
    (congrArg₂ List.cons rfl
    (congrArg₂ List.cons rfl
    (congrArg₂ List.cons rfl
    (congrArg₂ List.cons rfl
    (congrArg₂ List.cons opT19
    (congrArg₂ List.cons opT20
    (congrArg₂ List.cons opT21
    (congrArg₂ List.cons rfl
    (congrArg₂ List.cons opT23
    (congrArg₂ List.cons opT24
    (congrArg₂ List.cons opT25
    (congrArg₂ List.cons rfl
    (congrArg₂ List.cons rfl
    (congrArg₂ List.cons rfl
    (congrArg₂ List.cons rfl
    (congrArg₂ List.cons opT30
    (congrArg₂ List.cons opT31
    (congrArg₂ List.cons opT32
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons rfl
    (congrArg₂ List.cons opT46
    (congrArg₂ List.cons opT47
    (congrArg₂ List.cons opT48
    (congrArg₂ List.cons rfl
    (congrArg₂ List.cons rfl
    (congrArg₂ List.cons rfl
    (congrArg₂ List.cons opT52
    (congrArg₂ List.cons opT53
    (congrArg₂ List.cons opT54
    (congrArg₂ List.cons opT55
    (congrArg₂ List.cons opT56
    (congrArg₂ List.cons opT57
    (congrArg₂ List.cons opT58
    (congrArg₂ List.cons opT59
    (congrArg₂ List.cons opT60
    (congrArg₂ List.cons opT61
    (congrArg₂ List.cons opT62
    (congrArg₂ List.cons opT63
    (congrArg₂ List.cons opT64
    (congrArg₂ List.cons opT65
    (congrArg₂ List.cons opT66
    (congrArg₂ List.cons opT67
    (congrArg₂ List.cons opT68
    (congrArg₂ List.cons opT69
    (congrArg₂ List.cons opT70
    (congrArg₂ List.cons opT71
    (congrArg₂ List.cons opT72
    (congrArg₂ List.cons opT73
    (congrArg₂ List.cons rfl
    (congrArg₂ List.cons rfl
    (congrArg₂ List.cons rfl
    (congrArg₂ List.cons rfl (rfl))))))))))))))))))))))))))))))))))))))))))))))))))))))))))))))))))))))))))))))

-- seventy-eight sequenced steps re-associated one at a time: the recursion is as deep as the chain is long
set_option maxRecDepth 2048 in
set_option maxHeartbeats 1600000 in
/-- The program is that straight line: the functions' definitions unfolded at their calls, both sides are one chain
    of steps once sequencing is re-associated. -/
theorem main_eqT (c : Dev nD) : main (F := F) c = seq opsT := by
  simp only [main, fn_relu.body, fn_diff.body, fn_roll_static.body, fn_cumsum.body, fn_cumsum_0.body, fn_cumsum_1.body,
    fn_cumsum_2.body, fn_take.body, fn_where.body, seq, bind_assoc, pure_bind]
  rfl

theorem main_eq (c : Dev nD) : main (F := F) c = seq ops := (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub .., nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., ternary_bufs_sub ..⟩

set_option maxRecDepth 16384 in
set_option maxHeartbeats 1600000 in
/-- What the line leaves in the result buffer, from any contents of the device's buffers: the pure term of the
    contents of the nine argument buffers. Each operation's result is read at its own buffer and passed over at every
    other; the term left is `outTerm` with its definitions opened. -/
theorem out_eq (V : Valuation τ sig (Elt Ideal)) :
    after (ops (F := Ideal)) V (Proc.devRef .tc main_v36)
      = outTerm (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8)) := by
  after_results_simp
  simp only [outTerm, labelTerm, marksTerm, startsTerm, hTerm, roll]

/-! No operation writes an argument buffer: each keeps its contents. -/
section
theorem arg0_eq (V : Valuation τ sig (Elt F)) :
    after ops V (Proc.devRef .tc main_arg0) = V (Proc.devRef .tc main_arg0) := by after_results_simp
theorem arg1_eq (V : Valuation τ sig (Elt F)) :
    after ops V (Proc.devRef .tc main_arg1) = V (Proc.devRef .tc main_arg1) := by after_results_simp
theorem arg2_eq (V : Valuation τ sig (Elt F)) :
    after ops V (Proc.devRef .tc main_arg2) = V (Proc.devRef .tc main_arg2) := by after_results_simp
theorem arg3_eq (V : Valuation τ sig (Elt F)) :
    after ops V (Proc.devRef .tc main_arg3) = V (Proc.devRef .tc main_arg3) := by after_results_simp
theorem arg4_eq (V : Valuation τ sig (Elt F)) :
    after ops V (Proc.devRef .tc main_arg4) = V (Proc.devRef .tc main_arg4) := by after_results_simp
theorem arg5_eq (V : Valuation τ sig (Elt F)) :
    after ops V (Proc.devRef .tc main_arg5) = V (Proc.devRef .tc main_arg5) := by after_results_simp
theorem arg6_eq (V : Valuation τ sig (Elt F)) :
    after ops V (Proc.devRef .tc main_arg6) = V (Proc.devRef .tc main_arg6) := by after_results_simp
theorem arg7_eq (V : Valuation τ sig (Elt F)) :
    after ops V (Proc.devRef .tc main_arg7) = V (Proc.devRef .tc main_arg7) := by after_results_simp
theorem arg8_eq (V : Valuation τ sig (Elt F)) :
    after ops V (Proc.devRef .tc main_arg8) = V (Proc.devRef .tc main_arg8) := by after_results_simp
end

end RefRun

open RefRun

/-- On every device, from any memory with zero counters: every weakly fair execution of the reference program
    terminates with the result buffer at `outTerm` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v36) = outTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v36).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefValue

end
-- ==== Proof.RefRows.lean ====
/-
  The reference's perceptron, read row by row.

  The reference joins the feature and embedding arrays along the column axis, multiplies by the first weight matrix,
  adds the bias laid along every row, rectifies against a zero splat, and repeats for the second and third layers
  (the third without a rectifier). Read at entry (r, e), each of these is the same operation on row r alone, so the
  whole array at (r, e) is the three-layer perceptron of row r at column e.
-/
import proofs.«401660_j12979391169440_1_alg».proof.Proof.RefTerm
import proofs.«401660_j12979391169440_1_alg».proof.Proof.Spec
import proofs.«401660_j12979391169440_1_alg».proof.Proof.LibPlainDot
import proofs.«401660_j12979391169440_1_alg».proof.Proof.LibConcatCols
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.ValueIdx Cert.ReferenceIdeal

/-- A vector laid along a new unit row axis and then down n rows, read at (r, j), is the vector at j. -/
theorem bias_apply {α : Type} {n J : Nat}
    (h1 : (⟨1, ![J]⟩ : Shape).BroadcastsInDim ⟨2, ![1, J]⟩ ![1])
    (h2 : (⟨2, ![1, J]⟩ : Shape).BroadcastsInDim ⟨2, ![n, J]⟩ ![0, 1])
    (b : (⟨1, ![J]⟩ : Shape).Idx → α) (r : Fin n) (j : Fin J) :
    broadcastInDim ⟨2, ![n, J]⟩ ![0, 1] h2 (broadcastInDim ⟨2, ![1, J]⟩ ![1] h1 b) (ix2 r j) = b (ix1 j) := by
  rw [broadcastInDim_apply ![0, 1] h2 _ (ix2 r j) (ix2 (0 : Fin 1) j) (by
    intro a
    match a with
    | ⟨0, _⟩ => show (0 : ℕ) = if (1 : ℕ) = 1 then 0 else _; rw [if_pos rfl]
    | ⟨1, _⟩ =>
      show j.val = if J = 1 then 0 else j.val
      split
      · have := j.isLt; omega
      · rfl)]
  exact broadcastInDim_apply ![1] h1 b (ix2 (0 : Fin 1) j) (ix1 j) (by
    intro a
    match a with
    | ⟨0, _⟩ =>
      show j.val = if J = 1 then 0 else j.val
      split
      · have := j.isLt; omega
      · rfl)

/-- The rectifier against the zero splat, at an entry. -/
theorem relu_apply {T : Shape} (h : (⟨0, ![]⟩ : Shape).BroadcastsInDim T ![]) (v : FVec Ideal T .f32) (i : T.Idx) :
    maximumf v (broadcastInDim T ![] h (constant (F := Ideal) ⟨0, ![]⟩ .f32 0x00000000#32)) i = Cert.Seg.relu (v i) := rfl

/-- The joined array at (r, k) is the joined row r at k. -/
theorem cat_apply {n : Nat} (x : (⟨2, ![n, 8]⟩ : Shape).Idx → EReal) (y : (⟨2, ![n, 32]⟩ : Shape).Idx → EReal)
    (h : Shape.Concatenates [(⟨2, ![n, 8]⟩ : Shape), ⟨2, ![n, 32]⟩] ⟨2, ![n, 40]⟩ 1) (r : Fin n) (k : Fin 40) :
    concatenate ⟨2, ![n, 40]⟩ 1 [⟨⟨2, ![n, 8]⟩, x⟩, ⟨⟨2, ![n, 32]⟩, y⟩] h (ix2 r k)
      = Cert.Seg.cat (fun k => x (ix2 r k)) (fun k => y (ix2 r k)) k := by
  unfold Cert.Seg.cat
  by_cases hk : k.val < 8
  · rw [dif_pos hk]
    exact Cert.LibConcatCols.concat_left x y h r ⟨k.val, hk⟩ k.isLt
  · rw [dif_neg hk]
    have e : k = ⟨8 + (k.val - 8), by omega⟩ := Fin.ext (by show k.val = 8 + (k.val - 8); omega)
    conv_lhs => rw [e]
    exact Cert.LibConcatCols.concat_right x y h r ⟨k.val - 8, by omega⟩ (by show 8 + (k.val - 8) < 40; omega)

/-- One affine layer of the reference (a plain product plus the bias laid along every row) at (r, j) is the layer
    on row r at j. -/
theorem layer_apply {n K J : Nat} (d : DotDims ⟨2, ![n, K]⟩ ⟨2, ![K, J]⟩ ⟨2, ![n, J]⟩)
    (hlc : d.lhsContracting = [1]) (hrc : d.rhsContracting = [0])
    (hln : d.lhsNonContracting = [0]) (hrn : d.rhsNonContracting = [1])
    (hlb : d.lhsBatch = []) (hrb : d.rhsBatch = [])
    (h1 : (⟨1, ![J]⟩ : Shape).BroadcastsInDim ⟨2, ![1, J]⟩ ![1])
    (h2 : (⟨2, ![1, J]⟩ : Shape).BroadcastsInDim ⟨2, ![n, J]⟩ ![0, 1])
    (v : FVec Ideal ⟨2, ![n, K]⟩ .f32) (W : FVec Ideal ⟨2, ![K, J]⟩ .f32) (b : FVec Ideal ⟨1, ![J]⟩ .f32)
    (r : Fin n) (j : Fin J) :
    addf (Host.dotGeneral d none v W)
        (broadcastInDim ⟨2, ![n, J]⟩ ![0, 1] h2 (broadcastInDim ⟨2, ![1, J]⟩ ![1] h1 b)) (ix2 r j)
      = Cert.Seg.layer (fun k => v (ix2 r k)) W b j := by
  show FloatOps.addf (FloatOps.dotGeneral d none .single v W (ix2 r j))
      (broadcastInDim ⟨2, ![n, J]⟩ ![0, 1] h2 (broadcastInDim ⟨2, ![1, J]⟩ ![1] h1 b) (ix2 r j)) = _
  rw [Ideal.addf_def, Cert.LibPlainDot.dotGeneral_apply d hlc hrc hln hrn hlb hrb, bias_apply]
  rfl

/-- The reference's perceptron array at (r, e) is the perceptron of row r at e. -/
theorem hTerm_apply (a0 : FVec Ideal S2000000x8 .f32) (a1 : FVec Ideal S2000000x32 .f32) (a2 : FVec Ideal S40x64 .f32)
    (a3 : FVec Ideal S64 .f32) (a4 : FVec Ideal S64x64 .f32) (a5 : FVec Ideal S64 .f32) (a6 : FVec Ideal S64x32 .f32)
    (a7 : FVec Ideal S32 .f32) (r : Fin 2000000) (e : Fin 32) :
    hTerm a0 a1 a2 a3 a4 a5 a6 a7 (ix2 r e) = Cert.Seg.rows a0 a1 a2 a3 a4 a5 a6 a7 r e := by
  unfold hTerm Cert.Seg.rows Cert.Seg.mlpRow
  dsimp only
  rw [layer_apply _ rfl rfl rfl rfl rfl rfl]
  refine congrArg (fun a : Fin 64 → EReal => Cert.Seg.layer a a6 a7 e) (funext fun j => ?_)
  rw [relu_apply, layer_apply _ rfl rfl rfl rfl rfl rfl]
  refine congrArg (fun a : Fin 64 → EReal => Cert.Seg.relu (Cert.Seg.layer a a4 a5 j)) (funext fun j' => ?_)
  rw [relu_apply, layer_apply _ rfl rfl rfl rfl rfl rfl]
  refine congrArg (fun a : Fin 40 → EReal => Cert.Seg.relu (Cert.Seg.layer a a2 a3 j')) (funext fun k => ?_)
  exact cat_apply a0 a1 _ r k

end Cert.ReferenceIdeal.RefValue

end
-- ==== Proof.LibScatterAddBins.lean ====
/-
  An accumulating float scatter of N scalars into a vector of K bins, read at a bin, over the extended reals.

  `x.at[idx].add(upd)` of a vector `x : [K]` with one index per update (`idx : [N, 1]`, `upd : [N]`; also what
  `jax.ops.segment_sum` lowers to) prints as a scatter whose one operand axis is inserted and indexed by the start
  index. At the ideal instance the result at bin b is the operand's element plus the sum of the updates whose index
  word, read as a signed integer, is b; an update whose index is negative or at least K lands nowhere.

  The steps, each a lemma of its own: on the one operand axis the start of update j is the signed index word of row j
  (`binsDims_start`) and the window coordinate is 0, the axis being inserted (`binsDims_window`); so update j lands
  on bin b exactly when that signed word equals b (`binsDims_resultIdx?_eq_some_iff`); and the sum over the updates
  landing on b, taken over the indices of the update vector, is re-indexed over the numbers below N (`idx1Equiv`).
-/
import Idealize.ShloMosaic.PureOps.Ideal
import Idealize.ShloMosaic.Lib.ValueIdx

noncomputable section

namespace Idealize.ShloMosaic.ScatterAddBins

open Idealize.ShloMosaic Idealize.ShloMosaic.ValueIdx

/-- The dimension numbers of a scatter of N scalars into K bins: operand `[K]`, indices `[N, 1]`, updates `[N]`. -/
abbrev binsDims (K N : Nat) (wf : ScatterDims.WF ⟨1, ![K]⟩ ⟨2, ![N, 1]⟩ ⟨1, ![N]⟩ [] [0] [0] 1) :
    ScatterDims ⟨1, ![K]⟩ ⟨2, ![N, 1]⟩ ⟨1, ![N]⟩ where
  updateWindowDims := []
  insertedWindowDims := [0]
  scatterDimsToOperandDims := [0]
  indexVectorDim := 1
  wf := wf

/-- The start of update `j` on the one operand axis is the index word of row `j`, read as a signed integer: the
    start index's only component sits at `[j, 0]` of the scatter indices. -/
theorem binsDims_start {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (a : Fin 1) :
    (binsDims K N wf).start j idx a = (idx (ix2 (j 0) (0 : Fin 1))).toInt := by
  obtain rfl : a = 0 := Subsingleton.elim _ _
  unfold ScatterDims.start
  rw [dif_pos (show (0 : Fin 1) ∈ (binsDims K N wf).scatterDimsToOperandDims from List.mem_singleton.mpr rfl)]
  have hsi : (binsDims K N wf).siIdx j ⟨List.idxOf (0 : Fin 1) (binsDims K N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The one operand axis is an inserted window axis, so every update's window coordinate on it is `0`. -/
theorem binsDims_window {K N : Nat} (wf : ScatterDims.WF ⟨1, ![K]⟩ ⟨2, ![N, 1]⟩ ⟨1, ![N]⟩ [] [0] [0] 1)
    (j : (⟨1, ![N]⟩ : Shape).Idx) (a : Fin 1) : (binsDims K N wf).window j a = 0 := by
  obtain rfl : a = 0 := Subsingleton.elim _ _
  unfold ScatterDims.window
  rw [dif_neg]
  intro h
  have h2 := (List.mem_filter.1 h).2
  simp at h2

/-- Update `j` lands on bin `b` exactly when its index word, read as a signed integer, is `b`: a word that is
    negative or at least `K` names no bin, and the update is dropped. -/
theorem binsDims_resultIdx?_eq_some_iff {K N w : Nat} (wf : ScatterDims.WF ⟨1, ![K]⟩ ⟨2, ![N, 1]⟩ ⟨1, ![N]⟩ [] [0] [0] 1)
    (idx : IVec ⟨2, ![N, 1]⟩ w) (j : (⟨1, ![N]⟩ : Shape).Idx) (b : Fin K) :
    (binsDims K N wf).resultIdx? j idx = some (ix1 b) ↔ (idx (ix2 (j 0) (0 : Fin 1))).toInt = (b.val : Int) := by
  have hb : b.val < K := b.isLt
  unfold ScatterDims.resultIdx?
  split_ifs with h
  · rw [Option.some.injEq]
    constructor
    · intro e
      have e0 := congrArg (fun f => (f 0).val) e
      simp only [binsDims_start, binsDims_window] at e0
      have h0 := h 0
      simp only [binsDims_start, binsDims_window] at h0
      change ((idx (ix2 (j 0) (0 : Fin 1))).toInt + ((0 : Nat) : Int)).toNat = b.val at e0
      omega
    · intro e
      funext a
      obtain rfl : a = 0 := Subsingleton.elim _ _
      refine Fin.ext ?_
      simp only [binsDims_start, binsDims_window]
      change ((idx (ix2 (j 0) (0 : Fin 1))).toInt + ((0 : Nat) : Int)).toNat = b.val
      omega
  · constructor
    · intro e; exact absurd e (by simp)
    · intro e
      exfalso
      apply h
      intro a
      simp only [binsDims_start, binsDims_window]
      obtain rfl : a = 0 := Subsingleton.elim _ _
      change 0 ≤ (idx (ix2 (j 0) (0 : Fin 1))).toInt + ((0 : Nat) : Int) ∧
        (idx (ix2 (j 0) (0 : Fin 1))).toInt + ((0 : Nat) : Int) < (K : Int)
      omega

/-- The indices of a vector of extent `N` are the numbers below `N`. -/
def idx1Equiv (N : Nat) : Fin N ≃ (⟨1, ![N]⟩ : Shape).Idx where
  toFun := fun i => ix1 i
  invFun := fun j => j 0
  left_inv := fun _ => rfl
  right_inv := fun j => (eq_ix1 j).symm

/-- THE BINNED SUM AT BIN `b`: the operand's element plus the sum of the updates whose index word is `b`. -/
theorem scatterAdd_bins_apply {K N w : Nat} (wf : ScatterDims.WF ⟨1, ![K]⟩ ⟨2, ![N, 1]⟩ ⟨1, ![N]⟩ [] [0] [0] 1)
    (x : (⟨1, ![K]⟩ : Shape).Idx → EReal) (idx : IVec ⟨2, ![N, 1]⟩ w) (upd : (⟨1, ![N]⟩ : Shape).Idx → EReal) (b : Fin K) :
    Ideal.hostScatterAdd (binsDims K N wf) x idx upd (ix1 b)
      = x (ix1 b) + ∑ i : Fin N, if (idx (ix2 i (0 : Fin 1))).toInt = (b.val : Int) then upd (ix1 i) else 0 := by
  unfold Ideal.hostScatterAdd
  refine congrArg (x (ix1 b) + ·) ?_
  rw [Finset.sum_filter]
  refine (Fintype.sum_equiv (idx1Equiv N) _ _ fun i => ?_).symm
  exact (if_congr (binsDims_resultIdx?_eq_some_iff wf idx (ix1 i) b) rfl rfl).symm

end Idealize.ShloMosaic.ScatterAddBins

end
-- ==== Proof.LibScatterLast.lean ====
/-
  A scatter whose body returns the update ("set") reads back, at a result index, the LAST update that lands there:
  the host scatter folds the update indices in row-major order, each landing update overwriting the element.
-/
import Idealize.ShloMosaic.PureOps
import Mathlib.Data.List.Sort

namespace Idealize.ShloMosaic

/-- Folding the scatter step over a list none of whose update numbers lands on i leaves the element at i unchanged. -/
private theorem scatter_foldl_apply_of_none {α : Type} {s si u : Shape} {w : Nat} (d : ScatterDims s si u) (f : α → α → α)
    (idx : IVec si w) (upd : u.Idx → α) (i : s.Idx) :
    ∀ (l : List (Fin u.numel)) (r : s.Idx → α), (∀ n ∈ l, d.resultIdx? (u.rowMajor.symm n) idx ≠ some i) →
      (l.foldl (fun r n =>
        match d.resultIdx? (u.rowMajor.symm n) idx with
        | some i => fun i' => if i' = i then f (r i) (upd (u.rowMajor.symm n)) else r i'
        | none => r) r) i = r i := by
  intro l
  induction l with
  | nil => intro r _; rfl
  | cons n t ih =>
    intro r h
    rw [List.foldl_cons, ih _ (fun m hm => h m (List.mem_cons_of_mem _ hm))]
    have hn := h n (List.mem_cons_self ..)
    revert hn
    cases d.resultIdx? (u.rowMajor.symm n) idx with
    | none => intro _; rfl
    | some j =>
      intro hn
      have hij : i ≠ j := fun e => hn (by rw [e])
      simp only [if_neg hij]

/-- If update number n₀ (row-major) lands on result index i and no later update does, a set-scatter leaves that
    update's value at i. -/
theorem Host.scatter_set_apply_of_last {α : Type} {s si u : Shape} {w : Nat} (d : ScatterDims s si u) (x : s.Idx → α)
    (idx : IVec si w) (upd : u.Idx → α) (i : s.Idx) (n₀ : Fin u.numel)
    (h₀ : d.resultIdx? (u.rowMajor.symm n₀) idx = some i)
    (hlast : ∀ n : Fin u.numel, n₀ < n → d.resultIdx? (u.rowMajor.symm n) idx ≠ some i) :
    Host.scatter d (fun _ b => b) x idx upd i = upd (u.rowMajor.symm n₀) := by
  unfold Host.scatter
  -- the row-major list of update numbers is strictly increasing; cut it at n₀
  have hpw : (List.finRange u.numel).Pairwise (· < ·) := (List.sortedLT_finRange _).pairwise
  obtain ⟨a, t, hl⟩ := List.append_of_mem (List.mem_finRange n₀)
  rw [hl] at hpw ⊢
  have ht : ∀ n ∈ t, n₀ < n := (List.pairwise_cons.1 (List.pairwise_append.1 hpw).2.1).1
  rw [List.foldl_append, List.foldl_cons]
  -- every update after n₀ misses i, so the element written at step n₀ survives
  refine (scatter_foldl_apply_of_none d (fun _ b => b) idx upd i t _ (fun n hn => hlast n (ht n hn))).trans ?_
  rw [h₀]
  exact if_pos rfl

/-- If no update lands on result index i, a scatter leaves the operand's element there. -/
theorem Host.scatter_apply_of_none {α : Type} {s si u : Shape} {w : Nat} (d : ScatterDims s si u) (f : α → α → α) (x : s.Idx → α)
    (idx : IVec si w) (upd : u.Idx → α) (i : s.Idx)
    (hnone : ∀ n : Fin u.numel, d.resultIdx? (u.rowMajor.symm n) idx ≠ some i) :
    Host.scatter d f x idx upd i = x i :=
  scatter_foldl_apply_of_none d f idx upd i _ x (fun n _ => hnone n)

end Idealize.ShloMosaic
-- ==== Proof.LibScatterFold.lean ====
/-
  An integer scatter read at a result index.

  The host scatter is the left fold of one step over the update indices in row-major order: an update that lands on a
  result index replaces the element there by the body applied to that element and the update, and an update that lands
  nowhere is dropped. Two readings of that fold at one index i:

  * the body an ADDITION in a commutative monoid (the machine's 32-bit integer addition is one): the element at i is the
    operand's plus the sum of the updates landing on i ('scatter_foldl_add_apply', 'scatter_add_apply'). For N scalar
    updates into K bins, one index word per update, update n lands on bin i exactly when its index word, read signed,
    is i ('scatter_addi_bins_apply'); when every index word is below 2 ^ 31 the signed and the unsigned readings agree
    ('scatter_addi_bins_apply_of_lt'); and with the operand all zeros and the updates all ones the element at i COUNTS
    the updates whose index is i, as long as the count fits the word ('scatter_addi_bins_count').

  * the body "return the update" with a single scalar update at the index word 0: the operand with its element 0
    replaced by the update ('scatter_set_one_apply').
-/
import Idealize.ShloMosaic.PureOps
import Idealize.ShloMosaic.Lib.ValueIdx
import Mathlib.Data.BitVec
import Mathlib.Algebra.BigOperators.Fin
import proofs.«401660_j12979391169440_1_alg».proof.Proof.LibScatterAddBins
import proofs.«401660_j12979391169440_1_alg».proof.Proof.LibScatterLast

namespace Cert.LibScatterFold

open Idealize.ShloMosaic Idealize.ShloMosaic.ValueIdx Idealize.ShloMosaic.ScatterAddBins

/-! ## The accumulating fold -/

/-- Folding the accumulating scatter step over ANY list of update numbers adds, at the result index i, the updates of
    the list that land on i to the element the fold started from (addition in a commutative monoid). -/
theorem scatter_foldl_add_apply {α : Type} [AddCommMonoid α] {s si u : Shape} {w : Nat} (d : ScatterDims s si u)
    (idx : IVec si w) (upd : u.Idx → α) (i : s.Idx) :
    ∀ (l : List (Fin u.numel)) (r : s.Idx → α),
      (l.foldl (fun r n =>
        match d.resultIdx? (u.rowMajor.symm n) idx with
        | some i => fun i' => if i' = i then r i + upd (u.rowMajor.symm n) else r i'
        | none => r) r) i
      = r i + (l.map fun n =>
          if d.resultIdx? (u.rowMajor.symm n) idx = some i then upd (u.rowMajor.symm n) else 0).sum := by
  intro l
  induction l with
  | nil => intro r; simp
  | cons n t ih =>
    intro r
    rw [List.foldl_cons, ih, List.map_cons, List.sum_cons, ← add_assoc]
    congr 1
    cases h : d.resultIdx? (u.rowMajor.symm n) idx with
    | none => simp
    | some j =>
      by_cases hij : i = j
      · subst hij; simp
      · have hji : ¬ (some j = some i) := fun e => hij (Option.some.inj e).symm
        simp [hij, hji]

/-- AN ACCUMULATING SCATTER AT A RESULT INDEX: the operand's element plus the sum of the updates that land there. -/
theorem scatter_add_apply {α : Type} [AddCommMonoid α] {s si u : Shape} {w : Nat} (d : ScatterDims s si u)
    (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (scatter_foldl_add_apply d idx upd i _ x).trans ?_
  rw [← Fin.sum_univ_def]
  congr 1
  exact Equiv.sum_comp u.rowMajor.symm (fun j => if d.resultIdx? j idx = some i then upd j else 0)

/-! ## N scalars added into K bins -/

/-- INTEGER SCATTER-ADD INTO BINS: entry i is the operand's plus the sum of the updates whose index word, read as a
    signed integer, is i; an update whose index is negative or at least K is dropped. -/
theorem scatter_addi_bins_apply {K N : Nat} (wf : ScatterDims.WF ⟨1, ![K]⟩ ⟨2, ![N, 1]⟩ ⟨1, ![N]⟩ [] [0] [0] 1)
    (x : IVec (⟨1, ![K]⟩ : Shape) 32) (idx : IVec (⟨2, ![N, 1]⟩ : Shape) 32) (upd : IVec (⟨1, ![N]⟩ : Shape) 32)
    (i : Fin K) :
    Host.scatter (binsDims K N wf) IntOp.addi x idx upd (ix1 i)
      = x (ix1 i) + ∑ n : Fin N, if (idx (ix2 n 0)).toInt = (i.val : Int) then upd (ix1 n) else 0#32 := by
  change Host.scatter (binsDims K N wf) (fun a b => a + b) x idx upd (ix1 i) = _
  rw [scatter_add_apply (binsDims K N wf) x idx upd (ix1 i)]
  congr 1
  refine (Fintype.sum_equiv (idx1Equiv N) _ _ fun n => ?_).symm
  exact (if_congr (binsDims_resultIdx?_eq_some_iff wf idx (ix1 n) i) rfl rfl).symm

/-- A 32-bit word below 2 ^ 31 reads the same signed and unsigned. -/
theorem toInt_eq_iff_toNat_eq_of_lt (a : BitVec 32) (h : a.toNat < 2 ^ 31) (k : Nat) :
    a.toInt = (k : Int) ↔ a.toNat = k := by
  rw [BitVec.toInt_eq_toNat_cond]
  split_ifs <;> omega

/-- Integer scatter-add into bins when every index word is below 2 ^ 31 (a small natural number): entry i is the
    operand's plus the sum of the updates whose index, read unsigned, is i. -/
theorem scatter_addi_bins_apply_of_lt {K N : Nat} (wf : ScatterDims.WF ⟨1, ![K]⟩ ⟨2, ![N, 1]⟩ ⟨1, ![N]⟩ [] [0] [0] 1)
    (x : IVec (⟨1, ![K]⟩ : Shape) 32) (idx : IVec (⟨2, ![N, 1]⟩ : Shape) 32) (upd : IVec (⟨1, ![N]⟩ : Shape) 32)
    (hidx : ∀ n : Fin N, (idx (ix2 n 0)).toNat < 2 ^ 31) (i : Fin K) :
    Host.scatter (binsDims K N wf) IntOp.addi x idx upd (ix1 i)
      = x (ix1 i) + ∑ n : Fin N, if (idx (ix2 n 0)).toNat = i.val then upd (ix1 n) else 0#32 := by
  rw [scatter_addi_bins_apply]
  congr 1
  refine Finset.sum_congr rfl fun n _ => ?_
  exact if_congr (toInt_eq_iff_toNat_eq_of_lt _ (hidx n) i.val) rfl rfl

/-- COUNTING INTO BINS: ones added into a vector of zeros leave at entry i the number of updates whose index is i, as
    long as the number of updates fits the 32-bit word. -/
theorem scatter_addi_bins_count {K N : Nat} (wf : ScatterDims.WF ⟨1, ![K]⟩ ⟨2, ![N, 1]⟩ ⟨1, ![N]⟩ [] [0] [0] 1)
    (x : IVec (⟨1, ![K]⟩ : Shape) 32) (idx : IVec (⟨2, ![N, 1]⟩ : Shape) 32) (upd : IVec (⟨1, ![N]⟩ : Shape) 32)
    (hx : ∀ k, x k = 0#32) (hu : ∀ n, upd n = 1#32)
    (hidx : ∀ n : Fin N, (idx (ix2 n 0)).toNat < 2 ^ 31) (hN : N < 2 ^ 32) (i : Fin K) :
    (Host.scatter (binsDims K N wf) IntOp.addi x idx upd (ix1 i)).toNat
      = (Finset.univ.filter fun n : Fin N => (idx (ix2 n 0)).toNat = i.val).card := by
  rw [scatter_addi_bins_apply_of_lt wf x idx upd hidx i, hx]
  simp only [hu]
  have hsum : (∑ n : Fin N, if (idx (ix2 n 0)).toNat = i.val then 1#32 else 0#32)
      = (((Finset.univ.filter fun n : Fin N => (idx (ix2 n 0)).toNat = i.val).card : Nat) : BitVec 32) :=
    Finset.sum_boole _ _
  rw [hsum, BitVec.zero_add, BitVec.natCast_eq_ofNat, BitVec.toNat_ofNat]
  refine Nat.mod_eq_of_lt (lt_of_le_of_lt ?_ hN)
  exact (Finset.card_filter_le _ _).trans (by simp)

/-! ## One scalar set at the index 0 -/

/-- The single update of a one-element set whose index word is 0 lands on the operand's element 0. -/
theorem setOne_resultIdx? {K w : Nat}
    (d : ScatterDims (⟨1, ![K]⟩ : Shape) (⟨1, ![1]⟩ : Shape) (⟨0, ![]⟩ : Shape))
    (hd : d.updateWindowDims = [] ∧ d.insertedWindowDims = [0] ∧ d.scatterDimsToOperandDims = [0] ∧ d.indexVectorDim = 0)
    (idx : IVec (⟨1, ![1]⟩ : Shape) w) (hidx : idx (ix1 0) = 0#w) (hK : 0 < K) (j : (⟨0, ![]⟩ : Shape).Idx) :
    d.resultIdx? j idx = some (ix1 ⟨0, hK⟩) := by
  obtain ⟨uw, iw, sd, iv, wf⟩ := d
  obtain ⟨rfl, rfl, rfl, rfl⟩ := hd
  -- the start on the one operand axis is the index word 0, read signed
  have hstart : ∀ a, (ScatterDims.mk (s := ⟨1, ![K]⟩) (si := ⟨1, ![1]⟩) (u := ⟨0, ![]⟩) [] [0] [0] 0 wf).start j idx a = 0 := by
    intro a
    obtain rfl : a = 0 := Subsingleton.elim _ _
    unfold ScatterDims.start
    rw [dif_pos (List.mem_singleton.mpr rfl)]
    have hsi : ∀ k : (⟨1, ![1]⟩ : Shape).Idx, idx k = idx (ix1 0) := fun k =>
      congrArg idx ((eq_ix1 k).trans (congrArg ix1 (Subsingleton.elim (α := Fin 1) _ _)))
    rw [hsi, hidx, BitVec.toInt_zero]
  -- the one operand axis is inserted, so the window coordinate on it is 0
  have hwin : ∀ a, (ScatterDims.mk (s := ⟨1, ![K]⟩) (si := ⟨1, ![1]⟩) (u := ⟨0, ![]⟩) [] [0] [0] 0 wf).window j a = 0 := by
    intro a
    obtain rfl : a = 0 := Subsingleton.elim _ _
    unfold ScatterDims.window
    rw [dif_neg]
    intro h
    have h2 := (List.mem_filter.1 h).2
    simp at h2
  unfold ScatterDims.resultIdx?
  simp only [hstart, hwin]
  rw [dif_pos (fun _ => ⟨by simp, by simpa using hK⟩)]
  refine congrArg some ?_
  funext a
  obtain rfl : a = 0 := Subsingleton.elim _ _
  exact Fin.ext (by simp)

/-- A ONE-ELEMENT SET at the index word 0: the operand with its element 0 replaced by the update. -/
theorem scatter_set_one_apply {K : Nat}
    (d : ScatterDims (⟨1, ![K]⟩ : Shape) (⟨1, ![1]⟩ : Shape) (⟨0, ![]⟩ : Shape))
    (hd : d.updateWindowDims = [] ∧ d.insertedWindowDims = [0] ∧ d.scatterDimsToOperandDims = [0] ∧ d.indexVectorDim = 0)
    (x : IVec (⟨1, ![K]⟩ : Shape) 32) (idx : IVec (⟨1, ![1]⟩ : Shape) 32) (u : IVec (⟨0, ![]⟩ : Shape) 32)
    (hidx : idx (ix1 0) = 0#32) (hK : 0 < K) (i : Fin K) :
    Host.scatter d (fun _ b => b) x idx u (ix1 i) = if i.val = 0 then u (fun a => a.elim0) else x (ix1 i) := by
  have hres := setOne_resultIdx? d hd idx hidx hK
  split_ifs with hi
  · -- the only update lands on element 0 and nothing follows it
    have hi0 : i = ⟨0, hK⟩ := Fin.ext hi
    subst hi0
    let n₀ : Fin (⟨0, ![]⟩ : Shape).numel := (⟨0, ![]⟩ : Shape).rowMajor ix0
    have hsub : ∀ n : Fin (⟨0, ![]⟩ : Shape).numel, n = n₀ := fun n =>
      (⟨0, ![]⟩ : Shape).rowMajor.symm.injective ((eq_ix0 _).trans (eq_ix0 _).symm)
    rw [Host.scatter_set_apply_of_last d x idx u (ix1 ⟨0, hK⟩) n₀ (hres _)
      (fun n hn => absurd (hsub n) (ne_of_gt hn))]
    exact congrArg u (eq_ix0 _)
  · -- the only update lands on element 0, not on i
    refine Host.scatter_apply_of_none d _ x idx u (ix1 i) fun n => ?_
    rw [hres]
    intro e
    exact hi (congrArg (fun f : (⟨1, ![K]⟩ : Shape).Idx => (f 0).val) (Option.some.inj e)).symm

end Cert.LibScatterFold
-- ==== Proof.LibCumsumWindow.lean ====
/-
  The inclusive prefix sum written as a windowed reduction.

  An integer cumulative sum over a vector of length n is printed as a `stablehlo.reduce_window` whose body is
  an addition, with window n, stride 1, low padding n − 1 and high padding 0, from the initial value 0. Result
  element j folds the n window positions w = 0 … n − 1; position w reads the padded operand at j + w, which is
  the operand element j + w − (n − 1) when n − 1 ≤ j + w and the initial value 0 otherwise. As w runs over
  n − 1 − j … n − 1 the operand element runs over 0 … j, so the fold is x 0 + … + x j: the inclusive prefix sum,
  in the wrapping arithmetic of 32-bit words, and in the naturals when the sum of the words' values stays below
  2 ^ 32.
-/
import Idealize.ShloMosaic.PureOps
import Idealize.ShloMosaic.Lib.ValueIdx
import Mathlib.Algebra.BigOperators.Fin
import Mathlib.Data.BitVec

namespace Cert.LibCumsumWindow
open Idealize.ShloMosaic Idealize.ShloMosaic.ValueIdx

/-- A left fold that adds `g m` for each `m` of a list, from `a`, is `a` plus the sum of the `g m`
    (commutative additive monoid). -/
theorem foldl_add_eq {M ι : Type} [AddCommMonoid M] (g : ι → M) (l : List ι) (a : M) :
    l.foldl (fun r m => r + g m) a = a + (l.map g).sum := by
  induction l generalizing a with
  | nil => simp
  | cons m t ih => simp [List.foldl_cons, ih, add_assoc]

/-- The window sum re-indexed: for `j ≤ p`, summing `X (j + w − p)` over the `w < p + 1` with `p ≤ j + w`
    is summing `X k` over the `k ≤ j` (the bijection `w ↦ j + w − p`, inverse `k ↦ k + p − j`). -/
theorem sum_shift {M : Type} [AddCommMonoid M] (X : Nat → M) (p j : Nat) (hj : j ≤ p) :
    ∑ w ∈ Finset.range (p + 1), (if p ≤ j + w then X (j + w - p) else 0)
      = ∑ k ∈ Finset.range (p + 1), if k ≤ j then X k else 0 := by
  rw [← Finset.sum_filter, ← Finset.sum_filter]
  apply Finset.sum_nbij' (fun w => j + w - p) (fun k => k + p - j)
  · intro w hw; simp at hw ⊢; omega
  · intro k hk; simp at hk ⊢; omega
  · intro w hw; simp at hw; omega
  · intro k hk; simp at hk; omega
  · intro w hw; rfl

/-- The value of a finite sum of `w`-bit words is the sum of their values modulo `2 ^ w`. -/
theorem toNat_sum {w : Nat} {ι : Type} (s : Finset ι) (f : ι → BitVec w) :
    (∑ k ∈ s, f k).toNat = (∑ k ∈ s, (f k).toNat) % 2 ^ w := by
  classical
  induction s using Finset.induction_on with
  | empty => simp
  | insert a s ha ih => rw [Finset.sum_insert ha, Finset.sum_insert ha, BitVec.toNat_add, ih, Nat.add_mod_mod]

/-- **The cumulative-sum window is the inclusive prefix sum.** Over a vector `x` of `n = p + 1` 32-bit words,
    the `reduce_window` with an addition body, window `n`, stride `1`, padding `(p, 0)` and initial value `0`
    has at `j` the sum of the `x k` with `k ≤ j` (wrapping 32-bit addition). -/
theorem reduceWindow_cumsum {n p : Nat} (hp : p + 1 = n) (x : IVec (⟨1, ![n]⟩ : Shape) 32)
    (v : IVec (⟨0, ![]⟩ : Shape) 32) (hv : ∀ i, v i = 0#32)
    (h : (⟨1, ![n]⟩ : Shape).ReduceWindows (![n] : Fin 1 → Nat) ![1] ![p] ![0] ⟨1, ![n]⟩)
    (hu : 0 < (⟨0, ![]⟩ : Shape).numel) (j : Fin n) :
    Host.reduceWindow IntOp.addi ![n] ![1] ![p] ![0] x v h hu (ix1 j)
      = ∑ k : Fin n, if k.val ≤ j.val then x (ix1 k) else 0#32 := by
  unfold Host.reduceWindow
  simp only [IntOp.addi, hv]
  -- the fold of the window positions is a sum over them
  rw [foldl_add_eq, ← Fin.sum_univ_def, BitVec.zero_add]
  -- the operand read at a natural position, 0 outside it
  let X : Nat → BitVec 32 := fun k => if hk : k < n then x (ix1 ⟨k, hk⟩) else 0#32
  -- a row-major window position of the rank-one window is its one coordinate
  let e : Fin (⟨1, ![n]⟩ : Shape).numel ≃ Fin n :=
    (⟨1, ![n]⟩ : Shape).rowMajor.symm.trans ⟨fun i => i 0, ix1, fun i => (eq_ix1 i).symm, fun _ => rfl⟩
  refine (Fintype.sum_equiv e _ (fun w : Fin n => if p ≤ j.val + w.val then X (j.val + w.val - p) else 0#32) ?_).trans ?_
  · -- window position w reads operand element j + w − p when p ≤ j + w, the initial value otherwise
    intro m
    show _ = if p ≤ j.val + ((⟨1, ![n]⟩ : Shape).rowMajor.symm m 0).val
      then X (j.val + ((⟨1, ![n]⟩ : Shape).rowMajor.symm m 0).val - p) else 0#32
    have hi : ((⟨1, ![n]⟩ : Shape).rowMajor.symm m 0).val < n := ((⟨1, ![n]⟩ : Shape).rowMajor.symm m 0).isLt
    have hj := j.isLt
    by_cases hw : p ≤ j.val + ((⟨1, ![n]⟩ : Shape).rowMajor.symm m 0).val
    · have hk : j.val + ((⟨1, ![n]⟩ : Shape).rowMajor.symm m 0).val - p < n := by omega
      rw [if_pos hw, dif_pos (by intro a; match a with | ⟨0, _⟩ => exact ⟨by simpa using hw, by simpa using hk⟩)]
      simp only [X, dif_pos hk]
      congr 1; funext a; match a with | ⟨0, _⟩ => exact Fin.ext (by simp)
    · rw [if_neg hw, dif_neg]
      intro hin
      have h0 := (hin 0).1
      simp at h0
      exact hw h0
  · -- both sides as sums over the naturals below n, then the re-indexing
    have hX : ∀ k : Fin n, (if k.val ≤ j.val then x (ix1 k) else 0#32) = if k.val ≤ j.val then X k.val else 0#32 := by
      intro k; simp only [X, dif_pos k.isLt]
    simp only [hX]
    rw [Fin.sum_univ_eq_sum_range (fun w => if p ≤ j.val + w then X (j.val + w - p) else 0#32) n,
      Fin.sum_univ_eq_sum_range (fun k => if k ≤ j.val then X k else 0#32) n]
    have hj := j.isLt
    have hs := sum_shift X p j.val (by omega)
    rw [hp] at hs
    exact hs

/-- The cumulative-sum window in values, modulo `2 ^ 32`. -/
theorem reduceWindow_cumsum_toNat_mod {n p : Nat} (hp : p + 1 = n) (x : IVec (⟨1, ![n]⟩ : Shape) 32)
    (v : IVec (⟨0, ![]⟩ : Shape) 32) (hv : ∀ i, v i = 0#32)
    (h : (⟨1, ![n]⟩ : Shape).ReduceWindows (![n] : Fin 1 → Nat) ![1] ![p] ![0] ⟨1, ![n]⟩)
    (hu : 0 < (⟨0, ![]⟩ : Shape).numel) (j : Fin n) :
    (Host.reduceWindow IntOp.addi ![n] ![1] ![p] ![0] x v h hu (ix1 j)).toNat
      = (∑ k : Fin n, if k.val ≤ j.val then (x (ix1 k)).toNat else 0) % 2 ^ 32 := by
  rw [reduceWindow_cumsum hp x v hv h hu j, toNat_sum]
  congr 2
  funext k
  split <;> simp

/-- **The cumulative-sum window in the naturals.** When the values of the `x k` with `k ≤ j` sum to less than
    `2 ^ 32`, the value of the window's result at `j` is that sum: no addition wraps. -/
theorem reduceWindow_cumsum_toNat {n p : Nat} (hp : p + 1 = n) (x : IVec (⟨1, ![n]⟩ : Shape) 32)
    (v : IVec (⟨0, ![]⟩ : Shape) 32) (hv : ∀ i, v i = 0#32)
    (h : (⟨1, ![n]⟩ : Shape).ReduceWindows (![n] : Fin 1 → Nat) ![1] ![p] ![0] ⟨1, ![n]⟩)
    (hu : 0 < (⟨0, ![]⟩ : Shape).numel) (j : Fin n)
    (hsmall : (∑ k : Fin n, if k.val ≤ j.val then (x (ix1 k)).toNat else 0) < 2 ^ 32) :
    (Host.reduceWindow IntOp.addi ![n] ![1] ![p] ![0] x v h hu (ix1 j)).toNat
      = ∑ k : Fin n, if k.val ≤ j.val then (x (ix1 k)).toNat else 0 := by
  rw [reduceWindow_cumsum_toNat_mod hp x v hv h hu j, Nat.mod_eq_of_lt hsmall]

end Cert.LibCumsumWindow
-- ==== Proof.RefLabel.lean ====
/-
  The reference's label of every row, read off its integer pipeline.

  Write p m for entry m of the group pointer as a natural number; the pointer starts at 0, never decreases and ends at
  the number of rows, so every p m is at most 2,000,000 and no 32-bit subtraction or sum below wraps. The differences
  p (m+1) - p m, rotated right by one with entry 0 replaced by 0, have the inclusive running sum p m (a telescoping
  sum): the start of group m. A start is never negative, so the starts are used as they are; adding a one at every
  start into an array of zeros leaves at row r the number of groups starting at r, and the inclusive running sum of
  those counts is the number of groups starting at or before r. Group 0 starts at row 0, so that number is at least 1
  and at most 20,000; one less lies in the table of group numbers, where the table holds its own position, and the
  range test answers true. The label of row r is therefore the number of groups starting at or before r, less one.
-/
import proofs.«401660_j12979391169440_1_alg».proof.Proof.RefTerm
import proofs.«401660_j12979391169440_1_alg».proof.Proof.Spec
import proofs.«401660_j12979391169440_1_alg».proof.Proof.LibAllOnes
import proofs.«401660_j12979391169440_1_alg».proof.Proof.LibScatterFold
import proofs.«401660_j12979391169440_1_alg».proof.Proof.LibCumsumWindow
import Idealize.ShloMosaic.Lib.StableHlo.Predicate
import Idealize.ShloMosaic.Lib.Pipeline.Value
import Idealize.ShloMosaic.Lib.ValueIdx
import Mathlib.Algebra.BigOperators.Fin
import Mathlib.Algebra.BigOperators.Intervals
import Mathlib.Order.Monotone.Basic

noncomputable section

namespace Cert.ReferenceIdeal.RefValue

open Idealize.ShloMosaic Idealize.ShloMosaic.ValueIdx Cert.ReferenceIdeal
open Facts₀ Facts

/-! ## Reads at an index -/

/-- The rank-1 index at a coordinate, in its two spellings. -/
theorem ofFin_eq_ix1 {n : Nat} (p : Fin n) : Shape.Idx.ofFin p = ix1 p := by
  funext a; match a with | ⟨0, _⟩ => rfl

/-- Row p of a one-column table, in its two spellings. -/
theorem ixP_eq_ix2 {n : Nat} (p : Fin n) : StableHlo.Predicate.ixP p = ix2 p (0 : Fin 1) := by
  funext a; match a with | ⟨0, _⟩ => rfl | ⟨1, _⟩ => rfl

/-- A slice of a vector at offset o reads the vector at o + m. -/
theorem slice1_apply {α : Type} {N n : Nat} (o : Nat) (x : (⟨1, ![N]⟩ : Shape).Idx → α)
    (h : (⟨1, ![N]⟩ : Shape).Slices ![o] ⟨1, ![n]⟩) (m : Fin n) (hb : o + m.val < N) :
    extractStridedSlice ⟨1, ![n]⟩ ![o] x h (ix1 m) = x (ix1 ⟨o + m.val, hb⟩) := by
  unfold extractStridedSlice
  congr 1
  funext a
  match a with | ⟨0, _⟩ => rfl

/-! ## The pointer as a function of a natural number -/

/-- Entry k of the pointer, continued by the number of rows past the end. -/
def pN (a8 : IVec S20001 32) (k : ℕ) : ℕ := if h : k < 20001 then Cert.Seg.pnat a8 ⟨k, h⟩ else 2000000

theorem pnat_eq_pN (a8 : IVec S20001 32) (m : Fin 20001) : Cert.Seg.pnat a8 m = pN a8 m.val := by
  unfold pN; rw [dif_pos m.isLt]

theorem pN_zero (a8 : IVec S20001 32) (hc : Cert.Seg.Csr a8) : pN a8 0 = 0 := by
  have := hc.first; rw [pnat_eq_pN] at this; exact this

theorem pN_last (a8 : IVec S20001 32) (hc : Cert.Seg.Csr a8) : pN a8 20000 = 2000000 := by
  have := hc.last; rw [pnat_eq_pN] at this; exact this

theorem pN_le_succ (a8 : IVec S20001 32) (hc : Cert.Seg.Csr a8) (k : ℕ) : pN a8 k ≤ pN a8 (k + 1) := by
  by_cases hk : k < 20000
  · have := hc.mono ⟨k, hk⟩
    rw [pnat_eq_pN, pnat_eq_pN] at this
    exact this
  · by_cases hk' : k = 20000
    · subst hk'; rw [pN_last a8 hc]; unfold pN; rw [dif_neg (by omega)]
    · unfold pN; rw [dif_neg (by omega), dif_neg (by omega)]

theorem pN_mono (a8 : IVec S20001 32) (hc : Cert.Seg.Csr a8) : Monotone (pN a8) :=
  monotone_nat_of_le_succ (pN_le_succ a8 hc)

theorem pN_le (a8 : IVec S20001 32) (hc : Cert.Seg.Csr a8) (k : ℕ) : pN a8 k ≤ 2000000 := by
  by_cases hk : k ≤ 20000
  · rw [← pN_last a8 hc]; exact pN_mono a8 hc hk
  · unfold pN; rw [dif_neg (by omega)]

/-- The pointer's word at k has the value pN k. -/
theorem toNat_ptr (a8 : IVec S20001 32) (k : ℕ) (hk : k < 20001) : (a8 (ix1 ⟨k, hk⟩)).toNat = pN a8 k := by
  unfold pN; rw [dif_pos hk]; rfl

/-! ## The starts of the groups -/

/-- The group lengths: differences of consecutive pointer entries. -/
def lens (a8 : IVec S20001 32) : IVec S20000 32 :=
  subi (extractStridedSlice S20000 ![1] a8 slices_S20001_S20000_1) (extractStridedSlice S20000 ![0] a8 slices_S20001_S20000_0)

/-- The lengths rotated right by one. -/
def rolled (a8 : IVec S20001 32) : IVec S20000 32 :=
  concatenate S20000 0 [⟨S1, extractStridedSlice S1 ![19999] (lens a8) slices_S20000_S1_19999⟩,
    ⟨S19999, extractStridedSlice S19999 ![0] (lens a8) slices_S20000_S19999_0⟩] concatenates_S1_S19999_S20000_d0

/-- The rotated lengths with entry 0 replaced by 0. -/
def shifted (a8 : IVec S20001 32) : IVec S20000 32 :=
  Host.scatter scatter_S20000_S1_S__n_0_0_0 (fun _ b => b) (rolled a8)
    (broadcastInDim S1 ![] bcast_S_S1 (constantI S_ 32 0#32)) (constantI S_ 32 0#32)

theorem startsTerm_eq (a8 : IVec S20001 32) :
    startsTerm a8 = Host.reduceWindow IntOp.addi ![20000] ![1] ![19999] ![0] (shifted a8)
      (broadcastInDim S_ ![] bcast_S_S_ (constantI S_ 32 0#32)) reduceWindows_S20000_S20000_w20000s1p19999_0 h_S_ := rfl

/-- Length m is p (m+1) - p m, as a natural number: the subtraction does not wrap. -/
theorem lens_toNat (a8 : IVec S20001 32) (hc : Cert.Seg.Csr a8) (m : Fin 20000) :
    (lens a8 (ix1 m)).toNat = pN a8 (m.val + 1) - pN a8 m.val := by
  have h1 : lens a8 (ix1 m) = a8 (ix1 ⟨1 + m.val, by omega⟩) - a8 (ix1 ⟨0 + m.val, by omega⟩) := by
    show IntOp.subi _ _ = _
    rw [slice1_apply 1 a8 _ m (by omega), slice1_apply 0 a8 _ m (by omega)]
    rfl
  rw [h1, BitVec.toNat_sub, toNat_ptr, toNat_ptr]
  have hle := pN_le_succ a8 hc m.val
  have hb := pN_le a8 hc (m.val + 1)
  have e1 : 1 + m.val = m.val + 1 := by omega
  have e0 : 0 + m.val = m.val := by omega
  rw [e1, e0]
  omega

/-- Entry k of the shifted lengths: 0 at k = 0, and length k - 1 after it. -/
theorem shifted_apply (a8 : IVec S20001 32) (k : Fin 20000) :
    shifted a8 (ix1 k) = if h : k.val = 0 then 0#32 else lens a8 (ix1 ⟨k.val - 1, by omega⟩) := by
  unfold shifted
  rw [Cert.LibScatterFold.scatter_set_one_apply scatter_S20000_S1_S__n_0_0_0 ⟨rfl, rfl, rfl, rfl⟩ (rolled a8) _ _ rfl
    (by omega) k]
  by_cases hk : k.val = 0
  · rw [if_pos hk, dif_pos hk]; rfl
  · rw [if_neg hk, dif_neg hk]
    unfold rolled
    rw [concatenate_pair_apply_right (0 : Fin S20000.rank) _ _ concatenates_S1_S19999_S20000_d0 (ix1 k) rfl rfl
      (ix1 ⟨k.val - 1, by omega⟩ : S19999.Idx)
      (fun b hb => absurd (Subsingleton.elim (α := Fin 1) _ _) hb)
      (by show k.val - 1 + 1 = k.val; omega)]
    rw [slice1_apply 0 (lens a8) _ ⟨k.val - 1, by omega⟩ (by show 0 + (k.val - 1) < 20000; omega)]
    congr 2
    exact Fin.ext (by show 0 + (k.val - 1) = k.val - 1; omega)

/-- The value of entry k of the shifted lengths, for k as a natural number. -/
def gN (a8 : IVec S20001 32) (k : ℕ) : ℕ := if k = 0 then 0 else pN a8 k - pN a8 (k - 1)

theorem shifted_toNat (a8 : IVec S20001 32) (hc : Cert.Seg.Csr a8) (k : Fin 20000) :
    (shifted a8 (ix1 k)).toNat = gN a8 k.val := by
  rw [shifted_apply]
  unfold gN
  by_cases hk : k.val = 0
  · rw [dif_pos hk, if_pos hk]; rfl
  · rw [dif_neg hk, if_neg hk, lens_toNat a8 hc]
    have : k.val - 1 + 1 = k.val := by omega
    show pN a8 (k.val - 1 + 1) - pN a8 (k.val - 1) = _
    rw [this]

/-- A sum over the positions at most j of a range of naturals. -/
theorem sum_fin_le (n : ℕ) (f : ℕ → ℕ) (j : ℕ) (hj : j < n) :
    (∑ k : Fin n, if k.val ≤ j then f k.val else 0) = ∑ k ∈ Finset.range (j + 1), f k := by
  rw [Fin.sum_univ_eq_sum_range (fun k => if k ≤ j then f k else 0) n, ← Finset.sum_filter]
  congr 1
  ext k
  simp only [Finset.mem_filter, Finset.mem_range]
  omega

/-- The telescoping sum: the shifted lengths up to j add up to p j. -/
theorem sum_gN (a8 : IVec S20001 32) (hc : Cert.Seg.Csr a8) (j : ℕ) :
    ∑ k ∈ Finset.range (j + 1), gN a8 k = pN a8 j := by
  induction j with
  | zero => simp [gN, pN_zero a8 hc]
  | succ j ih =>
    rw [Finset.sum_range_succ, ih]
    unfold gN
    rw [if_neg (by omega)]
    have := pN_le_succ a8 hc j
    show pN a8 j + (pN a8 (j + 1) - pN a8 j) = pN a8 (j + 1)
    omega

/-- THE STARTS: entry m of the running sum is p m. -/
theorem startsTerm_toNat (a8 : IVec S20001 32) (hc : Cert.Seg.Csr a8) (m : Fin 20000) :
    (startsTerm a8 (ix1 m)).toNat = pN a8 m.val := by
  have hsum : (∑ k : Fin 20000, if k.val ≤ m.val then (shifted a8 (ix1 k)).toNat else 0) = pN a8 m.val := by
    simp only [shifted_toNat a8 hc]
    rw [sum_fin_le 20000 (gN a8) m.val m.isLt, sum_gN a8 hc]
  rw [startsTerm_eq]
  exact (Cert.LibCumsumWindow.reduceWindow_cumsum_toNat (n := 20000) (p := 19999) rfl (shifted a8)
    (broadcastInDim S_ ![] bcast_S_S_ (constantI S_ 32 0#32)) (fun _ => rfl)
    reduceWindows_S20000_S20000_w20000s1p19999_0 h_S_ m
    (by rw [hsum]; have := pN_le a8 hc m.val; omega)).trans hsum

/-! ## The marks: how many groups start at each row -/

/-- The starts as a one-column table of indices (a negative start would be counted from the end; none is). -/
def startIdx (a8 : IVec S20001 32) : IVec S20000x1 32 :=
  broadcastInDim S20000x1 ![0] bcast_S20000_S20000x1_0
    (select (cmpi .slt (startsTerm a8) (broadcastInDim S20000 ![] bcast_S_S20000 (constantI S_ 32 0#32)))
      (addi (startsTerm a8) (broadcastInDim S20000 ![] bcast_S_S20000 (constantI S_ 32 2000000#32))) (startsTerm a8))

theorem marksTerm_eq (a8 : IVec S20001 32) :
    marksTerm a8 = Host.scatter scatter_S2000000_S20000x1_S20000_n_0_0_1 IntOp.addi
      (broadcastInDim S2000000 ![] bcast_S_S2000000 (constantI S_ 32 0#32)) (startIdx a8)
      (broadcastInDim S20000 ![] bcast_S_S20000 (constantI S_ 32 1#32)) := rfl

/-- A start is below 2³¹, so it is used as it is. -/
theorem startIdx_apply (a8 : IVec S20001 32) (hc : Cert.Seg.Csr a8) (m : Fin 20000) :
    startIdx a8 (ix2 m (0 : Fin 1)) = startsTerm a8 (ix1 m) := by
  unfold startIdx
  rw [← ixP_eq_ix2, StableHlo.Predicate.bcast_col1, ofFin_eq_ix1]
  show Scalar.select (IntOp.cmpi .slt (startsTerm a8 (ix1 m)) 0#32) _ _ = _
  rw [Cert.LibAllOnes.slt_zero _ (by rw [startsTerm_toNat a8 hc]; have := pN_le a8 hc m.val; omega), select_zero]

/-- THE MARKS: entry r is the number of groups whose start is r. -/
theorem marksTerm_toNat (a8 : IVec S20001 32) (hc : Cert.Seg.Csr a8) (r : Fin 2000000) :
    (marksTerm a8 (ix1 r)).toNat = (Finset.univ.filter fun m : Fin 20000 => pN a8 m.val = r.val).card := by
  rw [marksTerm_eq]
  have h := Cert.LibScatterFold.scatter_addi_bins_count (K := 2000000) (N := 20000)
    scatter_S2000000_S20000x1_S20000_n_0_0_1_wf
    (broadcastInDim S2000000 ![] bcast_S_S2000000 (constantI S_ 32 0#32)) (startIdx a8)
    (broadcastInDim S20000 ![] bcast_S_S20000 (constantI S_ 32 1#32)) (fun _ => rfl) (fun _ => rfl)
    (fun n => by rw [startIdx_apply a8 hc, startsTerm_toNat a8 hc]; have := pN_le a8 hc n.val; omega)
    (by norm_num) r
  refine h.trans ?_
  simp only [startIdx_apply a8 hc, startsTerm_toNat a8 hc]

/-! ## The running count: how many groups start at or before each row -/

/-- The number of groups starting at or before row r. -/
def cnt (a8 : IVec S20001 32) (r : ℕ) : ℕ := (Finset.univ.filter fun m : Fin 20000 => pN a8 m.val ≤ r).card

theorem cnt_le (a8 : IVec S20001 32) (r : ℕ) : cnt a8 r ≤ 20000 :=
  (Finset.card_filter_le _ _).trans (by simp)

/-- Group 0 starts at row 0. -/
theorem cnt_pos (a8 : IVec S20001 32) (hc : Cert.Seg.Csr a8) (r : ℕ) : 1 ≤ cnt a8 r :=
  Finset.card_pos.2 ⟨(⟨0, by omega⟩ : Fin 20000), Finset.mem_filter.2 ⟨Finset.mem_univ _, by
    show pN a8 0 ≤ r; rw [pN_zero a8 hc]; omega⟩⟩

/-- The groups starting at or before r, counted by their starting row. -/
theorem sum_marks (a8 : IVec S20001 32) (r : Fin 2000000) :
    (∑ r' : Fin 2000000, if r'.val ≤ r.val then
        (Finset.univ.filter fun m : Fin 20000 => pN a8 m.val = r'.val).card else 0) = cnt a8 r.val := by
  unfold cnt
  simp only [Finset.card_filter]
  have hin : ∀ r' : Fin 2000000,
      (if r'.val ≤ r.val then ∑ m : Fin 20000, (if pN a8 m.val = r'.val then 1 else 0) else 0)
        = ∑ m : Fin 20000, if r'.val ≤ r.val ∧ pN a8 m.val = r'.val then 1 else 0 := by
    intro r'
    by_cases h : r'.val ≤ r.val
    · rw [if_pos h]; exact Finset.sum_congr rfl fun m _ => by simp [h]
    · rw [if_neg h]; exact (Finset.sum_eq_zero fun m _ => by simp [h]).symm
  rw [Finset.sum_congr rfl fun r' _ => hin r', Finset.sum_comm]
  refine Finset.sum_congr rfl fun m _ => ?_
  by_cases hm : pN a8 m.val ≤ r.val
  · rw [if_pos hm, Finset.sum_eq_single (⟨pN a8 m.val, by have := r.isLt; omega⟩ : Fin 2000000)]
    · rw [if_pos ⟨hm, rfl⟩]
    · intro b _ hb
      rw [if_neg]
      rintro ⟨_, h⟩
      exact hb (Fin.ext h.symm)
    · intro h; exact absurd (Finset.mem_univ _) h
  · rw [if_neg hm]
    refine Finset.sum_eq_zero fun r' _ => ?_
    rw [if_neg]
    rintro ⟨h1, h2⟩
    omega

/-- The running sum of the marks. -/
def cum (a8 : IVec S20001 32) : IVec S2000000 32 :=
  Host.reduceWindow IntOp.addi ![2000000] ![1] ![1999999] ![0] (marksTerm a8)
    (broadcastInDim S_ ![] bcast_S_S_ (constantI S_ 32 0#32)) reduceWindows_S2000000_S2000000_w2000000s1p1999999_0 h_S_

/-- THE RUNNING COUNT: entry r is the number of groups starting at or before r. -/
theorem cum_toNat (a8 : IVec S20001 32) (hc : Cert.Seg.Csr a8) (r : Fin 2000000) :
    (cum a8 (ix1 r)).toNat = cnt a8 r.val := by
  have hsum : (∑ k : Fin 2000000, if k.val ≤ r.val then (marksTerm a8 (ix1 k)).toNat else 0) = cnt a8 r.val := by
    simp only [marksTerm_toNat a8 hc]
    exact sum_marks a8 r
  unfold cum
  exact (Cert.LibCumsumWindow.reduceWindow_cumsum_toNat (n := 2000000) (p := 1999999) rfl (marksTerm a8)
    (broadcastInDim S_ ![] bcast_S_S_ (constantI S_ 32 0#32)) (fun _ => rfl)
    reduceWindows_S2000000_S2000000_w2000000s1p1999999_0 h_S_ r
    (by rw [hsum]; have := cnt_le a8 r.val; omega)).trans hsum

/-! ## The label -/

/-- The running count less one. -/
def lessOne (a8 : IVec S20001 32) : IVec S2000000 32 :=
  subi (cum a8) (broadcastInDim S2000000 ![] bcast_S_S2000000 (constantI S_ 32 1#32))

/-- The position read in the table of group numbers (a negative one would be counted from the end; none is). -/
def pos (a8 : IVec S20001 32) : IVec S2000000x1 32 :=
  broadcastInDim S2000000x1 ![0] bcast_S2000000_S2000000x1_0
    (select (cmpi .slt (lessOne a8) (broadcastInDim S2000000 ![] bcast_S_S2000000 (constantI S_ 32 0#32)))
      (addi (lessOne a8) (broadcastInDim S2000000 ![] bcast_S_S2000000 (constantI S_ 32 20000#32))) (lessOne a8))

/-- The range test: the position is in the table. -/
def inTable (a8 : IVec S20001 32) : IVec S2000000x1 1 :=
  andi (cmpi .sge (pos a8) (broadcastInDim S2000000x1 ![] bcast_S_S2000000x1 (constantI S_ 32 0#32)))
    (cmpi .sle (pos a8) (broadcastInDim S2000000x1 ![0, 1] bcast_S1x1_S2000000x1_0_1
      (broadcastInDim S1x1 ![1] bcast_S1_S1x1_1 (constantI S1 32 19999#32))))

theorem labelTerm_eq (a8 : IVec S20001 32) :
    labelTerm a8 = select (Host.reduce IntOp.andi (inTable a8) (constantI S_ 1 1#1) reducesTo_S2000000x1_S2000000_d1 h_S_)
      (Host.gather gather_S20000_S2000000x1_S2000000_n_0_n_n_0_1_1 (iotaInDim S20000 32 0) (pos a8))
      (broadcastInDim S2000000 ![] bcast_S_S2000000 (constantI S_ 32 2147483648#32)) := rfl

/-- The count is at least one, so one less does not wrap. -/
theorem lessOne_toNat (a8 : IVec S20001 32) (hc : Cert.Seg.Csr a8) (r : Fin 2000000) :
    (lessOne a8 (ix1 r)).toNat = cnt a8 r.val - 1 := by
  have h1 : lessOne a8 (ix1 r) = cum a8 (ix1 r) - 1#32 := rfl
  rw [h1, BitVec.toNat_sub, cum_toNat a8 hc]
  have hp := cnt_pos a8 hc r.val
  have hl := cnt_le a8 r.val
  have : (1#32 : BitVec 32).toNat = 1 := rfl
  rw [this]
  omega

/-- The position of row r is the count less one, used as it is. -/
theorem pos_apply (a8 : IVec S20001 32) (hc : Cert.Seg.Csr a8) (r : Fin 2000000) :
    pos a8 (ix2 r (0 : Fin 1)) = lessOne a8 (ix1 r) := by
  unfold pos
  rw [← ixP_eq_ix2, StableHlo.Predicate.bcast_col1, ofFin_eq_ix1]
  show Scalar.select (IntOp.cmpi .slt (lessOne a8 (ix1 r)) 0#32) _ _ = _
  rw [Cert.LibAllOnes.slt_zero _ (by rw [lessOne_toNat a8 hc]; have := cnt_le a8 r.val; omega), select_zero]

/-- The position of every row is in the table. -/
theorem inTable_row (a8 : IVec S20001 32) (hc : Cert.Seg.Csr a8) (p : Fin 2000000) :
    inTable a8 (ix2 p (0 : Fin 1)) = 1#1 := by
  show IntOp.andi (IntOp.cmpi .sge (pos a8 (ix2 p (0 : Fin 1))) 0#32)
    (IntOp.cmpi .sle (pos a8 (ix2 p (0 : Fin 1))) (BitVec.ofNat 32 19999)) = 1#1
  have hv := lessOne_toNat a8 hc p
  have hl := cnt_le a8 p.val
  rw [pos_apply a8 hc, Cert.LibAllOnes.sge_zero _ (by omega), Cert.LibAllOnes.sle_ofNat _ 19999 (by norm_num) (by omega)]
  rfl

/-- Every position is in the table. -/
theorem inTable_apply (a8 : IVec S20001 32) (hc : Cert.Seg.Csr a8) (i : S2000000x1.Idx) : inTable a8 i = 1#1 := by
  obtain ⟨p, q, rfl⟩ : ∃ (p : Fin 2000000) (q : Fin 1), i = ix2 p q := ⟨i 0, i 1, eq_ix2 i⟩
  obtain rfl : q = 0 := Subsingleton.elim _ _
  exact inTable_row a8 hc p

/-- THE LABEL as a word: the count less one. -/
theorem labelTerm_eq_lessOne (a8 : IVec S20001 32) (hc : Cert.Seg.Csr a8) (r : Fin 2000000) :
    labelTerm a8 (ix1 r) = lessOne a8 (ix1 r) := by
  rw [labelTerm_eq]
  show Scalar.select (Host.reduce IntOp.andi (inTable a8) (constantI S_ 1 1#1) reducesTo_S2000000x1_S2000000_d1 h_S_ (ix1 r))
    (Host.gather gather_S20000_S2000000x1_S2000000_n_0_n_n_0_1_1 (iotaInDim S20000 32 0) (pos a8) (ix1 r)) _ = _
  have hv := lessOne_toNat a8 hc r
  have hl := cnt_le a8 r.val
  have hlt : (lessOne a8 (ix1 r)).toNat < 2 ^ 31 := by omega
  have hpos : pos a8 (StableHlo.Predicate.ixP r) = lessOne a8 (ix1 r) := by
    rw [ixP_eq_ix2]; exact pos_apply a8 hc r
  have hg : Host.gather gather_S20000_S2000000x1_S2000000_n_0_n_n_0_1_1 (iotaInDim S20000 32 0) (pos a8) (ix1 r)
      = BitVec.ofNat 32 (min (pos a8 (StableHlo.Predicate.ixP r)).toInt.toNat (20000 - 1)) := by
    rw [← ofFin_eq_ix1]
    exact StableHlo.Predicate.gather_take gather_S20000_S2000000x1_S2000000_n_0_n_n_0_1_1 rfl rfl rfl rfl
      (iotaInDim S20000 32 0) (pos a8) r (by norm_num)
  rw [Cert.LibAllOnes.reduce_andi_ones (inTable a8) (constantI S_ 1 1#1) reducesTo_S2000000x1_S2000000_d1 h_S_ (ix1 r)
    (fun _ => rfl) (inTable_apply a8 hc), select_one, hg, hpos]
  apply BitVec.eq_of_toNat_eq
  rw [BitVec.toNat_ofNat, StableHlo.Predicate.toInt_eq_toNat_of_lt hlt, Int.toNat_natCast]
  rw [min_eq_left (by omega)]
  omega

/-- The count in the pointer's own words. -/
theorem cnt_eq (a8 : IVec S20001 32) (r : ℕ) :
    cnt a8 r = (Finset.univ.filter fun m : Fin 20000 => Cert.Seg.pnat a8 m.castSucc ≤ r).card := by
  unfold cnt
  simp only [pnat_eq_pN, Fin.coe_castSucc]

/-- THE LABEL of row r: the number of groups starting at or before r, less one. -/
theorem labelTerm_apply (a8 : IVec S20001 32) (hc : Cert.Seg.Csr a8) (r : Fin 2000000) :
    (labelTerm a8 (ix1 r)).toNat
      = (Finset.univ.filter fun m : Fin 20000 => Cert.Seg.pnat a8 m.castSucc ≤ r.val).card - 1 := by
  rw [labelTerm_eq_lessOne a8 hc, lessOne_toNat a8 hc, cnt_eq]

/-- The label is a group number. -/
theorem labelTerm_lt (a8 : IVec S20001 32) (hc : Cert.Seg.Csr a8) (r : Fin 2000000) :
    (labelTerm a8 (ix1 r)).toNat < 20000 := by
  rw [labelTerm_eq_lessOne a8 hc, lessOne_toNat a8 hc]
  have hp := cnt_pos a8 hc r.val
  have hl := cnt_le a8 r.val
  omega

end Cert.ReferenceIdeal.RefValue

end
-- ==== Proof.LibScatterAddRows.lean ====
/-
  An accumulating float scatter of N whole rows into a two-axis table of K rows, read at an element, over the
  extended reals.

  `x.at[idx].add(upd)` of a table `x : [K, B]` with one row index per update (`idx : [N, 1]`, `upd : [N, B]`; also what
  `jax.ops.segment_sum` of a two-axis array lowers to) prints as a scatter whose first operand axis is inserted and
  indexed by the start index, and whose second operand axis is the update's one window axis. At the ideal instance
  the result at `(b, c)` is the operand's element plus the sum over the updates `i` whose index word, read as a signed
  integer, is `b`, of the update's element `(i, c)`; an update whose index is negative or at least K lands nowhere.

  The steps, each a lemma of its own. On the first operand axis the start of update element `(i, c')` is the signed
  index word of row `i` (`rowsDims_start0`) and the window coordinate is 0, the axis being inserted
  (`rowsDims_window0`); on the second axis the start is 0, the start index naming the first axis only
  (`rowsDims_start1`), and the window coordinate is `c'` (`rowsDims_window1`). So update element `(i, c')` lands on
  `(b, c)` exactly when the signed word of row `i` equals `b` and `c' = c` (`rowsDims_resultIdx?_eq_some_iff`). The sum
  over the update elements landing on `(b, c)`, written as a double sum over the coordinates (`sum_idx2`), then keeps
  one term of the inner sum, and what is left is a sum over the rows `i` alone.
-/
import Idealize.ShloMosaic.PureOps.Ideal
import Idealize.ShloMosaic.Lib.ValueIdx

noncomputable section

open scoped BigOperators

namespace Idealize.ShloMosaic.ScatterAddRows

open Idealize.ShloMosaic Idealize.ShloMosaic.ValueIdx

/-- The dimension numbers of a scatter of N rows into a table of K rows: operand `[K, B]`, indices `[N, 1]`,
    updates `[N, B]`. -/
abbrev rowsDims (K B N : Nat)
    (wf : ScatterDims.WF ⟨2, ![K, B]⟩ ⟨2, ![N, 1]⟩ ⟨2, ![N, B]⟩ [1] [0] [0] 1) :
    ScatterDims ⟨2, ![K, B]⟩ ⟨2, ![N, 1]⟩ ⟨2, ![N, B]⟩ where
  updateWindowDims := [1]
  insertedWindowDims := [0]
  scatterDimsToOperandDims := [0]
  indexVectorDim := 1
  wf := wf

/-- A property of the two axes holds of every axis once it holds of each. -/
theorem forall_axis2 {P : Fin 2 → Prop} (h0 : P 0) (h1 : P 1) : ∀ a, P a := by
  intro a
  match a with
  | ⟨0, _⟩ => exact h0
  | ⟨1, _⟩ => exact h1

/-- Two two-axis indices with the same two coordinates are equal. -/
theorem idx2_ext {n0 n1 : Nat} {f g : (⟨2, ![n0, n1]⟩ : Shape).Idx}
    (h0 : f 0 = g 0) (h1 : f 1 = g 1) : f = g := by
  rw [eq_ix2 f, eq_ix2 g, h0, h1]

/-- The operand's one axis that is not inserted is the second. -/
theorem rowsDims_sKept {K B N : Nat}
    (wf : ScatterDims.WF ⟨2, ![K, B]⟩ ⟨2, ![N, 1]⟩ ⟨2, ![N, B]⟩ [1] [0] [0] 1) :
    (rowsDims K B N wf).sKept = [1] := rfl

/-- The start of an update element on the first operand axis is the index word of its row, read as a signed integer:
    the start index's only component sits at `[j 0, 0]` of the scatter indices. -/
theorem rowsDims_start0 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 0 = (idx (ix2 (j 0) (0 : Fin 1))).toInt := by
  unfold ScatterDims.start
  rw [dif_pos (show (0 : Fin 2) ∈ (rowsDims K B N wf).scatterDimsToOperandDims from List.mem_singleton.mpr rfl)]
  have hsi : (rowsDims K B N wf).siIdx j ⟨List.idxOf (0 : Fin 2) (rowsDims K B N wf).scatterDimsToOperandDims,
      List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The start index names the first operand axis only, so on the second axis every start is `0`. -/
theorem rowsDims_start1 {K B N w : Nat}
    (wf : ScatterDims.WF ⟨2, ![K, B]⟩ ⟨2, ![N, 1]⟩ ⟨2, ![N, B]⟩ [1] [0] [0] 1)
    (idx : IVec ⟨2, ![N, 1]⟩ w) (j : (⟨2, ![N, B]⟩ : Shape).Idx) :
    (rowsDims K B N wf).start j idx 1 = 0 := by
  unfold ScatterDims.start
  rw [dif_neg (show ¬ (1 : Fin 2) ∈ (rowsDims K B N wf).scatterDimsToOperandDims from
    fun h => absurd (List.mem_singleton.mp h) (by decide : ¬ (1 : Fin 2) = 0))]

/-- The first operand axis is an inserted window axis, so every update element's window coordinate on it is `0`. -/
theorem rowsDims_window0 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 0 = 0 := by
  unfold ScatterDims.window
  rw [dif_neg]
  rw [rowsDims_sKept]
  exact (by decide : ¬ (0 : Fin 2) ∈ [1])

/-- The second operand axis is the one kept axis, so the window coordinate on it is the update element's coordinate
    on its one window axis, the second. -/
theorem rowsDims_window1 {K B N : Nat}
    (wf : ScatterDims.WF ⟨2, ![K, B]⟩ ⟨2, ![N, 1]⟩ ⟨2, ![N, B]⟩ [1] [0] [0] 1)
    (j : (⟨2, ![N, B]⟩ : Shape).Idx) : (rowsDims K B N wf).window j 1 = (j 1).val := by
  unfold ScatterDims.window
  rw [dif_pos (show (1 : Fin 2) ∈ (rowsDims K B N wf).sKept by
    rw [rowsDims_sKept]; exact (by decide : (1 : Fin 2) ∈ [1]))]
  rfl

/-- Update element `(i, c')` lands on `(b, c)` exactly when the index word of row `i`, read as a signed integer,
    is `b`, and `c' = c`: a word that is negative or at least `K` names no row of the operand, and the update
    is dropped. -/
theorem rowsDims_resultIdx?_eq_some_iff {K B N w : Nat}
    (wf : ScatterDims.WF ⟨2, ![K, B]⟩ ⟨2, ![N, 1]⟩ ⟨2, ![N, B]⟩ [1] [0] [0] 1)
    (idx : IVec ⟨2, ![N, 1]⟩ w) (i : Fin N) (c' : Fin B) (b : Fin K) (c : Fin B) :
    (rowsDims K B N wf).resultIdx? (ix2 i c') idx = some (ix2 b c)
      ↔ (idx (ix2 i (0 : Fin 1))).toInt = (b.val : Int) ∧ c' = c := by
  have hb : b.val < K := b.isLt
  have hc' : c'.val < B := c'.isLt
  have p0 : (rowsDims K B N wf).start (ix2 i c') idx 0 + ((rowsDims K B N wf).window (ix2 i c') 0 : Int)
      = (idx (ix2 i (0 : Fin 1))).toInt := by
    rw [rowsDims_start0, rowsDims_window0]; exact Int.add_zero _
  have p1 : (rowsDims K B N wf).start (ix2 i c') idx 1 + ((rowsDims K B N wf).window (ix2 i c') 1 : Int)
      = (c'.val : Int) := by
    rw [rowsDims_start1, rowsDims_window1]; exact Int.zero_add _
  unfold ScatterDims.resultIdx?
  split_ifs with h
  · rw [Option.some.injEq]
    constructor
    · intro e
      have e0 := congrArg (fun f => (f 0).val) e
      have e1 := congrArg (fun f => (f 1).val) e
      change ((rowsDims K B N wf).start (ix2 i c') idx 0
        + ((rowsDims K B N wf).window (ix2 i c') 0 : Int)).toNat = b.val at e0
      change ((rowsDims K B N wf).start (ix2 i c') idx 1
        + ((rowsDims K B N wf).window (ix2 i c') 1 : Int)).toNat = c.val at e1
      have h0 := (h 0).1
      rw [p0] at e0 h0
      rw [p1] at e1
      exact ⟨by omega, Fin.ext (by omega)⟩
    · rintro ⟨e, rfl⟩
      refine idx2_ext (Fin.ext ?_) (Fin.ext ?_)
      · change ((rowsDims K B N wf).start (ix2 i c') idx 0
          + ((rowsDims K B N wf).window (ix2 i c') 0 : Int)).toNat = b.val
        rw [p0]; omega
      · change ((rowsDims K B N wf).start (ix2 i c') idx 1
          + ((rowsDims K B N wf).window (ix2 i c') 1 : Int)).toNat = c'.val
        rw [p1]; omega
  · constructor
    · intro e; exact absurd e (by simp)
    · rintro ⟨e, rfl⟩
      exfalso
      apply h
      refine forall_axis2 ?_ ?_
      · rw [p0]
        change 0 ≤ (idx (ix2 i (0 : Fin 1))).toInt ∧ (idx (ix2 i (0 : Fin 1))).toInt < (K : Int)
        omega
      · rw [p1]
        change 0 ≤ (c'.val : Int) ∧ (c'.val : Int) < (B : Int)
        omega

/-- THE SUM OF ROWS AT `(b, c)`: the operand's element plus the sum, over the updates whose index word is `b`, of the
    update's element `(i, c)`. -/
theorem scatterAdd_rows_apply {K B N w : Nat}
    (wf : ScatterDims.WF ⟨2, ![K, B]⟩ ⟨2, ![N, 1]⟩ ⟨2, ![N, B]⟩ [1] [0] [0] 1)
    (x : (⟨2, ![K, B]⟩ : Shape).Idx → EReal) (idx : IVec ⟨2, ![N, 1]⟩ w)
    (upd : (⟨2, ![N, B]⟩ : Shape).Idx → EReal) (b : Fin K) (c : Fin B) :
    Ideal.hostScatterAdd (rowsDims K B N wf) x idx upd (ix2 b c)
      = x (ix2 b c) + ∑ i : Fin N, if (idx (ix2 i (0 : Fin 1))).toInt = (b.val : Int) then upd (ix2 i c) else 0 := by
  unfold Ideal.hostScatterAdd
  refine congrArg (x (ix2 b c) + ·) ?_
  rw [Finset.sum_filter, sum_idx2]
  refine Finset.sum_congr rfl fun i _ => ?_
  have hc : ∀ c' : Fin B, c' ≠ c →
      (if (rowsDims K B N wf).resultIdx? (ix2 i c') idx = some (ix2 b c)
        then upd (ix2 i c') else 0) = 0 := fun c' hc' =>
    if_neg fun h => hc' ((rowsDims_resultIdx?_eq_some_iff wf idx i c' b c).mp h).2
  rw [Fintype.sum_eq_single c hc]
  exact if_congr ((rowsDims_resultIdx?_eq_some_iff wf idx i c b c).trans
    ⟨fun h => h.1, fun h => ⟨h, rfl⟩⟩) rfl rfl

end Idealize.ShloMosaic.ScatterAddRows

end
-- ==== Proof.RefOut.lean ====
/-
  The reference's result is the pooled sum. Every row of the perceptron is added into the entry of its label; the
  label of row r is the number of group starts at or before r, less one, which for a nondecreasing pointer from 0
  to the number of rows is exactly the group r lies in — so entry (s, e) collects the rows of group s.
-/
import proofs.«401660_j12979391169440_1_alg».proof.Proof.RefTerm
import proofs.«401660_j12979391169440_1_alg».proof.Proof.Spec
import proofs.«401660_j12979391169440_1_alg».proof.Proof.SegComb
import proofs.«401660_j12979391169440_1_alg».proof.Proof.LibScatterAddRows
import proofs.«401660_j12979391169440_1_alg».proof.Proof.LibScatterFold
import Idealize.ShloMosaic.PureOps.Ideal.Laws
import Idealize.ShloMosaic.Lib.Pipeline.Value
import Idealize.ShloMosaic.Lib.IdealHost

noncomputable section

namespace Cert.ReferenceIdeal.RefValue

open Idealize.ShloMosaic Idealize.ShloMosaic.ValueIdx Cert.ReferenceIdeal

/-- The label array laid out as a column of start indices reads back, at row r, the label of row r. -/
theorem labelCol_apply (lab : IVec S2000000 32) (h : S2000000.BroadcastsInDim S2000000x1 (![0] : Fin 1 → Fin S2000000x1.rank)) (r : Fin 2000000) :
    broadcastInDim S2000000x1 ![0] h lab (ix2 r (0 : Fin 1)) = lab (ix1 r) := by
  unfold broadcastInDim
  refine congrArg lab (funext fun a => ?_)
  match a with
  | ⟨0, _⟩ =>
    have h1 : ¬ (S2000000.size (⟨0, by decide⟩ : Fin S2000000.rank) = 1) := by show ¬ ((2000000 : ℕ) = 1); omega
    rw [dif_neg h1]
    rfl

/-- Rows added into a table of groups: entry (s, e) is the table's own entry plus the sum of column e over the rows
    whose label is s. -/
theorem pooled_apply (X : FVec Ideal S20000x32 .f32) (IDX : IVec S2000000x1 32) (H : FVec Ideal S2000000x32 .f32) (s : Fin 20000) (e : Fin 32) :
    Host.scatterAdd scatter_S20000x32_S2000000x1_S2000000x32_1_0_0_1 X IDX H (ix2 s e)
      = X (ix2 s e) + ∑ i : Fin 2000000, if (IDX (ix2 i (0 : Fin 1))).toInt = (s.val : Int) then H (ix2 i e) else 0 :=
  ScatterAddRows.scatterAdd_rows_apply (K := 20000) (B := 32) (N := 2000000)
    Facts₀.scatter_S20000x32_S2000000x1_S2000000x32_1_0_0_1_wf X IDX H s e

/-- The zero array the rows are added into. -/
theorem zeros_apply (h : S_.BroadcastsInDim S20000x32 (![] : Fin 0 → Fin S20000x32.rank)) (j : S20000x32.Idx) :
    broadcastInDim S20000x32 ![] h (constant (F := Ideal) S_ .f32 0x00000000#32) j = 0 := by
  rw [broadcastInDim_scalar_apply]
  unfold constant
  rw [Ideal.ofBits_def, Ideal.ofBits_zero_f32]

/-- With every row's value and label as stated, the reference's result is the pooled sum of the groups. -/
theorem outTerm_eq (a0 : FVec Ideal S2000000x8 .f32) (a1 : FVec Ideal S2000000x32 .f32) (a2 : FVec Ideal S40x64 .f32)
    (a3 : FVec Ideal S64 .f32) (a4 : FVec Ideal S64x64 .f32) (a5 : FVec Ideal S64 .f32) (a6 : FVec Ideal S64x32 .f32)
    (a7 : FVec Ideal S32 .f32) (a8 : IVec S20001 32) (f : Fin 2000000 → Fin 32 → EReal) (hc : Cert.Seg.Csr a8)
    (hrow : ∀ (r : Fin 2000000) (e : Fin 32), hTerm a0 a1 a2 a3 a4 a5 a6 a7 (ix2 r e) = f r e)
    (hlab : ∀ r : Fin 2000000, (labelTerm a8 (ix1 r)).toNat
      = (Finset.univ.filter fun m : Fin 20000 => Cert.Seg.pnat a8 m.castSucc ≤ r.val).card - 1)
    (hlt : ∀ r : Fin 2000000, (labelTerm a8 (ix1 r)).toNat < 20000) :
    outTerm a0 a1 a2 a3 a4 a5 a6 a7 a8 = Cert.Seg.segOut f a8 := by
  funext j
  obtain ⟨s, e, rfl⟩ : ∃ (s : Fin 20000) (e : Fin 32), j = ix2 s e := ⟨j 0, j 1, eq_ix2 j⟩
  show _ = Cert.Seg.seg (fun r => f r e) (Cert.Seg.pnat a8 (Fin.castSucc s)) (Cert.Seg.pnat a8 (Fin.succ s))
  rw [← Cert.Seg.sum_label_eq_seg (Cert.Seg.pnat a8) hc.first hc.mono hc.last (fun r => f r e) s]
  unfold outTerm
  rw [pooled_apply, zeros_apply, zero_add]
  refine Finset.sum_congr rfl fun r _ => ?_
  rw [labelCol_apply, hrow r e]
  have hlt' : (labelTerm a8 (ix1 r)).toNat < 2 ^ 31 := lt_trans (hlt r) (by norm_num)
  simp only [Cert.LibScatterFold.toInt_eq_iff_toNat_eq_of_lt _ hlt', hlab r]

end Cert.ReferenceIdeal.RefValue

end
-- ==== Proof.PreFacts.lean ====
/-
  The precondition, decoded.

  The predicate tests each of the eight float arrays entry by entry for |x| < +∞ and takes the conjunction of all
  the answers; it then tests the group pointer: its first entry is 0, each entry is at least its predecessor as a
  signed number, and its last entry is 2,000,000. When the whole conjunction is true,

  * every entry of every float array is a real number: an extended real x with max x (−x) < ⊤ is neither ⊤ nor ⊥;
  * the pointer delimits 20,000 consecutive groups tiling the 2,000,000 rows: a signed-monotone sequence that starts
    at 0 is nowhere negative, so every entry reads the same signed and unsigned, and the signed order of
    consecutive entries is the order of their natural-number values.
-/
import proofs.«401660_j12979391169440_1_alg».proof.Pre_finite_inputs
import proofs.«401660_j12979391169440_1_alg».proof.Proof.Gen.Pre_finite_inputs
import proofs.«401660_j12979391169440_1_alg».proof.Proof.Spec
import proofs.«401660_j12979391169440_1_alg».proof.Proof.LibAllOnes
import Idealize.ShloMosaic.Lib.ReduceAll
import Idealize.ShloMosaic.Lib.StableHlo.Predicate
import Idealize.ShloMosaic.Lib.ValueIdx
import Idealize.ShloMosaic.Lib.Pipeline.Value

noncomputable section

namespace Cert.Seg.PreFacts

open Idealize.ShloMosaic Idealize.ShloMosaic.ValueIdx Cert.Pre_finite_inputs

/-- The scalar shape has one index. -/
local instance : Subsingleton S_.Idx := ⟨fun a b => funext fun d => d.elim0⟩

/-! ## Floats: |x| < +∞ says x is a real number -/

/-- The f32 word `0x7F800000` (sign 0, exponent all ones, fraction 0) is +∞. -/
theorem inf_word : Ideal.ofBits .f32 0x7F800000#32 = (⊤ : EReal) := by
  simp [Ideal.ofBits, Ideal.ieee]

/-- An extended real whose absolute value max x (−x) is below +∞ is a real number: |⊤| = |⊥| = ⊤. -/
theorem real_of_abs_lt (x : EReal) (h : Ideal.cmp .olt (max x (-x)) (Ideal.ofBits .f32 0x7F800000#32) = 1#1) :
    ∃ a : ℝ, x = (a : EReal) := by
  rw [inf_word] at h
  simp only [Ideal.cmp, StableHlo.Predicate.ofBool_eq_one_iff, decide_eq_true_eq] at h
  induction x using EReal.rec with
  | bot => simp at h
  | top => simp at h
  | coe a => exact ⟨a, rfl⟩

/-- The conjunction over a whole array of the tests |x| < +∞ is true only if every entry is a real number. -/
theorem real_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi (cmpf .olt (Host.absf x) (broadcastInDim s ![] hb (constant (F := Ideal) S_ .f32 0x7F800000#32)))
      (constantI S_ 1 1#1) hr h0 ix0 = 1#1) : Cert.Seg.Real' x := by
  intro i
  have e := Host.reduce_andi_all _ _ hr h0 ix0 h i
  exact real_of_abs_lt (x i) e

/-! ## The pointer: slices read back -/

/-- The one-entry slice of the pointer at `off`, as a scalar, is entry `off`. -/
theorem slice1_read (off : Nat) (hs : S20001.Slices ![off] S1) (hc : S1.ShapeCasts S_) (k : Fin 20001) (hk : k.val = off)
    (x : IVec S20001 32) : shapeCast S_ (extractStridedSlice S1 ![off] x hs) hc ix0 = x (ix1 k) := by
  unfold shapeCast extractStridedSlice
  congr 1
  funext a
  match a with
  | ⟨0, _⟩ =>
    apply Fin.ext
    have h1 := (Shape.reshapeEquiv hc ix0 ⟨0, by decide⟩).isLt
    have hs1 : S1.size ⟨0, by decide⟩ = 1 := by decide
    show off + (Shape.reshapeEquiv hc ix0 ⟨0, _⟩).val = k.val
    omega

/-- Entry `m` of the 20,000-entry slice of the pointer at `off` is entry `off + m`. -/
theorem slice_read (off : Nat) (hs : S20001.Slices ![off] S20000) (m : Fin 20000) (k : Fin 20001) (hk : k.val = off + m.val)
    (x : IVec S20001 32) : extractStridedSlice S20000 ![off] x hs (ix1 m) = x (ix1 k) := by
  unfold extractStridedSlice
  congr 1
  funext a
  match a with
  | ⟨0, _⟩ =>
    apply Fin.ext
    show off + m.val = k.val
    omega

/-! ## The pointer: signed-monotone from 0 is monotone in value -/

/-- A 32-bit word that is not negative as a signed number reads the same signed and unsigned. -/
theorem toInt_eq_toNat_of_nonneg (w : BitVec 32) (h : 0 ≤ w.toInt) : w.toInt = (w.toNat : ℤ) := by
  have := w.isLt
  rw [BitVec.toInt_eq_toNat_cond] at h ⊢
  split_ifs at h ⊢ <;> omega

/-- A pointer that starts at 0, ends at 2,000,000 and never decreases as a signed sequence delimits consecutive groups:
    the signed values extended by the constant 2,000,000 past the end form a monotone sequence of integers starting at 0,
    so every entry is nonnegative, its signed value is its natural-number value, and consecutive entries are ordered as
    natural numbers. -/
theorem csr_of (p : IVec S20001 32) (hfirst : p (ix1 0) = 0#32) (hlast : p (ix1 (Fin.last 20000)) = 2000000#32)
    (hmono : ∀ m : Fin 20000, (p (ix1 m.castSucc)).toInt ≤ (p (ix1 m.succ)).toInt) : Cert.Seg.Csr p := by
  let f : ℕ → ℤ := fun k => if h : k < 20001 then (p (ix1 ⟨k, h⟩)).toInt else 2000000
  have hf : Monotone f := monotone_nat_of_le_succ (fun n => by
    by_cases h1 : n + 1 < 20001
    · have h2 : n < 20001 := by omega
      simp only [f, dif_pos h1, dif_pos h2]
      exact hmono ⟨n, by omega⟩
    · by_cases h2 : n < 20001
      · have hn : n = 20000 := by omega
        subst hn
        simp only [f, dif_pos h2, dif_neg h1]
        have : (p (ix1 ⟨20000, h2⟩)).toInt = 2000000 := by
          rw [show (⟨20000, h2⟩ : Fin 20001) = Fin.last 20000 from rfl, hlast]; decide
        omega
      · simp only [f, dif_neg h1, dif_neg h2]; exact le_refl _)
  have f0 : f 0 = 0 := by
    simp only [f, dif_pos (show 0 < 20001 by omega)]
    rw [show (⟨0, (show 0 < 20001 by omega)⟩ : Fin 20001) = 0 from rfl, hfirst]; decide
  have hk : ∀ k : Fin 20001, (p (ix1 k)).toInt = ((p (ix1 k)).toNat : ℤ) := fun k => by
    apply toInt_eq_toNat_of_nonneg
    have h0 := hf (Nat.zero_le k.val)
    rw [f0] at h0
    simpa only [f, dif_pos k.isLt] using h0
  refine ⟨?_, fun m => ?_, ?_⟩
  · show (p (ix1 0)).toNat = 0
    rw [hfirst]; rfl
  · show (p (ix1 m.castSucc)).toNat ≤ (p (ix1 m.succ)).toNat
    have := hmono m
    rw [hk, hk] at this
    exact_mod_cast this
  · show (p (ix1 (Fin.last 20000))).toNat = 2000000
    rw [hlast]; rfl

/-! ## The precondition, decoded -/

/-- If the precondition is true of the nine arguments, the eight float arrays hold real numbers only and the pointer
    delimits 20,000 consecutive groups tiling the 2,000,000 rows. -/
theorem of_pre (a0 : FVec Ideal S2000000x8 .f32) (a1 : FVec Ideal S2000000x32 .f32) (a2 : FVec Ideal S40x64 .f32) (a3 : FVec Ideal S64 .f32) (a4 : FVec Ideal S64x64 .f32) (a5 : FVec Ideal S64 .f32) (a6 : FVec Ideal S64x32 .f32) (a7 : FVec Ideal S32 .f32) (a8 : IVec S20001 32)
    (h : Cert.Pre_finite_inputs.fn (F := Ideal) a0 a1 a2 a3 a4 a5 a6 a7 a8 = fun _ => 1#1) :
    Cert.Seg.Real' a0 ∧ Cert.Seg.Real' a1 ∧ Cert.Seg.Real' a2 ∧ Cert.Seg.Real' a3 ∧ Cert.Seg.Real' a4 ∧ Cert.Seg.Real' a5 ∧ Cert.Seg.Real' a6 ∧ Cert.Seg.Real' a7 ∧ Cert.Seg.Csr a8 := by
  have h0 : Cert.Pre_finite_inputs.fn (F := Ideal) a0 a1 a2 a3 a4 a5 a6 a7 a8 ix0 = 1#1 := congrFun h ix0
  unfold fn fn_part1 fn_part2 at h0
  -- the conjunction of the eleven tests, the last test outermost
  simp only [andi, IntOp.andi_eq_one] at h0
  obtain ⟨⟨⟨⟨⟨⟨⟨⟨⟨⟨h3, h7⟩, h12⟩, h17⟩, h22⟩, h27⟩, h32⟩, h37⟩, h41⟩, h46⟩, h50⟩ := h0
  refine ⟨real_of_all a0 _ _ _ h3, real_of_all a1 _ _ _ h7, real_of_all a2 _ _ _ h12, real_of_all a3 _ _ _ h17,
    real_of_all a4 _ _ _ h22, real_of_all a5 _ _ _ h27, real_of_all a6 _ _ _ h32, real_of_all a7 _ _ _ h37, ?_⟩
  refine csr_of a8 ?_ ?_ (fun m => ?_)
  · -- ptr[0] = 0
    have e : cmpi .eq (shapeCast S_ (extractStridedSlice S1 ![0] a8 Facts.slices_S20001_S1_0) Facts.shapeCasts_S1_S_)
        (constantI S_ 32 0#32) ix0 = 1#1 := h41
    have e' := IntOp.cmpi_eq.1 e
    rw [slice1_read 0 _ _ 0 rfl] at e'
    exact e'
  · -- ptr[20000] = 2000000
    have e : cmpi .eq (shapeCast S_ (extractStridedSlice S1 ![20000] a8 Facts.slices_S20001_S1_20000) Facts.shapeCasts_S1_S_)
        (constantI S_ 32 2000000#32) ix0 = 1#1 := h50
    have e' := IntOp.cmpi_eq.1 e
    rw [slice1_read 20000 _ _ (Fin.last 20000) rfl] at e'
    exact e'
  · -- ptr[m + 1] ≥ ptr[m], signed, for every m < 20000
    have e := Host.reduce_andi_all _ _ _ _ ix0 h46 (ix1 m)
    have e' := IntOp.cmpi_sge.1 e
    rw [slice_read 1 _ m m.succ (by simp [Fin.val_succ]; omega), slice_read 0 _ m m.castSucc (by simp)] at e'
    exact e'

end Cert.Seg.PreFacts

end
-- ==== Proof.MlpReal.lean ====
/-
  The perceptron of real inputs is real: no infinity arises in any of its three affine layers.

  Each step of `mlpRow` keeps real numbers real. A product of two reals is real, a finite sum of reals is real, so an
  affine layer of real data is real; the rectifier is the maximum with the real number `0`; and a concatenated row
  reads one of its two real parts at every position.
-/
import proofs.«401660_j12979391169440_1_alg».proof.Proof.Spec
import Mathlib.Data.EReal.Basic
import Mathlib.Data.EReal.Operations

noncomputable section

namespace Cert.Seg

open Idealize.ShloMosaic Idealize.ShloMosaic.ValueIdx

/-- The f32 word `0x00000000` is the extended real `0`. -/
theorem mlpReal_zeroWord_eq : Ideal.ofBits .f32 0x00000000#32 = 0 := by simp [Ideal.ofBits, Ideal.ieee]

/-- The rectifier of a real number `a` is the real number `max a 0`. -/
theorem relu_real {v : EReal} (h : ∃ a : ℝ, v = (a : EReal)) : ∃ a : ℝ, relu v = (a : EReal) := by
  obtain ⟨a, rfl⟩ := h
  refine ⟨max a 0, ?_⟩
  unfold relu
  rw [mlpReal_zeroWord_eq]
  rcases le_total a 0 with h | h
  · rw [max_eq_right h, max_eq_right (by exact_mod_cast h)]; rfl
  · rw [max_eq_left h, max_eq_left (by exact_mod_cast h)]

/-- A finite sum of real numbers is real (by induction on the index set, one term at a time). -/
theorem mlpReal_sum_real {ι : Type} (s : Finset ι) (f : ι → EReal) (h : ∀ i ∈ s, ∃ a : ℝ, f i = (a : EReal)) :
    ∃ a : ℝ, ∑ i ∈ s, f i = (a : EReal) := by
  classical
  induction s using Finset.induction_on with
  | empty => exact ⟨0, by simp⟩
  | insert i s hi ih =>
    obtain ⟨a, ha⟩ := h i (Finset.mem_insert_self i s)
    obtain ⟨b, hb⟩ := ih (fun j hj => h j (Finset.mem_insert_of_mem hj))
    exact ⟨a + b, by rw [Finset.sum_insert hi, ha, hb, EReal.coe_add]⟩

/-- An affine layer of a real row, real weights and a real bias is real at every output position. -/
theorem layer_real {K J : Nat} {a : Fin K → EReal} {W : (⟨2, ![K, J]⟩ : Shape).Idx → EReal}
    {b : (⟨1, ![J]⟩ : Shape).Idx → EReal} (ha : Real' a) (hW : Real' W) (hb : Real' b) (j : Fin J) :
    ∃ c : ℝ, layer a W b j = (c : EReal) := by
  obtain ⟨s, hs⟩ := mlpReal_sum_real Finset.univ (fun k : Fin K => a k * W (ix2 k j)) (fun k _ => by
    obtain ⟨p, hp⟩ := ha k
    obtain ⟨q, hq⟩ := hW (ix2 k j)
    exact ⟨p * q, by rw [hp, hq, EReal.coe_mul]⟩)
  obtain ⟨t, ht⟩ := hb (ix1 j)
  exact ⟨s + t, by unfold layer; rw [hs, ht, EReal.coe_add]⟩

/-- The concatenation of a real feature row and a real embedding row is real. -/
theorem cat_real {xr : Fin 8 → EReal} {hr : Fin 32 → EReal} (hx : Real' xr) (hh : Real' hr) : Real' (cat xr hr) := by
  intro k
  unfold cat
  split
  · exact hx _
  · exact hh _

/-- The perceptron on any row of real node data, with real weights and biases, is real. -/
theorem rows_real {n : Nat} {x : (⟨2, ![n, 8]⟩ : Shape).Idx → EReal} {hn : (⟨2, ![n, 32]⟩ : Shape).Idx → EReal}
    {W1 : (⟨2, ![40, 64]⟩ : Shape).Idx → EReal} {b1 : (⟨1, ![64]⟩ : Shape).Idx → EReal}
    {W2 : (⟨2, ![64, 64]⟩ : Shape).Idx → EReal} {b2 : (⟨1, ![64]⟩ : Shape).Idx → EReal}
    {W3 : (⟨2, ![64, 32]⟩ : Shape).Idx → EReal} {b3 : (⟨1, ![32]⟩ : Shape).Idx → EReal}
    (hx : Real' x) (hh : Real' hn) (h1 : Real' W1) (h2 : Real' b1) (h3 : Real' W2) (h4 : Real' b2)
    (h5 : Real' W3) (h6 : Real' b3) (r : Fin n) (e : Fin 32) :
    ∃ a : ℝ, rows x hn W1 b1 W2 b2 W3 b3 r e = (a : EReal) := by
  unfold rows mlpRow
  have h0 : Real' (cat (fun k => x (ix2 r k)) (fun k => hn (ix2 r k))) :=
    cat_real (fun k => hx (ix2 r k)) (fun k => hh (ix2 r k))
  have hl1 : Real' (fun j => relu (layer (cat (fun k => x (ix2 r k)) (fun k => hn (ix2 r k))) W1 b1 j)) :=
    fun j => relu_real (layer_real h0 h1 h2 j)
  have hl2 : Real' (fun j => relu (layer (fun j => relu (layer (cat (fun k => x (ix2 r k))
      (fun k => hn (ix2 r k))) W1 b1 j)) W2 b2 j)) :=
    fun j => relu_real (layer_real hl1 h3 h4 j)
  exact layer_real hl2 h5 h6 e

end Cert.Seg

end
-- ==== Proof.lean ====
/-
  Pooling a three-layer perceptron over consecutive groups of rows: the kernel program against its reference.

  Both programs send every node row (8 features and 32 embedding entries) through the same three affine layers
  with a rectifier after the first two. Over the extended reals the kernel's matrix products, with their changes
  of float format, are the reference's contractions, so row by row the two perceptrons agree (Spec's rows).

  They differ in how they pool. The kernel keeps a running sum down all 2,000,000 rows — inside a tile of 8000 rows
  by thirteen doubling steps, from tile to tile through a carried row — puts a zero row in front, reads the result
  at the pointer's entries and subtracts consecutive reads: entry (s, e) is the prefix sum at the end of group s
  less the prefix sum at its start. The reference labels row r with the number of group starts at or before r,
  less one, and adds each row into its label's entry. For a pointer that is nondecreasing from 0 to the number of
  rows the label of r is the group r lies in, and for real (finite) values a difference of prefix sums is the sum
  of the rows between: both results are the sum of each group's rows. The precondition supplies exactly these two
  facts — every float input finite, the pointer a nondecreasing walk from 0 to 2,000,000.
-/
import proofs.«401660_j12979391169440_1_alg».proof.Defs
import proofs.«401660_j12979391169440_1_alg».proof.Proof.Gen.Kernel
import proofs.«401660_j12979391169440_1_alg».proof.Proof.Gen.Kernel.Frame
import proofs.«401660_j12979391169440_1_alg».proof.Proof.Gen.KernelIdeal
import proofs.«401660_j12979391169440_1_alg».proof.Proof.Gen.KernelIdeal.Frame
import proofs.«401660_j12979391169440_1_alg».proof.Proof.Gen.ReferenceIdeal
import proofs.«401660_j12979391169440_1_alg».proof.Proof.Gen.Pre_finite_inputs
import proofs.«401660_j12979391169440_1_alg».proof.Proof.KTail
import proofs.«401660_j12979391169440_1_alg».proof.Proof.RefRun
import proofs.«401660_j12979391169440_1_alg».proof.Proof.RefRows
import proofs.«401660_j12979391169440_1_alg».proof.Proof.RefLabel
import proofs.«401660_j12979391169440_1_alg».proof.Proof.RefOut
import proofs.«401660_j12979391169440_1_alg».proof.Proof.PreFacts
import proofs.«401660_j12979391169440_1_alg».proof.Proof.MlpReal
import proofs.«401660_j12979391169440_1_alg».proof.Proof.SegComb
import Idealize.ShloMosaic.Adequacy
import Idealize.ShloMosaic.Init

noncomputable section

namespace Cert.Proof

open Idealize.ShloMosaic Idealize.ShloMosaic.TcCoe Idealize.SL.Sem

/-- The kernel program as printed runs, leaving its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs: its run with the result forgotten. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments both programs end with the pooled sums of the groups. -/
theorem algebraic : Cert.algebraic_KernelIdeal_ReferenceIdeal := by
  intro m ρ m' ρ' hpre hagree
  have hf := fun c : Dev Cert.KernelIdeal.nD => Cert.Seg.PreFacts.of_pre _ _ _ _ _ _ _ _ _ (hpre c)
  refine ⟨fun c => Cert.KernelIdeal.KValue.kout m c,
    Cert.KernelIdeal.KValue.run m ρ (fun c => (hf c).2.2.2.2.2.2.2.2), ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8⟩ := hf c
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]
  refine (Cert.ReferenceIdeal.RefValue.outTerm_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
    (fun r e => Cert.KernelIdeal.KValue.hrow m c r e) h8
    (fun r e => Cert.ReferenceIdeal.RefValue.hTerm_apply _ _ _ _ _ _ _ _ r e)
    (Cert.ReferenceIdeal.RefValue.labelTerm_apply _ h8) (Cert.ReferenceIdeal.RefValue.labelTerm_lt _ h8)).trans ?_
  funext j
  exact (Cert.Seg.pre_sub_pre _ (fun r => Cert.Seg.rows_real h0 h1 h2 h3 h4 h5 h6 h7 r (j 1)) _ _ (h8.mono (j 0))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
